-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288 : Shape := ⟨1, ![12288]⟩
abbrev S24575x2 : Shape := ⟨2, ![24575, 2]⟩
abbrev S1000x256 : Shape := ⟨2, ![1000, 256]⟩
abbrev S256x32 : Shape := ⟨2, ![256, 32]⟩
abbrev S32 : Shape := ⟨1, ![32]⟩
abbrev S32x32 : Shape := ⟨2, ![32, 32]⟩
abbrev S_ : Shape := ⟨0, ![]⟩

class Facts : Prop where
  bcast_S_S1000x256 : S_.BroadcastsInDim S1000x256 (![] : Fin 0 → Fin S1000x256.rank)
  reducesTo_S1000x256_S_d0_1 : S1000x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg6 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : IVec S12288 32) (main_arg1 : IVec S24575x2 32) (main_arg2 : FVec F S1000x256 .f32) (main_arg3 : FVec F S256x32 .f32) (main_arg4 : FVec F S32 .f32) (main_arg5 : FVec F S32x32 .f32) (main_arg6 : FVec F S32 .f32) : IVec S_ 1 :=
  let main_v0 : FVec F S1000x256 .f32 := Host.absf main_arg2
  let main_cst : FVec F S_ .f32 := constant S_ .f32 0x7F800000#32
  let main_v1 : FVec F S1000x256 .f32 := broadcastInDim S1000x256 ![] bcast_S_S1000x256 main_cst
  let main_v2 : IVec S1000x256 1 := cmpf .olt main_v0 main_v1
  let main_c : IVec S_ 1 := constantI S_ 1 1#1
  let main_v3 : IVec S_ 1 := (fun x v => Host.reduce IntOp.andi x v reducesTo_S1000x256_S_d0_1 h_S_) main_v2 main_c
  let main_v4 : FVec F S256x32 .f32 := Host.absf main_arg3
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_v13 main_v16
-- ==== Kernel.lean ====
abbrev S12288 : Shape := ⟨1, ![12288]⟩
abbrev S24575x2 : Shape := ⟨2, ![24575, 2]⟩
abbrev S1000x256 : Shape := ⟨2, ![1000, 256]⟩
abbrev S256x32 : Shape := ⟨2, ![256, 32]⟩
abbrev S32 : Shape := ⟨1, ![32]⟩
abbrev S32x32 : Shape := ⟨2, ![32, 32]⟩
abbrev S_ : Shape := ⟨0, ![]⟩
abbrev S12288x1 : Shape := ⟨2, ![12288, 1]⟩
abbrev S12288x256 : Shape := ⟨2, ![12288, 256]⟩
abbrev S24575x1 : Shape := ⟨2, ![24575, 1]⟩
abbrev S24575 : Shape := ⟨1, ![24575]⟩
abbrev S12288x12288 : Shape := ⟨2, ![12288, 12288]⟩
abbrev S12288x32 : Shape := ⟨2, ![12288, 32]⟩
abbrev S1x32 : Shape := ⟨2, ![1, 32]⟩
abbrev S2048x4096 : Shape := ⟨2, ![2048, 4096]⟩
abbrev S4096x32 : Shape := ⟨2, ![4096, 32]⟩
abbrev S2048x1 : Shape := ⟨2, ![2048, 1]⟩
abbrev S2048x32 : Shape := ⟨2, ![2048, 32]⟩

abbrev nBuf : Space → Nat
  | .hbm => 65
  | .vmem => 18
  | .smem => 0
  | _ => 0

abbrev bufTy : (tb : Table) → Fin (tcTables nBuf tb) → BufTy
  | .hbm, ⟨0, _⟩ => ⟨S12288, .i32⟩
  | .hbm, ⟨1, _⟩ => ⟨S24575x2, .i32⟩
  | .hbm, ⟨2, _⟩ => ⟨S1000x256, .f32⟩
  | .hbm, ⟨3, _⟩ => ⟨S256x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S_, .i32⟩
  | .hbm, ⟨8, _⟩ => ⟨S12288, .i32⟩
  | .hbm, ⟨9, _⟩ => ⟨S12288, .i1⟩
  | .hbm, ⟨10, _⟩ => ⟨S_, .i32⟩
  | .hbm, ⟨11, _⟩ => ⟨S12288, .i32⟩
  | .hbm, ⟨12, _⟩ => ⟨S12288, .i32⟩
  | .hbm, ⟨13, _⟩ => ⟨S12288, .i32⟩
  | .hbm, ⟨14, _⟩ => ⟨S12288x1, .i32⟩
  | .hbm, ⟨15, _⟩ => ⟨S12288x256, .f32⟩
  | .hbm, ⟨16, _⟩ => ⟨S24575x1, .i32⟩
  | .hbm, ⟨17, _⟩ => ⟨S24575, .i32⟩
  | .hbm, ⟨18, _⟩ => ⟨S24575x1, .i32⟩
  | .hbm, ⟨19, _⟩ => ⟨S24575, .i32⟩
  | .hbm, ⟨20, _⟩ => ⟨S_, .bf16⟩
  | .hbm, ⟨21, _⟩ => ⟨S12288x12288, .bf16⟩
  | .hbm, ⟨22, _⟩ => ⟨S_, .i32⟩
  | .hbm, ⟨23, _⟩ => ⟨S24575, .i32⟩
  | .hbm, ⟨24, _⟩ => ⟨S24575, .i1⟩
  | .hbm, ⟨25, _⟩ => ⟨S_, .i32⟩
  | .hbm, ⟨26, _⟩ => ⟨S24575, .i32⟩
  | .hbm, ⟨27, _⟩ => ⟨S24575, .i32⟩
  | .hbm, ⟨28, _⟩ => ⟨S24575, .i32⟩
  | .hbm, ⟨29, _⟩ => ⟨S_, .i32⟩
  | .hbm, ⟨30, _⟩ => ⟨S24575, .i32⟩
  | .hbm, ⟨31, _⟩ => ⟨S24575, .i1⟩
  | .hbm, ⟨32, _⟩ => ⟨S_, .i32⟩
  | .hbm, ⟨33, _⟩ => ⟨S24575, .i32⟩
  | .hbm, ⟨34, _⟩ => ⟨S24575, .i32⟩
  | .hbm, ⟨35, _⟩ => ⟨S24575, .i32⟩
  | .hbm, ⟨36, _⟩ => ⟨S24575x1, .i32⟩
  | .hbm, ⟨37, _⟩ => ⟨S24575x1, .i32⟩
  | .hbm, ⟨38, _⟩ => ⟨S24575x2, .i32⟩
  | .hbm, ⟨39, _⟩ => ⟨S_, .bf16⟩
  | .hbm, ⟨40, _⟩ => ⟨S24575, .bf16⟩
  | .hbm, ⟨41, _⟩ => ⟨S12288x12288, .bf16⟩
  | .hbm, ⟨42, _⟩ => ⟨S12288x12288, .f32⟩
  | .hbm, ⟨43, _⟩ => ⟨S_, .f32⟩
  | .hbm, ⟨44, _⟩ => ⟨S12288, .f32⟩
  | .hbm, ⟨45, _⟩ => ⟨S_, .f32⟩
  | .hbm, ⟨46, _⟩ => ⟨S12288, .f32⟩
  | .hbm, ⟨47, _⟩ => ⟨S12288, .f32⟩
  | .hbm, ⟨48, _⟩ => ⟨S12288x1, .f32⟩
  | .hbm, ⟨49, _⟩ => ⟨S12288x32, .f32⟩
  | .hbm, ⟨50, _⟩ => ⟨S1x32, .f32⟩
  | .hbm, ⟨51, _⟩ => ⟨S12288x32, .f32⟩
  | .hbm, ⟨52, _⟩ => ⟨S12288x32, .f32⟩
  | .hbm, ⟨53, _⟩ => ⟨S12288x32, .f32⟩
  | .hbm, ⟨54, _⟩ => ⟨S12288x32, .f32⟩
  | .hbm, ⟨55, _⟩ => ⟨S12288x32, .bf16⟩
  | .hbm, ⟨56, _⟩ => ⟨S12288x32, .f32⟩
  | .hbm, ⟨57, _⟩ => ⟨S12288x32, .f32⟩
  | .hbm, ⟨58, _⟩ => ⟨S1x32, .f32⟩
  | .hbm, ⟨59, _⟩ => ⟨S12288x32, .f32⟩
  | .hbm, ⟨60, _⟩ => ⟨S12288x32, .f32⟩
  | .hbm, ⟨61, _⟩ => ⟨S12288x32, .f32⟩
  | .hbm, ⟨62, _⟩ => ⟨S12288x32, .f32⟩
  | .hbm, ⟨63, _⟩ => ⟨S12288x32, .bf16⟩
  | .hbm, ⟨64, _⟩ => ⟨S12288x32, .f32⟩
  | .local _ .vmem, ⟨0, _⟩ => ⟨S2048x4096, .bf16⟩
  | .local _ .vmem, ⟨1, _⟩ => ⟨S2048x4096, .bf16⟩
  | .local _ .vmem, ⟨2, _⟩ => ⟨S4096x32, .bf16⟩
  | .local _ .vmem, ⟨3, _⟩ => ⟨S4096x32, .bf16⟩
  | .local _ .vmem, ⟨4, _⟩ => ⟨S2048x1, .f32⟩
  | .local _ .vmem, ⟨5, _⟩ => ⟨S2048x1, .f32⟩
  | .local _ .vmem, ⟨6, _⟩ => ⟨S2048x32, .f32⟩
  | .local _ .vmem, ⟨7, _⟩ => ⟨S2048x32, .f32⟩
  | .local _ .vmem, ⟨8, _⟩ => ⟨S2048x32, .f32⟩
  | .local _ .vmem, ⟨9, _⟩ => ⟨S2048x4096, .bf16⟩
  | .local _ .vmem, ⟨10, _⟩ => ⟨S2048x4096, .bf16⟩
  | .local _ .vmem, ⟨11, _⟩ => ⟨S4096x32, .bf16⟩
  | .local _ .vmem, ⟨12, _⟩ => ⟨S4096x32, .bf16⟩
  | .local _ .vmem, ⟨13, _⟩ => ⟨S2048x1, .f32⟩
  | .local _ .vmem, ⟨14, _⟩ => ⟨S2048x1, .f32⟩
  | .local _ .vmem, ⟨15, _⟩ => ⟨S2048x32, .f32⟩
  | .local _ .vmem, ⟨16, _⟩ => ⟨S2048x32, .f32⟩
  | .local _ .vmem, ⟨17, _⟩ => ⟨S2048x32, .f32⟩
  | _, _ => ⟨S12288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![6, 3], ![false, false]⟩

def k0_cond2 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![6, 3], ![false, false]⟩

def k1_cond2 (i : grid1.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S12288 : S_.BroadcastsInDim S12288 (![] : Fin 0 → Fin S12288.rank)
  bcast_S12288_S12288x1_0 : S12288.BroadcastsInDim S12288x1 (![0] : Fin 1 → Fin S12288x1.rank)
  slices_S24575x2_S24575x1_0_0 : S24575x2.Slices ![0, 0] S24575x1
  shapeCasts_S24575x1_S24575 : S24575x1.ShapeCasts S24575
  slices_S24575x2_S24575x1_0_1 : S24575x2.Slices ![0, 1] S24575x1
  bcast_S_S12288x12288 : S_.BroadcastsInDim S12288x12288 (![] : Fin 0 → Fin S12288x12288.rank)
  bcast_S_S24575 : S_.BroadcastsInDim S24575 (![] : Fin 0 → Fin S24575.rank)
  bcast_S24575_S24575x1_0 : S24575.BroadcastsInDim S24575x1 (![0] : Fin 1 → Fin S24575x1.rank)
  concatenates_S24575x1_S24575x1_S24575x2_d1 : Shape.Concatenates [S24575x1, S24575x1] S24575x2 1
  bitsLt_bf16_f32 : FTy.bits .bf16 < FTy.bits .f32
  reducesTo_S12288x12288_S12288_d1 : S12288x12288.ReducesTo [1] S12288
  h_S_ : 0 < S_.numel
  bcast_S32_S1x32_1 : S32.BroadcastsInDim S1x32 (![1] : Fin 1 → Fin S1x32.rank)
  bcast_S1x32_S12288x32_0_1 : S1x32.BroadcastsInDim S12288x32 (![0, 1] : Fin 2 → Fin S12288x32.rank)
  bcast_S12288x1_S12288x32_0_1 : S12288x1.BroadcastsInDim S12288x32 (![0, 1] : Fin 2 → Fin S12288x32.rank)
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x32 : S2048x1.Broadcasts S2048x32
  gather_S1000x256_S12288x1_S12288x256_1_0_n_n_0_1_1256_wf : GatherDims.WF S1000x256 S12288x1 S12288x256 [1] [0] [] [0] [] 1 ![1, 256]
  scatter_S12288x12288_S24575x2_S24575_n_01_01_1_wf : ScatterDims.WF S12288x12288 S24575x2 S24575 [] [0, 1] [0, 1] 1
  dot_S12288x256_S256x32_S12288x32_1_0_0_1_n_n_wf : DotDims.WF S12288x256 S256x32 S12288x32 [1] [0] [0] [1] [] []
  dot_S2048x4096_S4096x32_S2048x32_1_0_0_1_n_n_wf : DotDims.WF S2048x4096 S4096x32 S2048x32 [1] [0] [0] [1] [] []
  dot_S12288x32_S32x32_S12288x32_1_0_0_1_n_n_wf : DotDims.WF S12288x32 S32x32 S12288x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S12288x12288.size a
  hwx0_0 : ∀ i : grid0.Coords, EltTy.bits .bf16 = 32 ∨ (Rect.block (s := S12288x12288) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S12288x32.size a
  hwx0_1 : ∀ i : grid0.Coords, EltTy.bits .bf16 = 32 ∨ (Rect.block (s := S12288x32) S4096x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S12288x1.size a
  hwx0_2 : ∀ i : grid0.Coords, EltTy.bits .f32 = 32 ∨ (Rect.block (s := S12288x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x32.size a ≤ S12288x32.size a
  hwx0_3 : ∀ i : grid0.Coords, EltTy.bits .f32 = 32 ∨ (Rect.block (s := S12288x32) S2048x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x4096.size a ≤ S12288x12288.size a
  hwx1_0 : ∀ i : grid1.Coords, EltTy.bits .bf16 = 32 ∨ (Rect.block (s := S12288x12288) S2048x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x32.size a ≤ S12288x32.size a
  hwx1_1 : ∀ i : grid1.Coords, EltTy.bits .bf16 = 32 ∨ (Rect.block (s := S12288x32) S4096x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S12288x1.size a
  hwx1_2 : ∀ i : grid1.Coords, EltTy.bits .f32 = 32 ∨ (Rect.block (s := S12288x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x32.size a ≤ S12288x32.size a
  hwx1_3 : ∀ i : grid1.Coords, EltTy.bits .f32 = 32 ∨ (Rect.block (s := S12288x32) S2048x32.size (cc1_transform_3 i) (hinb1_3 i)).WholeWords (EltTy.packing .f32)

variable [Facts₀]

def gather_S1000x256_S12288x1_S12288x256_1_0_n_n_0_1_1256 : GatherDims S1000x256 S12288x1 S12288x256 where
  offsetDims := [1]
  collapsedSliceDims := [0]
  operandBatchingDims := []
  startIndicesBatchingDims := []
  startIndexMap := [0]
  indexVectorDim := 1
  sliceSizes := ![1, 256]
  wf := gather_S1000x256_S12288x1_S12288x256_1_0_n_n_0_1_1256_wf
def scatter_S12288x12288_S24575x2_S24575_n_01_01_1 : ScatterDims S12288x12288 S24575x2 S24575 where
  updateWindowDims := []
  insertedWindowDims := [0, 1]
  scatterDimsToOperandDims := [0, 1]
  indexVectorDim := 1
  wf := scatter_S12288x12288_S24575x2_S24575_n_01_01_1_wf
def dot_S12288x256_S256x32_S12288x32_1_0_0_1_n_n : DotDims S12288x256 S256x32 S12288x32 where
  lhsContracting := [1]
  rhsContracting := [0]
  lhsNonContracting := [0]
  rhsNonContracting := [1]
  lhsBatch := []
  rhsBatch := []
  wf := dot_S12288x256_S256x32_S12288x32_1_0_0_1_n_n_wf
def dot_S2048x4096_S4096x32_S2048x32_1_0_0_1_n_n : DotDims S2048x4096 S4096x32 S2048x32 where
  lhsContracting := [1]
  rhsContracting := [0]
  lhsNonContracting := [0]
  rhsNonContracting := [1]
  lhsBatch := []
  rhsBatch := []
  wf := dot_S2048x4096_S4096x32_S2048x32_1_0_0_1_n_n_wf
def dot_S12288x32_S32x32_S12288x32_1_0_0_1_n_n : DotDims S12288x32 S32x32 S12288x32 where
  lhsContracting := [1]
  rhsContracting := [0]
  lhsNonContracting := [0]
  rhsNonContracting := [1]
  lhsBatch := []
  rhsBatch := []
  wf := dot_S12288x32_S32x32_S12288x32_1_0_0_1_n_n_wf

abbrev win0_0 : Pipeline.Window sig grid0 :=
  Pipeline.Window.ofSpec (Memref.whole main_v26) S2048x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S2048x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v26) S2048x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S4096x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S2048x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S12288 : Shape := ⟨1, ![12288]⟩
abbrev S24575x2 : Shape := ⟨2, ![24575, 2]⟩
abbrev S1000x256 : Shape := ⟨2, ![1000, 256]⟩
abbrev S256x32 : Shape := ⟨2, ![256, 32]⟩
abbrev S32 : Shape := ⟨1, ![32]⟩
abbrev S32x32 : Shape := ⟨2, ![32, 32]⟩
abbrev S_ : Shape := ⟨0, ![]⟩
abbrev S12288x1 : Shape := ⟨2, ![12288, 1]⟩
abbrev S12288x256 : Shape := ⟨2, ![12288, 256]⟩
abbrev S12288x12288 : Shape := ⟨2, ![12288, 12288]⟩
abbrev S24575x1 : Shape := ⟨2, ![24575, 1]⟩
abbrev S24575 : Shape := ⟨1, ![24575]⟩
abbrev S1x12288 : Shape := ⟨2, ![1, 12288]⟩
abbrev S12288x32 : Shape := ⟨2, ![12288, 32]⟩
abbrev S1x32 : Shape := ⟨2, ![1, 32]⟩

abbrev nBuf : Space → Nat
  | .hbm => 69
  | .vmem => 0
  | .smem => 0
  | _ => 0

abbrev bufTy : (tb : Table) → Fin (tcTables nBuf tb) → BufTy
  | .hbm, ⟨0, _⟩ => ⟨S12288, .i32⟩
  | .hbm, ⟨1, _⟩ => ⟨S24575x2, .i32⟩
  | .hbm, ⟨2, _⟩ => ⟨S1000x256, .f32⟩
  | .hbm, ⟨3, _⟩ => ⟨S256x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S_, .i32⟩
  | .hbm, ⟨8, _⟩ => ⟨S12288, .i32⟩
  | .hbm, ⟨9, _⟩ => ⟨S12288, .i1⟩
  | .hbm, ⟨10, _⟩ => ⟨S_, .i32⟩
  | .hbm, ⟨11, _⟩ => ⟨S12288, .i32⟩
  | .hbm, ⟨12, _⟩ => ⟨S12288, .i32⟩
  | .hbm, ⟨13, _⟩ => ⟨S12288, .i32⟩
  | .hbm, ⟨14, _⟩ => ⟨S12288x1, .i32⟩
  | .hbm, ⟨15, _⟩ => ⟨S12288x256, .f32⟩
  | .hbm, ⟨16, _⟩ => ⟨S_, .f32⟩
  | .hbm, ⟨17, _⟩ => ⟨S12288x12288, .f32⟩
  | .hbm, ⟨18, _⟩ => ⟨S24575x1, .i32⟩
  | .hbm, ⟨19, _⟩ => ⟨S24575, .i32⟩
  | .hbm, ⟨20, _⟩ => ⟨S24575x1, .i32⟩
  | .hbm, ⟨21, _⟩ => ⟨S24575, .i32⟩
  | .hbm, ⟨22, _⟩ => ⟨S_, .i32⟩
  | .hbm, ⟨23, _⟩ => ⟨S24575, .i32⟩
  | .hbm, ⟨24, _⟩ => ⟨S24575, .i1⟩
  | .hbm, ⟨25, _⟩ => ⟨S_, .i32⟩
  | .hbm, ⟨26, _⟩ => ⟨S24575, .i32⟩
  | .hbm, ⟨27, _⟩ => ⟨S24575, .i32⟩
  | .hbm, ⟨28, _⟩ => ⟨S24575, .i32⟩
  | .hbm, ⟨29, _⟩ => ⟨S_, .i32⟩
  | .hbm, ⟨30, _⟩ => ⟨S24575, .i32⟩
  | .hbm, ⟨31, _⟩ => ⟨S24575, .i1⟩
  | .hbm, ⟨32, _⟩ => ⟨S_, .i32⟩
  | .hbm, ⟨33, _⟩ => ⟨S24575, .i32⟩
  | .hbm, ⟨34, _⟩ => ⟨S24575, .i32⟩
  | .hbm, ⟨35, _⟩ => ⟨S24575, .i32⟩
  | .hbm, ⟨36, _⟩ => ⟨S24575x1, .i32⟩
  | .hbm, ⟨37, _⟩ => ⟨S24575x1, .i32⟩
  | .hbm, ⟨38, _⟩ => ⟨S24575x2, .i32⟩
  | .hbm, ⟨39, _⟩ => ⟨S_, .f32⟩
  | .hbm, ⟨40, _⟩ => ⟨S24575, .f32⟩
  | .hbm, ⟨41, _⟩ => ⟨S12288x12288, .f32⟩
  | .hbm, ⟨42, _⟩ => ⟨S_, .f32⟩
  | .hbm, ⟨43, _⟩ => ⟨S12288, .f32⟩
  | .hbm, ⟨44, _⟩ => ⟨S_, .f32⟩
  | .hbm, ⟨45, _⟩ => ⟨S12288, .f32⟩
  | .hbm, ⟨46, _⟩ => ⟨S12288, .f32⟩
  | .hbm, ⟨47, _⟩ => ⟨S12288x1, .f32⟩
  | .hbm, ⟨48, _⟩ => ⟨S12288x12288, .f32⟩
  | .hbm, ⟨49, _⟩ => ⟨S12288x12288, .f32⟩
  | .hbm, ⟨50, _⟩ => ⟨S1x12288, .f32⟩
  | .hbm, ⟨51, _⟩ => ⟨S12288x12288, .f32⟩
  | .hbm, ⟨52, _⟩ => ⟨S12288x12288, .f32⟩
  | .hbm, ⟨53, _⟩ => ⟨S12288x32, .f32⟩
  | .hbm, ⟨54, _⟩ => ⟨S1x32, .f32⟩
  | .hbm, ⟨55, _⟩ => ⟨S12288x32, .f32⟩
  | .hbm, ⟨56, _⟩ => ⟨S12288x32, .f32⟩
  | .hbm, ⟨57, _⟩ => ⟨S12288x32, .f32⟩
  | .hbm, ⟨58, _⟩ => ⟨S_, .f32⟩
  | .hbm, ⟨59, _⟩ => ⟨S12288x32, .f32⟩
  | .hbm, ⟨60, _⟩ => ⟨S12288x32, .f32⟩
  | .hbm, ⟨61, _⟩ => ⟨S12288x32, .f32⟩
  | .hbm, ⟨62, _⟩ => ⟨S1x32, .f32⟩
  | .hbm, ⟨63, _⟩ => ⟨S12288x32, .f32⟩
  | .hbm, ⟨64, _⟩ => ⟨S12288x32, .f32⟩
  | .hbm, ⟨65, _⟩ => ⟨S12288x32, .f32⟩
  | .hbm, ⟨66, _⟩ => ⟨S_, .f32⟩
  | .hbm, ⟨67, _⟩ => ⟨S12288x32, .f32⟩
  | .hbm, ⟨68, _⟩ => ⟨S12288x32, .f32⟩
  | _, _ => ⟨S12288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call0_cst : Ref sig .tc := ⟨.hbm, 58, rfl⟩
abbrev main_call0_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  bcast_S_S12288 : S_.BroadcastsInDim S12288 (![] : Fin 0 → Fin S12288.rank)
  bcast_S12288_S12288x1_0 : S12288.BroadcastsInDim S12288x1 (![0] : Fin 1 → Fin S12288x1.rank)
  bcast_S_S12288x12288 : S_.BroadcastsInDim S12288x12288 (![] : Fin 0 → Fin S12288x12288.rank)
  slices_S24575x2_S24575x1_0_0 : S24575x2.Slices ![0, 0] S24575x1
  shapeCasts_S24575x1_S24575 : S24575x1.ShapeCasts S24575
  slices_S24575x2_S24575x1_0_1 : S24575x2.Slices ![0, 1] S24575x1
  bcast_S_S24575 : S_.BroadcastsInDim S24575 (![] : Fin 0 → Fin S24575.rank)
  bcast_S24575_S24575x1_0 : S24575.BroadcastsInDim S24575x1 (![0] : Fin 1 → Fin S24575x1.rank)
  concatenates_S24575x1_S24575x1_S24575x2_d1 : Shape.Concatenates [S24575x1, S24575x1] S24575x2 1
  reducesTo_S12288x12288_S12288_d1 : S12288x12288.ReducesTo [1] S12288
  h_S_ : 0 < S_.numel
  bcast_S12288x1_S12288x12288_0_1 : S12288x1.BroadcastsInDim S12288x12288 (![0, 1] : Fin 2 → Fin S12288x12288.rank)
  bcast_S12288_S1x12288_1 : S12288.BroadcastsInDim S1x12288 (![1] : Fin 1 → Fin S1x12288.rank)
  bcast_S1x12288_S12288x12288_0_1 : S1x12288.BroadcastsInDim S12288x12288 (![0, 1] : Fin 2 → Fin S12288x12288.rank)
  bcast_S32_S1x32_1 : S32.BroadcastsInDim S1x32 (![1] : Fin 1 → Fin S1x32.rank)
  bcast_S1x32_S12288x32_0_1 : S1x32.BroadcastsInDim S12288x32 (![0, 1] : Fin 2 → Fin S12288x32.rank)
  bcast_S_S12288x32 : S_.BroadcastsInDim S12288x32 (![] : Fin 0 → Fin S12288x32.rank)
  gather_S1000x256_S12288x1_S12288x256_1_0_n_n_0_1_1256_wf : GatherDims.WF S1000x256 S12288x1 S12288x256 [1] [0] [] [0] [] 1 ![1, 256]
  scatter_S12288x12288_S24575x2_S24575_n_01_01_1_wf : ScatterDims.WF S12288x12288 S24575x2 S24575 [] [0, 1] [0, 1] 1
  dot_S12288x256_S256x32_S12288x32_1_0_0_1_n_n_wf : DotDims.WF S12288x256 S256x32 S12288x32 [1] [0] [0] [1] [] []
  dot_S12288x12288_S12288x32_S12288x32_1_0_0_1_n_n_wf : DotDims.WF S12288x12288 S12288x32 S12288x32 [1] [0] [0] [1] [] []
  dot_S12288x32_S32x32_S12288x32_1_0_0_1_n_n_wf : DotDims.WF S12288x32 S32x32 S12288x32 [1] [0] [0] [1] [] []

variable [Facts₀]

def gather_S1000x256_S12288x1_S12288x256_1_0_n_n_0_1_1256 : GatherDims S1000x256 S12288x1 S12288x256 where
  offsetDims := [1]
  collapsedSliceDims := [0]
  operandBatchingDims := []
  startIndicesBatchingDims := []
  startIndexMap := [0]
  indexVectorDim := 1
  sliceSizes := ![1, 256]
  wf := gather_S1000x256_S12288x1_S12288x256_1_0_n_n_0_1_1256_wf
def scatter_S12288x12288_S24575x2_S24575_n_01_01_1 : ScatterDims S12288x12288 S24575x2 S24575 where
  updateWindowDims := []
  insertedWindowDims := [0, 1]
  scatterDimsToOperandDims := [0, 1]
  indexVectorDim := 1
  wf := scatter_S12288x12288_S24575x2_S24575_n_01_01_1_wf
def dot_S12288x256_S256x32_S12288x32_1_0_0_1_n_n : DotDims S12288x256 S256x32 S12288x32 where
  lhsContracting := [1]
  rhsContracting := [0]
  lhsNonContracting := [0]
  rhsNonContracting := [1]
  lhsBatch := []
  rhsBatch := []
  wf := dot_S12288x256_S256x32_S12288x32_1_0_0_1_n_n_wf
def dot_S12288x12288_S12288x32_S12288x32_1_0_0_1_n_n : DotDims S12288x12288 S12288x32 S12288x32 where
  lhsContracting := [1]
  rhsContracting := [0]
  lhsNonContracting := [0]
  rhsNonContracting := [1]
  lhsBatch := []
  rhsBatch := []
  wf := dot_S12288x12288_S12288x32_S12288x32_1_0_0_1_n_n_wf
def dot_S12288x32_S32x32_S12288x32_1_0_0_1_n_n : DotDims S12288x32 S32x32 S12288x32 where
  lhsContracting := [1]
  rhsContracting := [0]
  lhsNonContracting := [0]
  rhsNonContracting := [1]
  lhsBatch := []
  rhsBatch := []
  wf := dot_S12288x32_S32x32_S12288x32_1_0_0_1_n_n_wf

class Facts : Prop extends Facts₀ where

variable [Facts]
-- ==== Proof.K.Region0.lean ====
import proofs.«401525_j2345052144079_3_alg».proof.Proof.Gen.Kernel.Launch
import proofs.«401525_j2345052144079_3_alg».proof.Proof.Gen.Kernel.Skeleton
import proofs.«401525_j2345052144079_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One layer's kernel region: the tiled product of the adjacency matrix with an activation

The region walks a 6 × 3 grid: six row blocks of 2048 rows, and for each the three column tiles of 4096
columns of the adjacency matrix.  A scratch accumulator is carried from tile to tile.  This module states what
the accumulator and the output's staging buffer hold after every point, proves the kernel body does that at
each point, and bundles it as the region's proof data. -/

/-! ## The body's two conditions, and the three cases the grid meets

The inner grid axis walks the three column tiles of the adjacency matrix.  At its first position the
accumulator is cleared before the tile's product is added; at its last the scaled, clamped row block is
stored to the output; in between only the product is added. -/

/-- "The inner coordinate is 0": the accumulator is cleared here. -/
abbrev cond0_0 (i : grid0.Coords) : Prop := (Scalar.cmpi .ne (Scalar.extui (Scalar.cmpi .eq (BitVec.ofNat 32 (i 1).val) 0#32)) 0#32) = 1#1
/-- "The inner coordinate is 2": the output block is stored here. -/
abbrev cond0_1 (i : grid0.Coords) : Prop := k0_cond2 i = 1#1

theorem hcond0_0 : ∀ t : Fin cfg0.N, cond0_0 (grid0.coords t) ↔ t.val % 3 = 0 :=
  (by decide +kernel : ∀ t : Fin grid0.N, cond0_0 (grid0.coords t) ↔ t.val % 3 = 0)
theorem hcond0_1 : ∀ t : Fin cfg0.N, cond0_1 (grid0.coords t) ↔ t.val % 3 = 2 :=
  (by decide +kernel : ∀ t : Fin grid0.N, cond0_1 (grid0.coords t) ↔ t.val % 3 = 2)

/-- The offset of every access of the body is the origin of its buffer. -/
theorem off00 : (![0, 0] : Fin 2 → ℕ) = fun _ => 0 := by funext a; fin_cases a <;> rfl

/-- A buffer written once, whole, reads back as what was written. -/
theorem read_one_store {S : Shape} {e : EltTy} [∀ e, Nonempty (Elt F e)] {κ : Kind} {sp : Space} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, by
    subst h; show y ∈ (Rect.whole S).set; rw [Rect.set_whole]; exact Finset.mem_univ y⟩), View.canon_unit_zero h]

/-- A buffer written twice, whole each time, reads back as the later write. -/
theorem read_two_stores {S : Shape} {e : EltTy} [∀ e, Nonempty (Elt F e)] {κ : Kind} {sp : Space} (v : View sig κ sp S e) (f : v.ty.Contents (Elt F))
    {off : Fin S.rank → ℕ} (h : off = fun _ => 0) (inb : ∀ a, off a + S.size a ≤ S.size a) (w w' : S.Idx → Elt F e) :
    v.read (Elt F) (v.writes (Elt F) f [⟨Rect.unit off S.size inb, w⟩, ⟨Rect.unit off S.size inb, w'⟩]) = w := by
  rw [View.read_writes_eq_canon _ _ _ (fun y => ⟨_, List.mem_cons_self, by
    subst h; show y ∈ (Rect.whole S).set; rw [Rect.set_whole]; exact Finset.mem_univ y⟩), View.canon_cons_unit_zero h]

set_option maxHeartbeats 1000000 in
/-- A middle step: the accumulator, found at `xs`, gains the tile's product; every other buffer is left as found. -/
theorem run0_B (c : Dev nD) (E : Set ℕ) (i : grid0.Coords)
    (arg2 : Memref sig .tc .vmem S2048x4096 .bf16) (harg2 : arg2.IsWhole) (arg3 : Memref sig .tc .vmem S4096x32 .bf16) (harg3 : arg3.IsWhole)
    (arg4 : Memref sig .tc .vmem S2048x1 .f32) (harg4 : arg4.IsWhole) (arg5 : Memref sig .tc .vmem S2048x32 .f32) (harg5 : arg5.IsWhole)
    (arg6 : Memref sig .tc .vmem S2048x32 .f32) (harg6 : arg6.IsWhole) (hc0 : ¬cond0_0 i) (hc1 : ¬cond0_1 i)
    (x0 : Vec F S2048x4096 .bf16) (x1 : Vec F S4096x32 .bf16) (x2 : Vec F S2048x1 .f32) (xo : Vec F S2048x32 .f32) (xs : Vec F S2048x32 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (k0_pay2 xs x0 x1)) -∗ K ⟨⟩))
      ⊢ wp frame (wpE (defs₀ (F := F)) Variants.none c none) E (cc0__matmul_kernel i arg2 harg2 arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  rw [read_one_store _ _ off00]
  simp only [View.readAt_eq_ld, harg2.read_unread, harg3.read_unread, harg6.read_unread, View.ld_unit_zero (S := S2048x32) off00,
    View.ld_unit_zero (S := S2048x4096) off00, View.ld_unit_zero (S := S4096x32) off00]

set_option maxHeartbeats 1000000 in
/-- A first step: whatever the accumulator held, it ends at the cleared value plus the tile's product. -/
theorem run0_A (c : Dev nD) (E : Set ℕ) (i : grid0.Coords)
    (arg2 : Memref sig .tc .vmem S2048x4096 .bf16) (harg2 : arg2.IsWhole) (arg3 : Memref sig .tc .vmem S4096x32 .bf16) (harg3 : arg3.IsWhole)
    (arg4 : Memref sig .tc .vmem S2048x1 .f32) (harg4 : arg4.IsWhole) (arg5 : Memref sig .tc .vmem S2048x32 .f32) (harg5 : arg5.IsWhole)
    (arg6 : Memref sig .tc .vmem S2048x32 .f32) (harg6 : arg6.IsWhole) (hc0 : cond0_0 i) (hc1 : ¬cond0_1 i)
    (x0 : Vec F S2048x4096 .bf16) (x1 : Vec F S4096x32 .bf16) (x2 : Vec F S2048x1 .f32) (xo : Vec F S2048x32 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (k0_pay2 k0_pay1 x0 x1)) -∗ K ⟨⟩))
      ⊢ wp frame (wpE (defs₀ (F := F)) Variants.none c none) E (cc0__matmul_kernel i arg2 harg2 arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fo, %hfo, HO⟩, ⟨%ds, %fs, -, HS⟩, Hk⟩
  obtain rfl := harg2.eq_unread hf0; obtain rfl := harg3.eq_unread hf1; obtain rfl := harg4.eq_unread hf2
  obtain rfl := harg5.eq_unread hfo
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  sl_unfold_words
  rw [read_two_stores _ _ off00]
  simp only [View.readCov_unit_zero (S := S2048x32) _ off00, View.readAt_eq_ld, harg2.read_unread, harg3.read_unread,
    View.ld_unit_zero (S := S2048x4096) off00, View.ld_unit_zero (S := S4096x32) off00]

set_option maxHeartbeats 1000000 in
/-- A last step: the accumulator gains the tile's product, and the output buffer, whatever it held, ends at the
    accumulator scaled row by row and clamped below at zero. -/
theorem run0_C (c : Dev nD) (E : Set ℕ) (i : grid0.Coords)
    (arg2 : Memref sig .tc .vmem S2048x4096 .bf16) (harg2 : arg2.IsWhole) (arg3 : Memref sig .tc .vmem S4096x32 .bf16) (harg3 : arg3.IsWhole)
    (arg4 : Memref sig .tc .vmem S2048x1 .f32) (harg4 : arg4.IsWhole) (arg5 : Memref sig .tc .vmem S2048x32 .f32) (harg5 : arg5.IsWhole)
    (arg6 : Memref sig .tc .vmem S2048x32 .f32) (harg6 : arg6.IsWhole) (hc0 : ¬cond0_0 i) (hc1 : cond0_1 i)
    (x0 : Vec F S2048x4096 .bf16) (x1 : Vec F S4096x32 .bf16) (x2 : Vec F S2048x1 .f32) (xs : Vec F S2048x32 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 x2 (k0_pay2 xs x0 x1)) ∗ owns (c : Thread nD τ) arg6 fullShare (k0_pay2 xs x0 x1)) -∗ K ⟨⟩))
      ⊢ wp frame (wpE (defs₀ (F := F)) Variants.none c none) E (cc0__matmul_kernel i arg2 harg2 arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%do_, %fo, -, HO⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr
    swap; · iexact HO
    ipureintro
    sl_unfold_words
    rw [read_one_store _ _ off00]
    simp only [View.readCov_unit_zero (S := S2048x32) _ off00, View.readAt_eq_ld, harg2.read_unread, harg3.read_unread, harg4.read_unread,
      harg6.read_unread, View.ld_unit_zero (S := S2048x32) off00, View.ld_unit_zero (S := S2048x1) off00,
      View.ld_unit_zero (S := S2048x4096) off00, View.ld_unit_zero (S := S4096x32) off00]
  iexists _; isplitr
  swap; · iexact HS
  ipureintro
  sl_unfold_words
  rw [read_one_store _ _ off00]
  simp only [View.readAt_eq_ld, harg2.read_unread, harg3.read_unread, harg6.read_unread, View.ld_unit_zero (S := S2048x32) off00,
    View.ld_unit_zero (S := S2048x4096) off00, View.ld_unit_zero (S := S4096x32) off00]

/-! ## The blocks the windows hand the body, read off the arrays as the region finds them -/

section Region
variable (V : (c : Dev nD) → (b : Ref sig .tc) → Buf (Elt F) ((c : Thread nD τ).loc b))

/-- Window `w`'s block at point `t` of the array the region finds at `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency tile, the activation tile and the scale block at point `t`, at their literal types. -/
abbrev ablk0 (c : Dev nD) (t : Fin cfg0.N) : Vec F S2048x4096 .bf16 := iblk0 V c 0 t
abbrev xblk0 (c : Dev nD) (t : Fin cfg0.N) : Vec F S4096x32 .bf16 := iblk0 V c 1 t
abbrev dblk0 (c : Dev nD) (t : Fin cfg0.N) : Vec F S2048x1 .f32 := iblk0 V c 2 t

/-- What the accumulator holds after point `n`: cleared and refilled at the first column tile of a row block,
    the running sum over the tiles met so far at the others. -/
def acc0 (c : Dev nD) : (n : ℕ) → n < cfg0.N → Vec F S2048x32 .f32
  | 0, h => k0_pay2 k0_pay1 (ablk0 V c ⟨0, h⟩) (xblk0 V c ⟨0, h⟩)
  | n + 1, h =>
    if (n + 1) % 3 = 0 then k0_pay2 k0_pay1 (ablk0 V c ⟨n + 1, h⟩) (xblk0 V c ⟨n + 1, h⟩)
    else k0_pay2 (acc0 c n (Nat.lt_of_succ_lt h)) (ablk0 V c ⟨n + 1, h⟩) (xblk0 V c ⟨n + 1, h⟩)

theorem acc0_first (c : Dev nD) (t : Fin cfg0.N) (h0 : t.val % 3 = 0) :
    acc0 V c t.val t.isLt = k0_pay2 k0_pay1 (ablk0 V c t) (xblk0 V c t) := by
  obtain ⟨n, hn⟩ := t
  cases n with
  | zero => rfl
  | succ n => exact if_pos h0

theorem acc0_later (c : Dev nD) (t : Fin cfg0.N) (h0 : ¬t.val % 3 = 0) :
    acc0 V c t.val t.isLt
      = k0_pay2 (acc0 V c (t.val - 1) (Nat.lt_of_le_of_lt (Nat.sub_le _ _) t.isLt)) (ablk0 V c t) (xblk0 V c t) := by
  obtain ⟨n, hn⟩ := t
  cases n with
  | zero => exact absurd (Nat.zero_mod _) h0
  | succ n => exact if_neg h0

/-- What the output's staging buffer holds after point `t` (consulted only where the block is written back,
    at the last column tile): the accumulator scaled row by row and clamped below at zero. -/
def out0 (c : Dev nD) (t : Fin cfg0.N) : Vec F S2048x32 .f32 := k0_pay3 (dblk0 V c t) (acc0 V c t.val t.isLt)

/-! ## The region's invariant: the accumulator at its running value -/

/-- The accumulator's buffer. -/
abbrev scM0 : Memref sig .tc .vmem S2048x32 .f32 := Memref.whole cc0_scratch0

/-- The other scoped buffers that are no staging buffer of this region, each at some contents. -/
def restS0 (c : Dev nD) : sProp 𝕄 :=
  bigSepL [cc1_stg0_0, cc1_stg0_1, cc1_stg1_0, cc1_stg1_1, cc1_stg2_0, cc1_stg2_1, cc1_stg3_0, cc1_stg3_1, cc1_scratch0]
    fun b => iprop(∃ f : Buf (Elt F) ((c : Thread nD τ).loc b), ((c : Thread nD τ).loc b) ↦{fullShare} f)

/-- The class invariant with the accumulator split off. -/
theorem PhiA0_eq (c : Dev nD) :
    (Pipeline.ΦA spec0 c : sProp 𝕄)
      = iprop(((∃ d, owns (c : Thread nD τ) scM0 fullShare d) ∗ restS0 c) ∗ (∃ r, prngReg c r)) := by
  unfold Pipeline.ΦA restS0
  rw [Pipeline.scopedRest_eq_of_list spec0 c [cc0_scratch0, cc1_stg0_0, cc1_stg0_1, cc1_stg1_0, cc1_stg1_1, cc1_stg2_0, cc1_stg2_1, cc1_stg3_0, cc1_stg3_1, cc1_scratch0] (by decide) (by decide),
    bigSepL_cons]
  simp only [scM0, owns_whole]
  try rfl

/-- Before the first point the class invariant (the accumulator at anything); after point `n` the accumulator at
    its running value, the rest as in the class invariant. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ restS0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c n hn) ∗ restS0 c) ∗ (∃ r, prngReg c r)) := rfl

theorem PhiS0_pos (c : Dev nD) (n : ℕ) (h : n ≤ cfg0.N) (hz : n ≠ 0) :
    PhiS0 V c n h = iprop((owns (c : Thread nD τ) scM0 fullShare (acc0 V c (n - 1) (by omega)) ∗ restS0 c) ∗ (∃ r, prngReg c r)) := by
  cases n with
  | zero => exact absurd rfl hz
  | succ n => rfl

/-! ## The region's proof data -/

/-- The arrays as the region finds them; after the body each input's buffer at its block, the output's at
    `out0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last column tile the output window is idle and not written back; at it, live. -/
theorem idle0_3 : ∀ t : Fin cfg0.N, ¬t.val % 3 = 2 → cfg0.idle 3 (grid0.coords t) = true := by decide +kernel
theorem noFlush0_3 : ∀ t : Fin cfg0.N, ¬t.val % 3 = 2 → (cfg0.win 3).flush t = false := by decide +kernel
theorem live0_3 : ∀ t : Fin cfg0.N, t.val % 3 = 2 → cfg0.idle 3 (grid0.coords t) = false := by decide +kernel

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point, by the three cases: the invariant hands it the accumulator at the running value (at
    anything before the first point) and takes it back one tile further; the inputs pass through; the output's
    buffer passes through untouched except at the last column tile, where it is stored whole. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
      unfold Dat.leavesExact; rw [live0_0 t], after0_0]
  rw [show (dat0 V c).leavesExact 1 t = owns (c : Thread nD τ) (st0_1 t) fullShare ((dat0 V c).after 1 t) from by
      unfold Dat.leavesExact; rw [live0_1 t], after0_1]
  rw [show (dat0 V c).leavesExact 2 t = owns (c : Thread nD τ) (st0_2 t) fullShare ((dat0 V c).after 2 t) from by
      unfold Dat.leavesExact; rw [live0_2 t], after0_2]
  have hN : t.val < 18 := lt_of_lt_of_eq t.isLt (show cfg0.N = 18 from N_0)
  by_cases h0 : t.val % 3 = 0
  · have h1 : ¬t.val % 3 = 2 := by omega
    rw [Dat.leavesExact_idle (dat0 V c) 3 t (idle0_3 t h1) (noFlush0_3 t h1)]
    rw [acc0_first V c t h0]
    by_cases hz : t.val = 0
    · rw [Phi0_castSucc V c t, PhiS0_zero V c _ _ hz, PhiA0_eq]
      iintro ⟨⟨⟨HS, Hr⟩, Hg⟩, Ho, ⟨%d0, H0⟩, ⟨%d1, H1⟩, ⟨%d2, H2⟩, ⟨%d3, H3⟩⟩
      iapply (run0_A c Set.univ (grid0.coords t) _ _ _ _ _ _ _ _ _ _ ((hcond0_0 t).mpr h0) (fun h => h1 ((hcond0_1 t).mp h))
        (ablk0 V c t) (xblk0 V c t) (dblk0 V c t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexists _; iexact H3
    · rw [Phi0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply (run0_A c Set.univ (grid0.coords t) _ _ _ _ _ _ _ _ _ _ ((hcond0_0 t).mpr h0) (fun h => h1 ((hcond0_1 t).mp h))
        (ablk0 V c t) (xblk0 V c t) (dblk0 V c t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [acc0_later V c t h0, Phi0_castSucc V c t, PhiS0_pos V c _ _ hz]
    by_cases h1 : t.val % 3 = 2
    · rw [show (dat0 V c).leavesExact 3 t = owns (c : Thread nD τ) (st0_3 t) fullShare ((dat0 V c).after 3 t) from by
        unfold Dat.leavesExact; rw [live0_3 t h1], after0_3]
      unfold out0
      rw [acc0_later V c t h0]
      iintro ⟨⟨⟨HS, Hr⟩, Hg⟩, Ho, ⟨%d0, H0⟩, ⟨%d1, H1⟩, ⟨%d2, H2⟩, ⟨%d3, H3⟩⟩
      iapply (run0_C c Set.univ (grid0.coords t) _ _ _ _ _ _ _ _ _ _ (fun h => h0 ((hcond0_0 t).mp h)) ((hcond0_1 t).mpr h1)
        (ablk0 V c t) (xblk0 V c t) (dblk0 V c t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexact H3
    · rw [Dat.leavesExact_idle (dat0 V c) 3 t (idle0_3 t h1) (noFlush0_3 t h1)]
      iintro ⟨⟨⟨HS, Hr⟩, Hg⟩, Ho, ⟨%d0, H0⟩, ⟨%d1, H1⟩, ⟨%d2, H2⟩, ⟨%d3, H3⟩⟩
      iapply (run0_B c Set.univ (grid0.coords t) _ _ _ _ _ _ _ _ _ _ (fun h => h0 ((hcond0_0 t).mp h)) (fun h => h1 ((hcond0_1 t).mp h))
        (ablk0 V c t) (xblk0 V c t) (dblk0 V c t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's value is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 18 := N_0; omega), PhiA0_eq]
  iintro ⟨⟨HS, Hr⟩, Hg⟩
  isplitr [Hg]
  · isplitl [HS]; · iexists _; iexact HS
    iexact Hr
  iexact Hg

end Region

end Cert.Kernel.Hand

end
-- ==== Proof.K.Region1.lean ====
import proofs.«401525_j2345052144079_3_alg».proof.Proof.Gen.Kernel.Launch
import proofs.«401525_j2345052144079_3_alg».proof.Proof.Gen.Kernel.Skeleton
import proofs.«401525_j2345052144079_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.HandB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One layer's kernel region: the tiled product of the adjacency matrix with an activation

The region walks a 6 × 3 grid: six row blocks of 2048 rows, and for each the three column tiles of 4096
columns of the adjacency matrix.  A scratch accumulator is carried from tile to tile.  This module states what
the accumulator and the output's staging buffer hold after every point, proves the kernel body does that at
each point, and bundles it as the region's proof data. -/

/-! ## The body's two conditions, and the three cases the grid meets

The inner grid axis walks the three column tiles of the adjacency matrix.  At its first position the
accumulator is cleared before the tile's product is added; at its last the scaled, clamped row block is
stored to the output; in between only the product is added. -/

/-- "The inner coordinate is 0": the accumulator is cleared here. -/
abbrev cond0_0 (i : grid1.Coords) : Prop := (Scalar.cmpi .ne (Scalar.extui (Scalar.cmpi .eq (BitVec.ofNat 32 (i 1).val) 0#32)) 0#32) = 1#1
/-- "The inner coordinate is 2": the output block is stored here. -/
abbrev cond0_1 (i : grid1.Coords) : Prop := k1_cond2 i = 1#1

theorem hcond0_0 : ∀ t : Fin cfg1.N, cond0_0 (grid1.coords t) ↔ t.val % 3 = 0 :=
  (by decide +kernel : ∀ t : Fin grid1.N, cond0_0 (grid1.coords t) ↔ t.val % 3 = 0)
theorem hcond0_1 : ∀ t : Fin cfg1.N, cond0_1 (grid1.coords t) ↔ t.val % 3 = 2 :=
  (by decide +kernel : ∀ t : Fin grid1.N, cond0_1 (grid1.coords t) ↔ t.val % 3 = 2)

/-- The offset of every access of the body is the origin of its buffer. -/
theorem off00 : (![0, 0] : Fin 2 → ℕ) = fun _ => 0 := by funext a; fin_cases a <;> rfl

/-- A buffer written once, whole, reads back as what was written. -/
theorem read_one_store {S : Shape} {e : EltTy} [∀ e, Nonempty (Elt F e)] {κ : Kind} {sp : Space} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, by
    subst h; show y ∈ (Rect.whole S).set; rw [Rect.set_whole]; exact Finset.mem_univ y⟩), View.canon_unit_zero h]

/-- A buffer written twice, whole each time, reads back as the later write. -/
theorem read_two_stores {S : Shape} {e : EltTy} [∀ e, Nonempty (Elt F e)] {κ : Kind} {sp : Space} (v : View sig κ sp S e) (f : v.ty.Contents (Elt F))
    {off : Fin S.rank → ℕ} (h : off = fun _ => 0) (inb : ∀ a, off a + S.size a ≤ S.size a) (w w' : S.Idx → Elt F e) :
    v.read (Elt F) (v.writes (Elt F) f [⟨Rect.unit off S.size inb, w⟩, ⟨Rect.unit off S.size inb, w'⟩]) = w := by
  rw [View.read_writes_eq_canon _ _ _ (fun y => ⟨_, List.mem_cons_self, by
    subst h; show y ∈ (Rect.whole S).set; rw [Rect.set_whole]; exact Finset.mem_univ y⟩), View.canon_cons_unit_zero h]

set_option maxHeartbeats 1000000 in
/-- A middle step: the accumulator, found at `xs`, gains the tile's product; every other buffer is left as found. -/
theorem run0_B (c : Dev nD) (E : Set ℕ) (i : grid1.Coords)
    (arg2 : Memref sig .tc .vmem S2048x4096 .bf16) (harg2 : arg2.IsWhole) (arg3 : Memref sig .tc .vmem S4096x32 .bf16) (harg3 : arg3.IsWhole)
    (arg4 : Memref sig .tc .vmem S2048x1 .f32) (harg4 : arg4.IsWhole) (arg5 : Memref sig .tc .vmem S2048x32 .f32) (harg5 : arg5.IsWhole)
    (arg6 : Memref sig .tc .vmem S2048x32 .f32) (harg6 : arg6.IsWhole) (hc0 : ¬cond0_0 i) (hc1 : ¬cond0_1 i)
    (x0 : Vec F S2048x4096 .bf16) (x1 : Vec F S4096x32 .bf16) (x2 : Vec F S2048x1 .f32) (xo : Vec F S2048x32 .f32) (xs : Vec F S2048x32 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (k1_pay2 xs x0 x1)) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  rw [read_one_store _ _ off00]
  simp only [View.readAt_eq_ld, harg2.read_unread, harg3.read_unread, harg6.read_unread, View.ld_unit_zero (S := S2048x32) off00,
    View.ld_unit_zero (S := S2048x4096) off00, View.ld_unit_zero (S := S4096x32) off00]

set_option maxHeartbeats 1000000 in
/-- A first step: whatever the accumulator held, it ends at the cleared value plus the tile's product. -/
theorem run0_A (c : Dev nD) (E : Set ℕ) (i : grid1.Coords)
    (arg2 : Memref sig .tc .vmem S2048x4096 .bf16) (harg2 : arg2.IsWhole) (arg3 : Memref sig .tc .vmem S4096x32 .bf16) (harg3 : arg3.IsWhole)
    (arg4 : Memref sig .tc .vmem S2048x1 .f32) (harg4 : arg4.IsWhole) (arg5 : Memref sig .tc .vmem S2048x32 .f32) (harg5 : arg5.IsWhole)
    (arg6 : Memref sig .tc .vmem S2048x32 .f32) (harg6 : arg6.IsWhole) (hc0 : cond0_0 i) (hc1 : ¬cond0_1 i)
    (x0 : Vec F S2048x4096 .bf16) (x1 : Vec F S4096x32 .bf16) (x2 : Vec F S2048x1 .f32) (xo : Vec F S2048x32 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (k1_pay2 k1_pay1 x0 x1)) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fo, %hfo, HO⟩, ⟨%ds, %fs, -, HS⟩, Hk⟩
  obtain rfl := harg2.eq_unread hf0; obtain rfl := harg3.eq_unread hf1; obtain rfl := harg4.eq_unread hf2
  obtain rfl := harg5.eq_unread hfo
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  sl_unfold_words
  rw [read_two_stores _ _ off00]
  simp only [View.readCov_unit_zero (S := S2048x32) _ off00, View.readAt_eq_ld, harg2.read_unread, harg3.read_unread,
    View.ld_unit_zero (S := S2048x4096) off00, View.ld_unit_zero (S := S4096x32) off00]

set_option maxHeartbeats 1000000 in
/-- A last step: the accumulator gains the tile's product, and the output buffer, whatever it held, ends at the
    accumulator scaled row by row and clamped below at zero. -/
theorem run0_C (c : Dev nD) (E : Set ℕ) (i : grid1.Coords)
    (arg2 : Memref sig .tc .vmem S2048x4096 .bf16) (harg2 : arg2.IsWhole) (arg3 : Memref sig .tc .vmem S4096x32 .bf16) (harg3 : arg3.IsWhole)
    (arg4 : Memref sig .tc .vmem S2048x1 .f32) (harg4 : arg4.IsWhole) (arg5 : Memref sig .tc .vmem S2048x32 .f32) (harg5 : arg5.IsWhole)
    (arg6 : Memref sig .tc .vmem S2048x32 .f32) (harg6 : arg6.IsWhole) (hc0 : ¬cond0_0 i) (hc1 : cond0_1 i)
    (x0 : Vec F S2048x4096 .bf16) (x1 : Vec F S4096x32 .bf16) (x2 : Vec F S2048x1 .f32) (xs : Vec F S2048x32 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 x2 (k1_pay2 xs x0 x1)) ∗ owns (c : Thread nD τ) arg6 fullShare (k1_pay2 xs x0 x1)) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%do_, %fo, -, HO⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr
    swap; · iexact HO
    ipureintro
    sl_unfold_words
    rw [read_one_store _ _ off00]
    simp only [View.readCov_unit_zero (S := S2048x32) _ off00, View.readAt_eq_ld, harg2.read_unread, harg3.read_unread, harg4.read_unread,
      harg6.read_unread, View.ld_unit_zero (S := S2048x32) off00, View.ld_unit_zero (S := S2048x1) off00,
      View.ld_unit_zero (S := S2048x4096) off00, View.ld_unit_zero (S := S4096x32) off00]
  iexists _; isplitr
  swap; · iexact HS
  ipureintro
  sl_unfold_words
  rw [read_one_store _ _ off00]
  simp only [View.readAt_eq_ld, harg2.read_unread, harg3.read_unread, harg6.read_unread, View.ld_unit_zero (S := S2048x32) off00,
    View.ld_unit_zero (S := S2048x4096) off00, View.ld_unit_zero (S := S4096x32) off00]

/-! ## The blocks the windows hand the body, read off the arrays as the region finds them -/

section Region
variable (V : (c : Dev nD) → (b : Ref sig .tc) → Buf (Elt F) ((c : Thread nD τ).loc b))

/-- Window `w`'s block at point `t` of the array the region finds at `V`. -/
def iblk0 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile, the activation tile and the scale block at point `t`, at their literal types. -/
abbrev ablk0 (c : Dev nD) (t : Fin cfg1.N) : Vec F S2048x4096 .bf16 := iblk0 V c 0 t
abbrev xblk0 (c : Dev nD) (t : Fin cfg1.N) : Vec F S4096x32 .bf16 := iblk0 V c 1 t
abbrev dblk0 (c : Dev nD) (t : Fin cfg1.N) : Vec F S2048x1 .f32 := iblk0 V c 2 t

/-- What the accumulator holds after point `n`: cleared and refilled at the first column tile of a row block,
    the running sum over the tiles met so far at the others. -/
def acc0 (c : Dev nD) : (n : ℕ) → n < cfg1.N → Vec F S2048x32 .f32
  | 0, h => k1_pay2 k1_pay1 (ablk0 V c ⟨0, h⟩) (xblk0 V c ⟨0, h⟩)
  | n + 1, h =>
    if (n + 1) % 3 = 0 then k1_pay2 k1_pay1 (ablk0 V c ⟨n + 1, h⟩) (xblk0 V c ⟨n + 1, h⟩)
    else k1_pay2 (acc0 c n (Nat.lt_of_succ_lt h)) (ablk0 V c ⟨n + 1, h⟩) (xblk0 V c ⟨n + 1, h⟩)

theorem acc1_first (c : Dev nD) (t : Fin cfg1.N) (h0 : t.val % 3 = 0) :
    acc0 V c t.val t.isLt = k1_pay2 k1_pay1 (ablk0 V c t) (xblk0 V c t) := by
  obtain ⟨n, hn⟩ := t
  cases n with
  | zero => rfl
  | succ n => exact if_pos h0

theorem acc1_later (c : Dev nD) (t : Fin cfg1.N) (h0 : ¬t.val % 3 = 0) :
    acc0 V c t.val t.isLt
      = k1_pay2 (acc0 V c (t.val - 1) (Nat.lt_of_le_of_lt (Nat.sub_le _ _) t.isLt)) (ablk0 V c t) (xblk0 V c t) := by
  obtain ⟨n, hn⟩ := t
  cases n with
  | zero => exact absurd (Nat.zero_mod _) h0
  | succ n => exact if_neg h0

/-- What the output's staging buffer holds after point `t` (consulted only where the block is written back,
    at the last column tile): the accumulator scaled row by row and clamped below at zero. -/
def out0 (c : Dev nD) (t : Fin cfg1.N) : Vec F S2048x32 .f32 := k1_pay3 (dblk0 V c t) (acc0 V c t.val t.isLt)

/-! ## The region's invariant: the accumulator at its running value -/

/-- The accumulator's buffer. -/
abbrev scM0 : Memref sig .tc .vmem S2048x32 .f32 := Memref.whole cc1_scratch0

/-- The other scoped buffers that are no staging buffer of this region, each at some contents. -/
def restS0 (c : Dev nD) : sProp 𝕄 :=
  bigSepL [cc0_stg0_0, cc0_stg0_1, cc0_stg1_0, cc0_stg1_1, cc0_stg2_0, cc0_stg2_1, cc0_stg3_0, cc0_stg3_1, cc0_scratch0]
    fun b => iprop(∃ f : Buf (Elt F) ((c : Thread nD τ).loc b), ((c : Thread nD τ).loc b) ↦{fullShare} f)

/-- The class invariant with the accumulator split off. -/
theorem PhiA0_eq (c : Dev nD) :
    (Pipeline.ΦA spec1 c : sProp 𝕄)
      = iprop(((∃ d, owns (c : Thread nD τ) scM0 fullShare d) ∗ restS0 c) ∗ (∃ r, prngReg c r)) := by
  unfold Pipeline.ΦA restS0
  rw [Pipeline.scopedRest_eq_of_list spec1 c [cc1_scratch0, cc0_stg0_0, cc0_stg0_1, cc0_stg1_0, cc0_stg1_1, cc0_stg2_0, cc0_stg2_1, cc0_stg3_0, cc0_stg3_1, cc0_scratch0] (by decide) (by decide),
    bigSepL_cons]
  simp only [scM0, owns_whole]
  try rfl

/-- Before the first point the class invariant (the accumulator at anything); after point `n` the accumulator at
    its running value, the rest as in the class invariant. -/
def PhiS0 (c : Dev nD) : (n : ℕ) → n ≤ cfg1.N → sProp 𝕄
  | 0, _ => Pipeline.ΦA spec1 c
  | n + 1, hn => iprop((owns (c : Thread nD τ) scM0 fullShare (acc0 V c n hn) ∗ restS0 c) ∗ (∃ r, prngReg c r))

theorem PhiS0_zero (c : Dev nD) (n : ℕ) (h : n ≤ cfg1.N) (hz : n = 0) : PhiS0 V c n h = Pipeline.ΦA spec1 c := by
  subst hz; rfl

theorem PhiS0_succ (c : Dev nD) (n : ℕ) (hn : n < cfg1.N) :
    PhiS0 V c (n + 1) hn = iprop((owns (c : Thread nD τ) scM0 fullShare (acc0 V c n hn) ∗ restS0 c) ∗ (∃ r, prngReg c r)) := rfl

theorem PhiS0_pos (c : Dev nD) (n : ℕ) (h : n ≤ cfg1.N) (hz : n ≠ 0) :
    PhiS0 V c n h = iprop((owns (c : Thread nD τ) scM0 fullShare (acc0 V c (n - 1) (by omega)) ∗ restS0 c) ∗ (∃ r, prngReg c r)) := by
  cases n with
  | zero => exact absurd rfl hz
  | succ n => rfl

/-! ## The region's proof data -/

/-- The arrays as the region finds them; after the body each input's buffer at its block, the output's at
    `out0`; the invariant `PhiS0`; nothing owed; full shares. -/
def dat0 (c : Dev nD) : Dat τ (Elt F) Unit ℕ (UR sig nD τ) ℕ cfg1 c where
  A w := V c (Pipeline.arrRef spec1 w)
  after w t := match w with
    | ⟨0, _⟩ => iblk0 V c 0 t
    | ⟨1, _⟩ => iblk0 V c 1 t
    | ⟨2, _⟩ => iblk0 V c 2 t
    | ⟨3, _⟩ => out0 V c t
  Φ t := PhiS0 V c t.val (Nat.le_of_lt_succ t.isLt)
  q _ := fullShare
  owed _ := 0

theorem A_eq0 (c : Dev nD) (w : Fin cfg1.W) : (dat0 V c).A w = V c (Pipeline.arrRef spec1 w) := by
  dsimp only [dat0]

theorem Phi0_castSucc (c : Dev nD) (t : Fin cfg1.N) :
    (dat0 V c).Φ t.castSucc = PhiS0 V c t.val (Nat.le_of_lt t.isLt) := by
  dsimp only [dat0]; simp only [Fin.coe_castSucc]

theorem after0_0 (c : Dev nD) (t : Fin cfg1.N) : (dat0 V c).after 0 t = iblk0 V c 0 t := by dsimp only [dat0]
theorem after0_1 (c : Dev nD) (t : Fin cfg1.N) : (dat0 V c).after 1 t = iblk0 V c 1 t := by dsimp only [dat0]
theorem after0_2 (c : Dev nD) (t : Fin cfg1.N) : (dat0 V c).after 2 t = iblk0 V c 2 t := by dsimp only [dat0]
theorem after0_3 (c : Dev nD) (t : Fin cfg1.N) : (dat0 V c).after 3 t = out0 V c t := by dsimp only [dat0]

/-- Each input's current staging buffer holds its block at every point, fetched there or not. -/
theorem before0_0 (c : Dev nD) (t : Fin cfg1.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg1.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg1.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## Where the windows are idle -/

theorem live0_0 : ∀ t : Fin cfg1.N, cfg1.idle 0 (grid1.coords t) = false := by decide +kernel
theorem live0_1 : ∀ t : Fin cfg1.N, cfg1.idle 1 (grid1.coords t) = false := by decide +kernel
theorem live0_2 : ∀ t : Fin cfg1.N, cfg1.idle 2 (grid1.coords t) = false := by decide +kernel
/-- Away from the last column tile the output window is idle and not written back; at it, live. -/
theorem idle0_3 : ∀ t : Fin cfg1.N, ¬t.val % 3 = 2 → cfg1.idle 3 (grid1.coords t) = true := by decide +kernel
theorem noFlush0_3 : ∀ t : Fin cfg1.N, ¬t.val % 3 = 2 → (cfg1.win 3).flush t = false := by decide +kernel
theorem live0_3 : ∀ t : Fin cfg1.N, t.val % 3 = 2 → cfg1.idle 3 (grid1.coords t) = false := by decide +kernel

/-! ## The body obligation -/

def bodyPre0 (c : Dev nD) (t : Fin cfg1.N) : sProp 𝕄 :=
  iprop((dat0 V c).Φ t.castSucc ∗ (dat0 V c).owesAt () t.castSucc
    ∗ (∃ d, owns (c : Thread nD τ) (st1_0 t) fullShare ((dat0 V c).before 0 t d))
    ∗ (∃ d, owns (c : Thread nD τ) (st1_1 t) fullShare ((dat0 V c).before 1 t d))
    ∗ (∃ d, owns (c : Thread nD τ) (st1_2 t) fullShare ((dat0 V c).before 2 t d))
    ∗ (∃ d, owns (c : Thread nD τ) (st1_3 t) fullShare ((dat0 V c).before 3 t d)))

def bodyPost0 (c : Dev nD) (t : Fin cfg1.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point, by the three cases: the invariant hands it the accumulator at the running value (at
    anything before the first point) and takes it back one tile further; the inputs pass through; the output's
    buffer passes through untouched except at the last column tile, where it is stored whole. -/
theorem sound_body0 (c : Dev nD) (t : Fin cfg1.N) :
    bodyPre0 V c t ⊢ wp frame (wpE (defs₀ (F := F)) Variants.none c none) Set.univ (bodyAt1 t) (fun _ => bodyPost0 V c t) := by
  unfold bodyPre0 bodyPost0 bodyAt1
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st1_0 t) fullShare ((dat0 V c).after 0 t) from by
      unfold Dat.leavesExact; rw [live0_0 t], after0_0]
  rw [show (dat0 V c).leavesExact 1 t = owns (c : Thread nD τ) (st1_1 t) fullShare ((dat0 V c).after 1 t) from by
      unfold Dat.leavesExact; rw [live0_1 t], after0_1]
  rw [show (dat0 V c).leavesExact 2 t = owns (c : Thread nD τ) (st1_2 t) fullShare ((dat0 V c).after 2 t) from by
      unfold Dat.leavesExact; rw [live0_2 t], after0_2]
  have hN : t.val < 18 := lt_of_lt_of_eq t.isLt (show cfg1.N = 18 from N_1)
  by_cases h0 : t.val % 3 = 0
  · have h1 : ¬t.val % 3 = 2 := by omega
    rw [Dat.leavesExact_idle (dat0 V c) 3 t (idle0_3 t h1) (noFlush0_3 t h1)]
    rw [acc1_first V c t h0]
    by_cases hz : t.val = 0
    · rw [Phi0_castSucc V c t, PhiS0_zero V c _ _ hz, PhiA0_eq]
      iintro ⟨⟨⟨HS, Hr⟩, Hg⟩, Ho, ⟨%d0, H0⟩, ⟨%d1, H1⟩, ⟨%d2, H2⟩, ⟨%d3, H3⟩⟩
      iapply (run0_A c Set.univ (grid1.coords t) _ _ _ _ _ _ _ _ _ _ ((hcond0_0 t).mpr h0) (fun h => h1 ((hcond0_1 t).mp h))
        (ablk0 V c t) (xblk0 V c t) (dblk0 V c t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexists _; iexact H3
    · rw [Phi0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply (run0_A c Set.univ (grid1.coords t) _ _ _ _ _ _ _ _ _ _ ((hcond0_0 t).mpr h0) (fun h => h1 ((hcond0_1 t).mp h))
        (ablk0 V c t) (xblk0 V c t) (dblk0 V c t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [acc1_later V c t h0, Phi0_castSucc V c t, PhiS0_pos V c _ _ hz]
    by_cases h1 : t.val % 3 = 2
    · rw [show (dat0 V c).leavesExact 3 t = owns (c : Thread nD τ) (st1_3 t) fullShare ((dat0 V c).after 3 t) from by
        unfold Dat.leavesExact; rw [live0_3 t h1], after0_3]
      unfold out0
      rw [acc1_later V c t h0]
      iintro ⟨⟨⟨HS, Hr⟩, Hg⟩, Ho, ⟨%d0, H0⟩, ⟨%d1, H1⟩, ⟨%d2, H2⟩, ⟨%d3, H3⟩⟩
      iapply (run0_C c Set.univ (grid1.coords t) _ _ _ _ _ _ _ _ _ _ (fun h => h0 ((hcond0_0 t).mp h)) ((hcond0_1 t).mpr h1)
        (ablk0 V c t) (xblk0 V c t) (dblk0 V c t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexact H3
    · rw [Dat.leavesExact_idle (dat0 V c) 3 t (idle0_3 t h1) (noFlush0_3 t h1)]
      iintro ⟨⟨⟨HS, Hr⟩, Hg⟩, Ho, ⟨%d0, H0⟩, ⟨%d1, H1⟩, ⟨%d2, H2⟩, ⟨%d3, H3⟩⟩
      iapply (run0_B c Set.univ (grid1.coords t) _ _ _ _ _ _ _ _ _ _ (fun h => h0 ((hcond0_0 t).mp h)) (fun h => h1 ((hcond0_1 t).mp h))
        (ablk0 V c t) (xblk0 V c t) (dblk0 V c t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W1, bigSep_W1]
  exact sound_body0 V c t

/-- What the launch hands the region is the invariant before the first point. -/
theorem hin0 (c : Dev nD) : Pipeline.ΦA spec1 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's value is forgotten. -/
theorem hout0 (c : Dev nD) : (dat0 V c).Φ (Fin.last cfg1.N) ⊢ Pipeline.ΦA spec1 c := by
  rw [show (dat0 V c).Φ (Fin.last cfg1.N) = PhiS0 V c (Fin.last cfg1.N).val (Nat.le_of_lt_succ (Fin.last cfg1.N).isLt) from rfl,
    PhiS0_pos V c _ _ (by rw [Fin.val_last]; have : cfg1.N = 18 := N_1; omega), PhiA0_eq]
  iintro ⟨⟨HS, Hr⟩, Hg⟩
  isplitr [Hg]
  · isplitl [HS]; · iexists _; iexact HS
    iexact Hr
  iexact Hg

end Region

end Cert.Kernel.HandB

end
-- ==== Proof.K.Run.lean ====
import proofs.«401525_j2345052144079_3_alg».proof.Proof.K.Region0
import proofs.«401525_j2345052144079_3_alg».proof.Proof.K.Region1
import proofs.«401525_j2345052144079_3_alg».proof.Proof.Gen.Kernel.Regions

/-! # The whole program's run: host stretch, first layer's region, host stretch, second layer's region

The contents of every buffer are followed from the launch memory through the four items of the program: a host
stretch applies its operations, a region leaves its arrays at what its write-backs made of them and every other
buffer as found.  Every weakly fair execution terminates with the result buffer at the second region's folded
write-backs and every argument as launched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch: the first region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: the second region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (HandB.dat0 (V3 m) c).arrAt w cfg1.N
theorem W4_arr (c : Dev nD) (w : Fin cfg1.W) :
    W4 m c (Proc.devRef .tc (Pipeline.arrRef spec1 w)) = (HandB.dat0 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (HandB.dat0 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A buffer that neither host stretch writes and that is no array of either region ends as launched. -/
theorem W4_kept (c : Dev nD) (b : Ref sig .tc) (h0 : b ∉ hostOps0_W) (h1 : b ∉ hostOps1_W)
    (ha0 : ∀ w, Pipeline.arrRef spec0 w ≠ b) (ha1 : ∀ w, Pipeline.arrRef spec1 w ≠ b) :
    W4 m c (Proc.devRef .tc b) = m ((c : Thread nD τ).loc b) :=
  calc W4 m c (Proc.devRef .tc b)
    _ = W3 m c (Proc.devRef .tc b) := W4_of_ne m c b ha1
    _ = W2 m c (Proc.devRef .tc b) := StableHlo.after_of_writes_sub hostOps1 _ hostOps1_writes h1
    _ = W1 m c (Proc.devRef .tc b) := W2_of_ne m c b ha0
    _ = W0 m c (Proc.devRef .tc b) := StableHlo.after_of_writes_sub hostOps0 _ hostOps0_writes h0
    _ = m ((c : Thread nD τ).loc b) := rfl

/-- The result buffer ends at the second region's folded write-backs. -/
theorem W4_result (c : Dev nD) : W4 m c (Proc.devRef .tc main_v47) = (HandB.dat0 (V3 m) c).arrAt 3 cfg1.N :=
  W4_arr m c 3

/-! ## The proof data family and what rides beside the buffers -/

abbrev adm : (p : Fin 2) → (pcfgs (F := F) p).Adm := fun p => (cfgs p).toPCfg_adm
/-- Each region's proof data at its own entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => HandB.dat0 (V3 m) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first layer's region: entered with every unscoped buffer at `W1`, left with them at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region: entered with every unscoped buffer at `W3`, left with them at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (HandB.body_obligation0 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (HandB.hin0 (V3 m) c)
    unfold Pipeline.ΦA
    iintro ⟨Hp, -, Hr⟩
    isplitl [Hr]; · iexact Hr
    iexact Hp
  hout c := by
    rw [Pipeline.ownSems0_none]
    refine (HandB.hout0 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as four segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution terminates, nothing faulting, with every unscoped
    buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The run read at the result and the arguments: the result at the second region's folded write-backs, every
    argument as launched. -/
theorem run_main : θ_run defs (onTc (τ := τ) (main (F := F))) ⟨m, fun _ => 0, ρ⟩ (fun r => ∀ c : Dev nD,
      r.2.mem ((c.tc : Thread nD τ).loc main_v47) = (HandB.dat0 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v47 (by decide))).trans (W4_result m c),
     (h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide)),
     (h c _ (mem_uc main_arg6 (by decide))).trans (W4_kept m c main_arg6 (by decide) (by decide) (by decide) (by decide))⟩)
    (run_all m ρ)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_main m ρ)

end Cert.Kernel.Hand

end
-- ==== Proof.KI.Region0.lean ====
import proofs.«401525_j2345052144079_3_alg».proof.Proof.Gen.KernelIdeal.Launch
import proofs.«401525_j2345052144079_3_alg».proof.Proof.Gen.KernelIdeal.Skeleton
import proofs.«401525_j2345052144079_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One layer's kernel region: the tiled product of the adjacency matrix with an activation

The region walks a 6 × 3 grid: six row blocks of 2048 rows, and for each the three column tiles of 4096
columns of the adjacency matrix.  A scratch accumulator is carried from tile to tile.  This module states what
the accumulator and the output's staging buffer hold after every point, proves the kernel body does that at
each point, and bundles it as the region's proof data. -/

/-! ## The body's two conditions, and the three cases the grid meets

The inner grid axis walks the three column tiles of the adjacency matrix.  At its first position the
accumulator is cleared before the tile's product is added; at its last the scaled, clamped row block is
stored to the output; in between only the product is added. -/

/-- "The inner coordinate is 0": the accumulator is cleared here. -/
abbrev cond0_0 (i : grid0.Coords) : Prop := (Scalar.cmpi .ne (Scalar.extui (Scalar.cmpi .eq (BitVec.ofNat 32 (i 1).val) 0#32)) 0#32) = 1#1
/-- "The inner coordinate is 2": the output block is stored here. -/
abbrev cond0_1 (i : grid0.Coords) : Prop := k0_cond2 i = 1#1

theorem hcond0_0 : ∀ t : Fin cfg0.N, cond0_0 (grid0.coords t) ↔ t.val % 3 = 0 :=
  (by decide +kernel : ∀ t : Fin grid0.N, cond0_0 (grid0.coords t) ↔ t.val % 3 = 0)
theorem hcond0_1 : ∀ t : Fin cfg0.N, cond0_1 (grid0.coords t) ↔ t.val % 3 = 2 :=
  (by decide +kernel : ∀ t : Fin grid0.N, cond0_1 (grid0.coords t) ↔ t.val % 3 = 2)

/-- The offset of every access of the body is the origin of its buffer. -/
theorem off00 : (![0, 0] : Fin 2 → ℕ) = fun _ => 0 := by funext a; fin_cases a <;> rfl

/-- A buffer written once, whole, reads back as what was written. -/
theorem read_one_store {S : Shape} {e : EltTy} [∀ e, Nonempty (Elt F e)] {κ : Kind} {sp : Space} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, by
    subst h; show y ∈ (Rect.whole S).set; rw [Rect.set_whole]; exact Finset.mem_univ y⟩), View.canon_unit_zero h]

/-- A buffer written twice, whole each time, reads back as the later write. -/
theorem read_two_stores {S : Shape} {e : EltTy} [∀ e, Nonempty (Elt F e)] {κ : Kind} {sp : Space} (v : View sig κ sp S e) (f : v.ty.Contents (Elt F))
    {off : Fin S.rank → ℕ} (h : off = fun _ => 0) (inb : ∀ a, off a + S.size a ≤ S.size a) (w w' : S.Idx → Elt F e) :
    v.read (Elt F) (v.writes (Elt F) f [⟨Rect.unit off S.size inb, w⟩, ⟨Rect.unit off S.size inb, w'⟩]) = w := by
  rw [View.read_writes_eq_canon _ _ _ (fun y => ⟨_, List.mem_cons_self, by
    subst h; show y ∈ (Rect.whole S).set; rw [Rect.set_whole]; exact Finset.mem_univ y⟩), View.canon_cons_unit_zero h]

set_option maxHeartbeats 1000000 in
/-- A middle step: the accumulator, found at `xs`, gains the tile's product; every other buffer is left as found. -/
theorem run0_B (c : Dev nD) (E : Set ℕ) (i : grid0.Coords)
    (arg2 : Memref sig .tc .vmem S2048x4096 .bf16) (harg2 : arg2.IsWhole) (arg3 : Memref sig .tc .vmem S4096x32 .bf16) (harg3 : arg3.IsWhole)
    (arg4 : Memref sig .tc .vmem S2048x1 .f32) (harg4 : arg4.IsWhole) (arg5 : Memref sig .tc .vmem S2048x32 .f32) (harg5 : arg5.IsWhole)
    (arg6 : Memref sig .tc .vmem S2048x32 .f32) (harg6 : arg6.IsWhole) (hc0 : ¬cond0_0 i) (hc1 : ¬cond0_1 i)
    (x0 : Vec F S2048x4096 .bf16) (x1 : Vec F S4096x32 .bf16) (x2 : Vec F S2048x1 .f32) (xo : Vec F S2048x32 .f32) (xs : Vec F S2048x32 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (k0_pay2 xs x0 x1)) -∗ K ⟨⟩))
      ⊢ wp frame (wpE (defs₀ (F := F)) Variants.none c none) E (cc0__matmul_kernel i arg2 harg2 arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  rw [read_one_store _ _ off00]
  simp only [View.readAt_eq_ld, harg2.read_unread, harg3.read_unread, harg6.read_unread, View.ld_unit_zero (S := S2048x32) off00,
    View.ld_unit_zero (S := S2048x4096) off00, View.ld_unit_zero (S := S4096x32) off00]

set_option maxHeartbeats 1000000 in
/-- A first step: whatever the accumulator held, it ends at the cleared value plus the tile's product. -/
theorem run0_A (c : Dev nD) (E : Set ℕ) (i : grid0.Coords)
    (arg2 : Memref sig .tc .vmem S2048x4096 .bf16) (harg2 : arg2.IsWhole) (arg3 : Memref sig .tc .vmem S4096x32 .bf16) (harg3 : arg3.IsWhole)
    (arg4 : Memref sig .tc .vmem S2048x1 .f32) (harg4 : arg4.IsWhole) (arg5 : Memref sig .tc .vmem S2048x32 .f32) (harg5 : arg5.IsWhole)
    (arg6 : Memref sig .tc .vmem S2048x32 .f32) (harg6 : arg6.IsWhole) (hc0 : cond0_0 i) (hc1 : ¬cond0_1 i)
    (x0 : Vec F S2048x4096 .bf16) (x1 : Vec F S4096x32 .bf16) (x2 : Vec F S2048x1 .f32) (xo : Vec F S2048x32 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (k0_pay2 k0_pay1 x0 x1)) -∗ K ⟨⟩))
      ⊢ wp frame (wpE (defs₀ (F := F)) Variants.none c none) E (cc0__matmul_kernel i arg2 harg2 arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fo, %hfo, HO⟩, ⟨%ds, %fs, -, HS⟩, Hk⟩
  obtain rfl := harg2.eq_unread hf0; obtain rfl := harg3.eq_unread hf1; obtain rfl := harg4.eq_unread hf2
  obtain rfl := harg5.eq_unread hfo
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  sl_unfold_words
  rw [read_two_stores _ _ off00]
  simp only [View.readCov_unit_zero (S := S2048x32) _ off00, View.readAt_eq_ld, harg2.read_unread, harg3.read_unread,
    View.ld_unit_zero (S := S2048x4096) off00, View.ld_unit_zero (S := S4096x32) off00]

set_option maxHeartbeats 1000000 in
/-- A last step: the accumulator gains the tile's product, and the output buffer, whatever it held, ends at the
    accumulator scaled row by row and clamped below at zero. -/
theorem run0_C (c : Dev nD) (E : Set ℕ) (i : grid0.Coords)
    (arg2 : Memref sig .tc .vmem S2048x4096 .bf16) (harg2 : arg2.IsWhole) (arg3 : Memref sig .tc .vmem S4096x32 .bf16) (harg3 : arg3.IsWhole)
    (arg4 : Memref sig .tc .vmem S2048x1 .f32) (harg4 : arg4.IsWhole) (arg5 : Memref sig .tc .vmem S2048x32 .f32) (harg5 : arg5.IsWhole)
    (arg6 : Memref sig .tc .vmem S2048x32 .f32) (harg6 : arg6.IsWhole) (hc0 : ¬cond0_0 i) (hc1 : cond0_1 i)
    (x0 : Vec F S2048x4096 .bf16) (x1 : Vec F S4096x32 .bf16) (x2 : Vec F S2048x1 .f32) (xs : Vec F S2048x32 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 x2 (k0_pay2 xs x0 x1)) ∗ owns (c : Thread nD τ) arg6 fullShare (k0_pay2 xs x0 x1)) -∗ K ⟨⟩))
      ⊢ wp frame (wpE (defs₀ (F := F)) Variants.none c none) E (cc0__matmul_kernel i arg2 harg2 arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%do_, %fo, -, HO⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr
    swap; · iexact HO
    ipureintro
    sl_unfold_words
    rw [read_one_store _ _ off00]
    simp only [View.readCov_unit_zero (S := S2048x32) _ off00, View.readAt_eq_ld, harg2.read_unread, harg3.read_unread, harg4.read_unread,
      harg6.read_unread, View.ld_unit_zero (S := S2048x32) off00, View.ld_unit_zero (S := S2048x1) off00,
      View.ld_unit_zero (S := S2048x4096) off00, View.ld_unit_zero (S := S4096x32) off00]
  iexists _; isplitr
  swap; · iexact HS
  ipureintro
  sl_unfold_words
  rw [read_one_store _ _ off00]
  simp only [View.readAt_eq_ld, harg2.read_unread, harg3.read_unread, harg6.read_unread, View.ld_unit_zero (S := S2048x32) off00,
    View.ld_unit_zero (S := S2048x4096) off00, View.ld_unit_zero (S := S4096x32) off00]

/-! ## The blocks the windows hand the body, read off the arrays as the region finds them -/

section Region
variable (V : (c : Dev nD) → (b : Ref sig .tc) → Buf (Elt F) ((c : Thread nD τ).loc b))

/-- Window `w`'s block at point `t` of the array the region finds at `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency tile, the activation tile and the scale block at point `t`, at their literal types. -/
abbrev ablk0 (c : Dev nD) (t : Fin cfg0.N) : Vec F S2048x4096 .bf16 := iblk0 V c 0 t
abbrev xblk0 (c : Dev nD) (t : Fin cfg0.N) : Vec F S4096x32 .bf16 := iblk0 V c 1 t
abbrev dblk0 (c : Dev nD) (t : Fin cfg0.N) : Vec F S2048x1 .f32 := iblk0 V c 2 t

/-- What the accumulator holds after point `n`: cleared and refilled at the first column tile of a row block,
    the running sum over the tiles met so far at the others. -/
def acc0 (c : Dev nD) : (n : ℕ) → n < cfg0.N → Vec F S2048x32 .f32
  | 0, h => k0_pay2 k0_pay1 (ablk0 V c ⟨0, h⟩) (xblk0 V c ⟨0, h⟩)
  | n + 1, h =>
    if (n + 1) % 3 = 0 then k0_pay2 k0_pay1 (ablk0 V c ⟨n + 1, h⟩) (xblk0 V c ⟨n + 1, h⟩)
    else k0_pay2 (acc0 c n (Nat.lt_of_succ_lt h)) (ablk0 V c ⟨n + 1, h⟩) (xblk0 V c ⟨n + 1, h⟩)

theorem acc0_first (c : Dev nD) (t : Fin cfg0.N) (h0 : t.val % 3 = 0) :
    acc0 V c t.val t.isLt = k0_pay2 k0_pay1 (ablk0 V c t) (xblk0 V c t) := by
  obtain ⟨n, hn⟩ := t
  cases n with
  | zero => rfl
  | succ n => exact if_pos h0

theorem acc0_later (c : Dev nD) (t : Fin cfg0.N) (h0 : ¬t.val % 3 = 0) :
    acc0 V c t.val t.isLt
      = k0_pay2 (acc0 V c (t.val - 1) (Nat.lt_of_le_of_lt (Nat.sub_le _ _) t.isLt)) (ablk0 V c t) (xblk0 V c t) := by
  obtain ⟨n, hn⟩ := t
  cases n with
  | zero => exact absurd (Nat.zero_mod _) h0
  | succ n => exact if_neg h0

/-- What the output's staging buffer holds after point `t` (consulted only where the block is written back,
    at the last column tile): the accumulator scaled row by row and clamped below at zero. -/
def out0 (c : Dev nD) (t : Fin cfg0.N) : Vec F S2048x32 .f32 := k0_pay3 (dblk0 V c t) (acc0 V c t.val t.isLt)

/-! ## The region's invariant: the accumulator at its running value -/

/-- The accumulator's buffer. -/
abbrev scM0 : Memref sig .tc .vmem S2048x32 .f32 := Memref.whole cc0_scratch0

/-- The other scoped buffers that are no staging buffer of this region, each at some contents. -/
def restS0 (c : Dev nD) : sProp 𝕄 :=
  bigSepL [cc1_stg0_0, cc1_stg0_1, cc1_stg1_0, cc1_stg1_1, cc1_stg2_0, cc1_stg2_1, cc1_stg3_0, cc1_stg3_1, cc1_scratch0]
    fun b => iprop(∃ f : Buf (Elt F) ((c : Thread nD τ).loc b), ((c : Thread nD τ).loc b) ↦{fullShare} f)

/-- The class invariant with the accumulator split off. -/
theorem PhiA0_eq (c : Dev nD) :
    (Pipeline.ΦA spec0 c : sProp 𝕄)
      = iprop(((∃ d, owns (c : Thread nD τ) scM0 fullShare d) ∗ restS0 c) ∗ (∃ r, prngReg c r)) := by
  unfold Pipeline.ΦA restS0
  rw [Pipeline.scopedRest_eq_of_list spec0 c [cc0_scratch0, cc1_stg0_0, cc1_stg0_1, cc1_stg1_0, cc1_stg1_1, cc1_stg2_0, cc1_stg2_1, cc1_stg3_0, cc1_stg3_1, cc1_scratch0] (by decide) (by decide),
    bigSepL_cons]
  simp only [scM0, owns_whole]
  try rfl

/-- Before the first point the class invariant (the accumulator at anything); after point `n` the accumulator at
    its running value, the rest as in the class invariant. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ restS0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c n hn) ∗ restS0 c) ∗ (∃ r, prngReg c r)) := rfl

theorem PhiS0_pos (c : Dev nD) (n : ℕ) (h : n ≤ cfg0.N) (hz : n ≠ 0) :
    PhiS0 V c n h = iprop((owns (c : Thread nD τ) scM0 fullShare (acc0 V c (n - 1) (by omega)) ∗ restS0 c) ∗ (∃ r, prngReg c r)) := by
  cases n with
  | zero => exact absurd rfl hz
  | succ n => rfl

/-! ## The region's proof data -/

/-- The arrays as the region finds them; after the body each input's buffer at its block, the output's at
    `out0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last column tile the output window is idle and not written back; at it, live. -/
theorem idle0_3 : ∀ t : Fin cfg0.N, ¬t.val % 3 = 2 → cfg0.idle 3 (grid0.coords t) = true := by decide +kernel
theorem noFlush0_3 : ∀ t : Fin cfg0.N, ¬t.val % 3 = 2 → (cfg0.win 3).flush t = false := by decide +kernel
theorem live0_3 : ∀ t : Fin cfg0.N, t.val % 3 = 2 → cfg0.idle 3 (grid0.coords t) = false := by decide +kernel

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point, by the three cases: the invariant hands it the accumulator at the running value (at
    anything before the first point) and takes it back one tile further; the inputs pass through; the output's
    buffer passes through untouched except at the last column tile, where it is stored whole. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
      unfold Dat.leavesExact; rw [live0_0 t], after0_0]
  rw [show (dat0 V c).leavesExact 1 t = owns (c : Thread nD τ) (st0_1 t) fullShare ((dat0 V c).after 1 t) from by
      unfold Dat.leavesExact; rw [live0_1 t], after0_1]
  rw [show (dat0 V c).leavesExact 2 t = owns (c : Thread nD τ) (st0_2 t) fullShare ((dat0 V c).after 2 t) from by
      unfold Dat.leavesExact; rw [live0_2 t], after0_2]
  have hN : t.val < 18 := lt_of_lt_of_eq t.isLt (show cfg0.N = 18 from N_0)
  by_cases h0 : t.val % 3 = 0
  · have h1 : ¬t.val % 3 = 2 := by omega
    rw [Dat.leavesExact_idle (dat0 V c) 3 t (idle0_3 t h1) (noFlush0_3 t h1)]
    rw [acc0_first V c t h0]
    by_cases hz : t.val = 0
    · rw [Phi0_castSucc V c t, PhiS0_zero V c _ _ hz, PhiA0_eq]
      iintro ⟨⟨⟨HS, Hr⟩, Hg⟩, Ho, ⟨%d0, H0⟩, ⟨%d1, H1⟩, ⟨%d2, H2⟩, ⟨%d3, H3⟩⟩
      iapply (run0_A c Set.univ (grid0.coords t) _ _ _ _ _ _ _ _ _ _ ((hcond0_0 t).mpr h0) (fun h => h1 ((hcond0_1 t).mp h))
        (ablk0 V c t) (xblk0 V c t) (dblk0 V c t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexists _; iexact H3
    · rw [Phi0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply (run0_A c Set.univ (grid0.coords t) _ _ _ _ _ _ _ _ _ _ ((hcond0_0 t).mpr h0) (fun h => h1 ((hcond0_1 t).mp h))
        (ablk0 V c t) (xblk0 V c t) (dblk0 V c t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [acc0_later V c t h0, Phi0_castSucc V c t, PhiS0_pos V c _ _ hz]
    by_cases h1 : t.val % 3 = 2
    · rw [show (dat0 V c).leavesExact 3 t = owns (c : Thread nD τ) (st0_3 t) fullShare ((dat0 V c).after 3 t) from by
        unfold Dat.leavesExact; rw [live0_3 t h1], after0_3]
      unfold out0
      rw [acc0_later V c t h0]
      iintro ⟨⟨⟨HS, Hr⟩, Hg⟩, Ho, ⟨%d0, H0⟩, ⟨%d1, H1⟩, ⟨%d2, H2⟩, ⟨%d3, H3⟩⟩
      iapply (run0_C c Set.univ (grid0.coords t) _ _ _ _ _ _ _ _ _ _ (fun h => h0 ((hcond0_0 t).mp h)) ((hcond0_1 t).mpr h1)
        (ablk0 V c t) (xblk0 V c t) (dblk0 V c t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexact H3
    · rw [Dat.leavesExact_idle (dat0 V c) 3 t (idle0_3 t h1) (noFlush0_3 t h1)]
      iintro ⟨⟨⟨HS, Hr⟩, Hg⟩, Ho, ⟨%d0, H0⟩, ⟨%d1, H1⟩, ⟨%d2, H2⟩, ⟨%d3, H3⟩⟩
      iapply (run0_B c Set.univ (grid0.coords t) _ _ _ _ _ _ _ _ _ _ (fun h => h0 ((hcond0_0 t).mp h)) (fun h => h1 ((hcond0_1 t).mp h))
        (ablk0 V c t) (xblk0 V c t) (dblk0 V c t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's value is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 18 := N_0; omega), PhiA0_eq]
  iintro ⟨⟨HS, Hr⟩, Hg⟩
  isplitr [Hg]
  · isplitl [HS]; · iexists _; iexact HS
    iexact Hr
  iexact Hg

end Region

end Cert.KernelIdeal.Hand

end
-- ==== Proof.KI.Region1.lean ====
import proofs.«401525_j2345052144079_3_alg».proof.Proof.Gen.KernelIdeal.Launch
import proofs.«401525_j2345052144079_3_alg».proof.Proof.Gen.KernelIdeal.Skeleton
import proofs.«401525_j2345052144079_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.HandB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One layer's kernel region: the tiled product of the adjacency matrix with an activation

The region walks a 6 × 3 grid: six row blocks of 2048 rows, and for each the three column tiles of 4096
columns of the adjacency matrix.  A scratch accumulator is carried from tile to tile.  This module states what
the accumulator and the output's staging buffer hold after every point, proves the kernel body does that at
each point, and bundles it as the region's proof data. -/

/-! ## The body's two conditions, and the three cases the grid meets

The inner grid axis walks the three column tiles of the adjacency matrix.  At its first position the
accumulator is cleared before the tile's product is added; at its last the scaled, clamped row block is
stored to the output; in between only the product is added. -/

/-- "The inner coordinate is 0": the accumulator is cleared here. -/
abbrev cond0_0 (i : grid1.Coords) : Prop := (Scalar.cmpi .ne (Scalar.extui (Scalar.cmpi .eq (BitVec.ofNat 32 (i 1).val) 0#32)) 0#32) = 1#1
/-- "The inner coordinate is 2": the output block is stored here. -/
abbrev cond0_1 (i : grid1.Coords) : Prop := k1_cond2 i = 1#1

theorem hcond0_0 : ∀ t : Fin cfg1.N, cond0_0 (grid1.coords t) ↔ t.val % 3 = 0 :=
  (by decide +kernel : ∀ t : Fin grid1.N, cond0_0 (grid1.coords t) ↔ t.val % 3 = 0)
theorem hcond0_1 : ∀ t : Fin cfg1.N, cond0_1 (grid1.coords t) ↔ t.val % 3 = 2 :=
  (by decide +kernel : ∀ t : Fin grid1.N, cond0_1 (grid1.coords t) ↔ t.val % 3 = 2)

/-- The offset of every access of the body is the origin of its buffer. -/
theorem off00 : (![0, 0] : Fin 2 → ℕ) = fun _ => 0 := by funext a; fin_cases a <;> rfl

/-- A buffer written once, whole, reads back as what was written. -/
theorem read_one_store {S : Shape} {e : EltTy} [∀ e, Nonempty (Elt F e)] {κ : Kind} {sp : Space} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, by
    subst h; show y ∈ (Rect.whole S).set; rw [Rect.set_whole]; exact Finset.mem_univ y⟩), View.canon_unit_zero h]

/-- A buffer written twice, whole each time, reads back as the later write. -/
theorem read_two_stores {S : Shape} {e : EltTy} [∀ e, Nonempty (Elt F e)] {κ : Kind} {sp : Space} (v : View sig κ sp S e) (f : v.ty.Contents (Elt F))
    {off : Fin S.rank → ℕ} (h : off = fun _ => 0) (inb : ∀ a, off a + S.size a ≤ S.size a) (w w' : S.Idx → Elt F e) :
    v.read (Elt F) (v.writes (Elt F) f [⟨Rect.unit off S.size inb, w⟩, ⟨Rect.unit off S.size inb, w'⟩]) = w := by
  rw [View.read_writes_eq_canon _ _ _ (fun y => ⟨_, List.mem_cons_self, by
    subst h; show y ∈ (Rect.whole S).set; rw [Rect.set_whole]; exact Finset.mem_univ y⟩), View.canon_cons_unit_zero h]

set_option maxHeartbeats 1000000 in
/-- A middle step: the accumulator, found at `xs`, gains the tile's product; every other buffer is left as found. -/
theorem run0_B (c : Dev nD) (E : Set ℕ) (i : grid1.Coords)
    (arg2 : Memref sig .tc .vmem S2048x4096 .bf16) (harg2 : arg2.IsWhole) (arg3 : Memref sig .tc .vmem S4096x32 .bf16) (harg3 : arg3.IsWhole)
    (arg4 : Memref sig .tc .vmem S2048x1 .f32) (harg4 : arg4.IsWhole) (arg5 : Memref sig .tc .vmem S2048x32 .f32) (harg5 : arg5.IsWhole)
    (arg6 : Memref sig .tc .vmem S2048x32 .f32) (harg6 : arg6.IsWhole) (hc0 : ¬cond0_0 i) (hc1 : ¬cond0_1 i)
    (x0 : Vec F S2048x4096 .bf16) (x1 : Vec F S4096x32 .bf16) (x2 : Vec F S2048x1 .f32) (xo : Vec F S2048x32 .f32) (xs : Vec F S2048x32 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (k1_pay2 xs x0 x1)) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  rw [read_one_store _ _ off00]
  simp only [View.readAt_eq_ld, harg2.read_unread, harg3.read_unread, harg6.read_unread, View.ld_unit_zero (S := S2048x32) off00,
    View.ld_unit_zero (S := S2048x4096) off00, View.ld_unit_zero (S := S4096x32) off00]

set_option maxHeartbeats 1000000 in
/-- A first step: whatever the accumulator held, it ends at the cleared value plus the tile's product. -/
theorem run0_A (c : Dev nD) (E : Set ℕ) (i : grid1.Coords)
    (arg2 : Memref sig .tc .vmem S2048x4096 .bf16) (harg2 : arg2.IsWhole) (arg3 : Memref sig .tc .vmem S4096x32 .bf16) (harg3 : arg3.IsWhole)
    (arg4 : Memref sig .tc .vmem S2048x1 .f32) (harg4 : arg4.IsWhole) (arg5 : Memref sig .tc .vmem S2048x32 .f32) (harg5 : arg5.IsWhole)
    (arg6 : Memref sig .tc .vmem S2048x32 .f32) (harg6 : arg6.IsWhole) (hc0 : cond0_0 i) (hc1 : ¬cond0_1 i)
    (x0 : Vec F S2048x4096 .bf16) (x1 : Vec F S4096x32 .bf16) (x2 : Vec F S2048x1 .f32) (xo : Vec F S2048x32 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (k1_pay2 k1_pay1 x0 x1)) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fo, %hfo, HO⟩, ⟨%ds, %fs, -, HS⟩, Hk⟩
  obtain rfl := harg2.eq_unread hf0; obtain rfl := harg3.eq_unread hf1; obtain rfl := harg4.eq_unread hf2
  obtain rfl := harg5.eq_unread hfo
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  sl_unfold_words
  rw [read_two_stores _ _ off00]
  simp only [View.readCov_unit_zero (S := S2048x32) _ off00, View.readAt_eq_ld, harg2.read_unread, harg3.read_unread,
    View.ld_unit_zero (S := S2048x4096) off00, View.ld_unit_zero (S := S4096x32) off00]

set_option maxHeartbeats 1000000 in
/-- A last step: the accumulator gains the tile's product, and the output buffer, whatever it held, ends at the
    accumulator scaled row by row and clamped below at zero. -/
theorem run0_C (c : Dev nD) (E : Set ℕ) (i : grid1.Coords)
    (arg2 : Memref sig .tc .vmem S2048x4096 .bf16) (harg2 : arg2.IsWhole) (arg3 : Memref sig .tc .vmem S4096x32 .bf16) (harg3 : arg3.IsWhole)
    (arg4 : Memref sig .tc .vmem S2048x1 .f32) (harg4 : arg4.IsWhole) (arg5 : Memref sig .tc .vmem S2048x32 .f32) (harg5 : arg5.IsWhole)
    (arg6 : Memref sig .tc .vmem S2048x32 .f32) (harg6 : arg6.IsWhole) (hc0 : ¬cond0_0 i) (hc1 : cond0_1 i)
    (x0 : Vec F S2048x4096 .bf16) (x1 : Vec F S4096x32 .bf16) (x2 : Vec F S2048x1 .f32) (xs : Vec F S2048x32 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 x2 (k1_pay2 xs x0 x1)) ∗ owns (c : Thread nD τ) arg6 fullShare (k1_pay2 xs x0 x1)) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%do_, %fo, -, HO⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr
    swap; · iexact HO
    ipureintro
    sl_unfold_words
    rw [read_one_store _ _ off00]
    simp only [View.readCov_unit_zero (S := S2048x32) _ off00, View.readAt_eq_ld, harg2.read_unread, harg3.read_unread, harg4.read_unread,
      harg6.read_unread, View.ld_unit_zero (S := S2048x32) off00, View.ld_unit_zero (S := S2048x1) off00,
      View.ld_unit_zero (S := S2048x4096) off00, View.ld_unit_zero (S := S4096x32) off00]
  iexists _; isplitr
  swap; · iexact HS
  ipureintro
  sl_unfold_words
  rw [read_one_store _ _ off00]
  simp only [View.readAt_eq_ld, harg2.read_unread, harg3.read_unread, harg6.read_unread, View.ld_unit_zero (S := S2048x32) off00,
    View.ld_unit_zero (S := S2048x4096) off00, View.ld_unit_zero (S := S4096x32) off00]

/-! ## The blocks the windows hand the body, read off the arrays as the region finds them -/

section Region
variable (V : (c : Dev nD) → (b : Ref sig .tc) → Buf (Elt F) ((c : Thread nD τ).loc b))

/-- Window `w`'s block at point `t` of the array the region finds at `V`. -/
def iblk0 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile, the activation tile and the scale block at point `t`, at their literal types. -/
abbrev ablk0 (c : Dev nD) (t : Fin cfg1.N) : Vec F S2048x4096 .bf16 := iblk0 V c 0 t
abbrev xblk0 (c : Dev nD) (t : Fin cfg1.N) : Vec F S4096x32 .bf16 := iblk0 V c 1 t
abbrev dblk0 (c : Dev nD) (t : Fin cfg1.N) : Vec F S2048x1 .f32 := iblk0 V c 2 t

/-- What the accumulator holds after point `n`: cleared and refilled at the first column tile of a row block,
    the running sum over the tiles met so far at the others. -/
def acc0 (c : Dev nD) : (n : ℕ) → n < cfg1.N → Vec F S2048x32 .f32
  | 0, h => k1_pay2 k1_pay1 (ablk0 V c ⟨0, h⟩) (xblk0 V c ⟨0, h⟩)
  | n + 1, h =>
    if (n + 1) % 3 = 0 then k1_pay2 k1_pay1 (ablk0 V c ⟨n + 1, h⟩) (xblk0 V c ⟨n + 1, h⟩)
    else k1_pay2 (acc0 c n (Nat.lt_of_succ_lt h)) (ablk0 V c ⟨n + 1, h⟩) (xblk0 V c ⟨n + 1, h⟩)

theorem acc1_first (c : Dev nD) (t : Fin cfg1.N) (h0 : t.val % 3 = 0) :
    acc0 V c t.val t.isLt = k1_pay2 k1_pay1 (ablk0 V c t) (xblk0 V c t) := by
  obtain ⟨n, hn⟩ := t
  cases n with
  | zero => rfl
  | succ n => exact if_pos h0

theorem acc1_later (c : Dev nD) (t : Fin cfg1.N) (h0 : ¬t.val % 3 = 0) :
    acc0 V c t.val t.isLt
      = k1_pay2 (acc0 V c (t.val - 1) (Nat.lt_of_le_of_lt (Nat.sub_le _ _) t.isLt)) (ablk0 V c t) (xblk0 V c t) := by
  obtain ⟨n, hn⟩ := t
  cases n with
  | zero => exact absurd (Nat.zero_mod _) h0
  | succ n => exact if_neg h0

/-- What the output's staging buffer holds after point `t` (consulted only where the block is written back,
    at the last column tile): the accumulator scaled row by row and clamped below at zero. -/
def out0 (c : Dev nD) (t : Fin cfg1.N) : Vec F S2048x32 .f32 := k1_pay3 (dblk0 V c t) (acc0 V c t.val t.isLt)

/-! ## The region's invariant: the accumulator at its running value -/

/-- The accumulator's buffer. -/
abbrev scM0 : Memref sig .tc .vmem S2048x32 .f32 := Memref.whole cc1_scratch0

/-- The other scoped buffers that are no staging buffer of this region, each at some contents. -/
def restS0 (c : Dev nD) : sProp 𝕄 :=
  bigSepL [cc0_stg0_0, cc0_stg0_1, cc0_stg1_0, cc0_stg1_1, cc0_stg2_0, cc0_stg2_1, cc0_stg3_0, cc0_stg3_1, cc0_scratch0]
    fun b => iprop(∃ f : Buf (Elt F) ((c : Thread nD τ).loc b), ((c : Thread nD τ).loc b) ↦{fullShare} f)

/-- The class invariant with the accumulator split off. -/
theorem PhiA0_eq (c : Dev nD) :
    (Pipeline.ΦA spec1 c : sProp 𝕄)
      = iprop(((∃ d, owns (c : Thread nD τ) scM0 fullShare d) ∗ restS0 c) ∗ (∃ r, prngReg c r)) := by
  unfold Pipeline.ΦA restS0
  rw [Pipeline.scopedRest_eq_of_list spec1 c [cc1_scratch0, cc0_stg0_0, cc0_stg0_1, cc0_stg1_0, cc0_stg1_1, cc0_stg2_0, cc0_stg2_1, cc0_stg3_0, cc0_stg3_1, cc0_scratch0] (by decide) (by decide),
    bigSepL_cons]
  simp only [scM0, owns_whole]
  try rfl

/-- Before the first point the class invariant (the accumulator at anything); after point `n` the accumulator at
    its running value, the rest as in the class invariant. -/
def PhiS0 (c : Dev nD) : (n : ℕ) → n ≤ cfg1.N → sProp 𝕄
  | 0, _ => Pipeline.ΦA spec1 c
  | n + 1, hn => iprop((owns (c : Thread nD τ) scM0 fullShare (acc0 V c n hn) ∗ restS0 c) ∗ (∃ r, prngReg c r))

theorem PhiS0_zero (c : Dev nD) (n : ℕ) (h : n ≤ cfg1.N) (hz : n = 0) : PhiS0 V c n h = Pipeline.ΦA spec1 c := by
  subst hz; rfl

theorem PhiS0_succ (c : Dev nD) (n : ℕ) (hn : n < cfg1.N) :
    PhiS0 V c (n + 1) hn = iprop((owns (c : Thread nD τ) scM0 fullShare (acc0 V c n hn) ∗ restS0 c) ∗ (∃ r, prngReg c r)) := rfl

theorem PhiS0_pos (c : Dev nD) (n : ℕ) (h : n ≤ cfg1.N) (hz : n ≠ 0) :
    PhiS0 V c n h = iprop((owns (c : Thread nD τ) scM0 fullShare (acc0 V c (n - 1) (by omega)) ∗ restS0 c) ∗ (∃ r, prngReg c r)) := by
  cases n with
  | zero => exact absurd rfl hz
  | succ n => rfl

/-! ## The region's proof data -/

/-- The arrays as the region finds them; after the body each input's buffer at its block, the output's at
    `out0`; the invariant `PhiS0`; nothing owed; full shares. -/
def dat0 (c : Dev nD) : Dat τ (Elt F) Unit ℕ (UR sig nD τ) ℕ cfg1 c where
  A w := V c (Pipeline.arrRef spec1 w)
  after w t := match w with
    | ⟨0, _⟩ => iblk0 V c 0 t
    | ⟨1, _⟩ => iblk0 V c 1 t
    | ⟨2, _⟩ => iblk0 V c 2 t
    | ⟨3, _⟩ => out0 V c t
  Φ t := PhiS0 V c t.val (Nat.le_of_lt_succ t.isLt)
  q _ := fullShare
  owed _ := 0

theorem A_eq0 (c : Dev nD) (w : Fin cfg1.W) : (dat0 V c).A w = V c (Pipeline.arrRef spec1 w) := by
  dsimp only [dat0]

theorem Phi0_castSucc (c : Dev nD) (t : Fin cfg1.N) :
    (dat0 V c).Φ t.castSucc = PhiS0 V c t.val (Nat.le_of_lt t.isLt) := by
  dsimp only [dat0]; simp only [Fin.coe_castSucc]

theorem after0_0 (c : Dev nD) (t : Fin cfg1.N) : (dat0 V c).after 0 t = iblk0 V c 0 t := by dsimp only [dat0]
theorem after0_1 (c : Dev nD) (t : Fin cfg1.N) : (dat0 V c).after 1 t = iblk0 V c 1 t := by dsimp only [dat0]
theorem after0_2 (c : Dev nD) (t : Fin cfg1.N) : (dat0 V c).after 2 t = iblk0 V c 2 t := by dsimp only [dat0]
theorem after0_3 (c : Dev nD) (t : Fin cfg1.N) : (dat0 V c).after 3 t = out0 V c t := by dsimp only [dat0]

/-- Each input's current staging buffer holds its block at every point, fetched there or not. -/
theorem before0_0 (c : Dev nD) (t : Fin cfg1.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg1.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg1.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## Where the windows are idle -/

theorem live0_0 : ∀ t : Fin cfg1.N, cfg1.idle 0 (grid1.coords t) = false := by decide +kernel
theorem live0_1 : ∀ t : Fin cfg1.N, cfg1.idle 1 (grid1.coords t) = false := by decide +kernel
theorem live0_2 : ∀ t : Fin cfg1.N, cfg1.idle 2 (grid1.coords t) = false := by decide +kernel
/-- Away from the last column tile the output window is idle and not written back; at it, live. -/
theorem idle0_3 : ∀ t : Fin cfg1.N, ¬t.val % 3 = 2 → cfg1.idle 3 (grid1.coords t) = true := by decide +kernel
theorem noFlush0_3 : ∀ t : Fin cfg1.N, ¬t.val % 3 = 2 → (cfg1.win 3).flush t = false := by decide +kernel
theorem live0_3 : ∀ t : Fin cfg1.N, t.val % 3 = 2 → cfg1.idle 3 (grid1.coords t) = false := by decide +kernel

/-! ## The body obligation -/

def bodyPre0 (c : Dev nD) (t : Fin cfg1.N) : sProp 𝕄 :=
  iprop((dat0 V c).Φ t.castSucc ∗ (dat0 V c).owesAt () t.castSucc
    ∗ (∃ d, owns (c : Thread nD τ) (st1_0 t) fullShare ((dat0 V c).before 0 t d))
    ∗ (∃ d, owns (c : Thread nD τ) (st1_1 t) fullShare ((dat0 V c).before 1 t d))
    ∗ (∃ d, owns (c : Thread nD τ) (st1_2 t) fullShare ((dat0 V c).before 2 t d))
    ∗ (∃ d, owns (c : Thread nD τ) (st1_3 t) fullShare ((dat0 V c).before 3 t d)))

def bodyPost0 (c : Dev nD) (t : Fin cfg1.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point, by the three cases: the invariant hands it the accumulator at the running value (at
    anything before the first point) and takes it back one tile further; the inputs pass through; the output's
    buffer passes through untouched except at the last column tile, where it is stored whole. -/
theorem sound_body0 (c : Dev nD) (t : Fin cfg1.N) :
    bodyPre0 V c t ⊢ wp frame (wpE (defs₀ (F := F)) Variants.none c none) Set.univ (bodyAt1 t) (fun _ => bodyPost0 V c t) := by
  unfold bodyPre0 bodyPost0 bodyAt1
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st1_0 t) fullShare ((dat0 V c).after 0 t) from by
      unfold Dat.leavesExact; rw [live0_0 t], after0_0]
  rw [show (dat0 V c).leavesExact 1 t = owns (c : Thread nD τ) (st1_1 t) fullShare ((dat0 V c).after 1 t) from by
      unfold Dat.leavesExact; rw [live0_1 t], after0_1]
  rw [show (dat0 V c).leavesExact 2 t = owns (c : Thread nD τ) (st1_2 t) fullShare ((dat0 V c).after 2 t) from by
      unfold Dat.leavesExact; rw [live0_2 t], after0_2]
  have hN : t.val < 18 := lt_of_lt_of_eq t.isLt (show cfg1.N = 18 from N_1)
  by_cases h0 : t.val % 3 = 0
  · have h1 : ¬t.val % 3 = 2 := by omega
    rw [Dat.leavesExact_idle (dat0 V c) 3 t (idle0_3 t h1) (noFlush0_3 t h1)]
    rw [acc1_first V c t h0]
    by_cases hz : t.val = 0
    · rw [Phi0_castSucc V c t, PhiS0_zero V c _ _ hz, PhiA0_eq]
      iintro ⟨⟨⟨HS, Hr⟩, Hg⟩, Ho, ⟨%d0, H0⟩, ⟨%d1, H1⟩, ⟨%d2, H2⟩, ⟨%d3, H3⟩⟩
      iapply (run0_A c Set.univ (grid1.coords t) _ _ _ _ _ _ _ _ _ _ ((hcond0_0 t).mpr h0) (fun h => h1 ((hcond0_1 t).mp h))
        (ablk0 V c t) (xblk0 V c t) (dblk0 V c t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexists _; iexact H3
    · rw [Phi0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply (run0_A c Set.univ (grid1.coords t) _ _ _ _ _ _ _ _ _ _ ((hcond0_0 t).mpr h0) (fun h => h1 ((hcond0_1 t).mp h))
        (ablk0 V c t) (xblk0 V c t) (dblk0 V c t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [acc1_later V c t h0, Phi0_castSucc V c t, PhiS0_pos V c _ _ hz]
    by_cases h1 : t.val % 3 = 2
    · rw [show (dat0 V c).leavesExact 3 t = owns (c : Thread nD τ) (st1_3 t) fullShare ((dat0 V c).after 3 t) from by
        unfold Dat.leavesExact; rw [live0_3 t h1], after0_3]
      unfold out0
      rw [acc1_later V c t h0]
      iintro ⟨⟨⟨HS, Hr⟩, Hg⟩, Ho, ⟨%d0, H0⟩, ⟨%d1, H1⟩, ⟨%d2, H2⟩, ⟨%d3, H3⟩⟩
      iapply (run0_C c Set.univ (grid1.coords t) _ _ _ _ _ _ _ _ _ _ (fun h => h0 ((hcond0_0 t).mp h)) ((hcond0_1 t).mpr h1)
        (ablk0 V c t) (xblk0 V c t) (dblk0 V c t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexact H3
    · rw [Dat.leavesExact_idle (dat0 V c) 3 t (idle0_3 t h1) (noFlush0_3 t h1)]
      iintro ⟨⟨⟨HS, Hr⟩, Hg⟩, Ho, ⟨%d0, H0⟩, ⟨%d1, H1⟩, ⟨%d2, H2⟩, ⟨%d3, H3⟩⟩
      iapply (run0_B c Set.univ (grid1.coords t) _ _ _ _ _ _ _ _ _ _ (fun h => h0 ((hcond0_0 t).mp h)) (fun h => h1 ((hcond0_1 t).mp h))
        (ablk0 V c t) (xblk0 V c t) (dblk0 V c t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W1, bigSep_W1]
  exact sound_body0 V c t

/-- What the launch hands the region is the invariant before the first point. -/
theorem hin0 (c : Dev nD) : Pipeline.ΦA spec1 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's value is forgotten. -/
theorem hout0 (c : Dev nD) : (dat0 V c).Φ (Fin.last cfg1.N) ⊢ Pipeline.ΦA spec1 c := by
  rw [show (dat0 V c).Φ (Fin.last cfg1.N) = PhiS0 V c (Fin.last cfg1.N).val (Nat.le_of_lt_succ (Fin.last cfg1.N).isLt) from rfl,
    PhiS0_pos V c _ _ (by rw [Fin.val_last]; have : cfg1.N = 18 := N_1; omega), PhiA0_eq]
  iintro ⟨⟨HS, Hr⟩, Hg⟩
  isplitr [Hg]
  · isplitl [HS]; · iexists _; iexact HS
    iexact Hr
  iexact Hg

end Region

end Cert.KernelIdeal.HandB

end
-- ==== Proof.KI.Run.lean ====
import proofs.«401525_j2345052144079_3_alg».proof.Proof.KI.Region0
import proofs.«401525_j2345052144079_3_alg».proof.Proof.KI.Region1
import proofs.«401525_j2345052144079_3_alg».proof.Proof.Gen.KernelIdeal.Regions

/-! # The whole program's run: host stretch, first layer's region, host stretch, second layer's region

The contents of every buffer are followed from the launch memory through the four items of the program: a host
stretch applies its operations, a region leaves its arrays at what its write-backs made of them and every other
buffer as found.  Every weakly fair execution terminates with the result buffer at the second region's folded
write-backs and every argument as launched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch: the first region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: the second region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (HandB.dat0 (V3 m) c).arrAt w cfg1.N
theorem W4_arr (c : Dev nD) (w : Fin cfg1.W) :
    W4 m c (Proc.devRef .tc (Pipeline.arrRef spec1 w)) = (HandB.dat0 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (HandB.dat0 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A buffer that neither host stretch writes and that is no array of either region ends as launched. -/
theorem W4_kept (c : Dev nD) (b : Ref sig .tc) (h0 : b ∉ hostOps0_W) (h1 : b ∉ hostOps1_W)
    (ha0 : ∀ w, Pipeline.arrRef spec0 w ≠ b) (ha1 : ∀ w, Pipeline.arrRef spec1 w ≠ b) :
    W4 m c (Proc.devRef .tc b) = m ((c : Thread nD τ).loc b) :=
  calc W4 m c (Proc.devRef .tc b)
    _ = W3 m c (Proc.devRef .tc b) := W4_of_ne m c b ha1
    _ = W2 m c (Proc.devRef .tc b) := StableHlo.after_of_writes_sub hostOps1 _ hostOps1_writes h1
    _ = W1 m c (Proc.devRef .tc b) := W2_of_ne m c b ha0
    _ = W0 m c (Proc.devRef .tc b) := StableHlo.after_of_writes_sub hostOps0 _ hostOps0_writes h0
    _ = m ((c : Thread nD τ).loc b) := rfl

/-- The result buffer ends at the second region's folded write-backs. -/
theorem W4_result (c : Dev nD) : W4 m c (Proc.devRef .tc main_v47) = (HandB.dat0 (V3 m) c).arrAt 3 cfg1.N :=
  W4_arr m c 3

/-! ## The proof data family and what rides beside the buffers -/

abbrev adm : (p : Fin 2) → (pcfgs (F := F) p).Adm := fun p => (cfgs p).toPCfg_adm
/-- Each region's proof data at its own entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => HandB.dat0 (V3 m) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first layer's region: entered with every unscoped buffer at `W1`, left with them at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region: entered with every unscoped buffer at `W3`, left with them at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (HandB.body_obligation0 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (HandB.hin0 (V3 m) c)
    unfold Pipeline.ΦA
    iintro ⟨Hp, -, Hr⟩
    isplitl [Hr]; · iexact Hr
    iexact Hp
  hout c := by
    rw [Pipeline.ownSems0_none]
    refine (HandB.hout0 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as four segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution terminates, nothing faulting, with every unscoped
    buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The run read at the result and the arguments: the result at the second region's folded write-backs, every
    argument as launched. -/
theorem run_main : θ_run defs (onTc (τ := τ) (main (F := F))) ⟨m, fun _ => 0, ρ⟩ (fun r => ∀ c : Dev nD,
      r.2.mem ((c.tc : Thread nD τ).loc main_v47) = (HandB.dat0 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v47 (by decide))).trans (W4_result m c),
     (h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide)),
     (h c _ (mem_uc main_arg6 (by decide))).trans (W4_kept m c main_arg6 (by decide) (by decide) (by decide) (by decide))⟩)
    (run_all m ρ)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_main m ρ)

end Cert.KernelIdeal.Hand

end
-- ==== Proof.KI.Pay0.lean ====
import proofs.«401525_j2345052144079_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

/-! The three values the first layer's kernel body stores, read entry by entry over the extended reals:
the cleared accumulator is zero everywhere; an accumulation step adds, to what the accumulator held, the
product of the adjacency tile's row with the activation tile's column; the stored block is the accumulator
scaled by its row's factor and clamped below at zero. -/

set_option maxRecDepth 16384

noncomputable section

namespace Cert.KernelIdeal.Hand

open Cert.KernelIdeal Cert.KernelIdeal.Gen
open Idealize.ShloMosaic Idealize.ShloMosaic.ValueIdx

/-! ## A column broadcast over the lanes -/

/-- An `[a, 1]` array broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The tile product's operand indices

The contraction runs over the left operand's second axis and the right operand's first; the left operand keeps
the output's row, the right operand keeps the output's column. -/

theorem lhs_pay2_0 (i : S2048x32.Idx) (q : dot_S2048x4096_S4096x32_S2048x32_1_0_0_1_n_n.contr.Idx) :
    (dot_S2048x4096_S4096x32_S2048x32_1_0_0_1_n_n.lhsIdx i q 0).val = (i 0).val := by
  unfold DotDims.lhsIdx
  rw [dif_neg (show ¬(0 : Fin S2048x4096.rank) ∈ dot_S2048x4096_S4096x32_S2048x32_1_0_0_1_n_n.lhsBatch by decide), dif_pos (show (0 : Fin S2048x4096.rank) ∈ dot_S2048x4096_S4096x32_S2048x32_1_0_0_1_n_n.lhsNonContracting by decide)]
  rfl
theorem lhs_pay2_1 (i : S2048x32.Idx) (q : dot_S2048x4096_S4096x32_S2048x32_1_0_0_1_n_n.contr.Idx) :
    (dot_S2048x4096_S4096x32_S2048x32_1_0_0_1_n_n.lhsIdx i q 1).val = (q ⟨0, by decide⟩).val :=
  dot_S2048x4096_S4096x32_S2048x32_1_0_0_1_n_n.lhsIdx_val_of_single rfl i q
theorem rhs_pay2_0 (i : S2048x32.Idx) (q : dot_S2048x4096_S4096x32_S2048x32_1_0_0_1_n_n.contr.Idx) :
    (dot_S2048x4096_S4096x32_S2048x32_1_0_0_1_n_n.rhsIdx i q 0).val = (q ⟨0, by decide⟩).val :=
  dot_S2048x4096_S4096x32_S2048x32_1_0_0_1_n_n.rhsIdx_val_of_single rfl i q
theorem rhs_pay2_1 (i : S2048x32.Idx) (q : dot_S2048x4096_S4096x32_S2048x32_1_0_0_1_n_n.contr.Idx) :
    (dot_S2048x4096_S4096x32_S2048x32_1_0_0_1_n_n.rhsIdx i q 1).val = (i 1).val := by
  unfold DotDims.rhsIdx
  rw [dif_neg (show ¬(1 : Fin S4096x32.rank) ∈ dot_S2048x4096_S4096x32_S2048x32_1_0_0_1_n_n.rhsBatch by decide), dif_pos (show (1 : Fin S4096x32.rank) ∈ dot_S2048x4096_S4096x32_S2048x32_1_0_0_1_n_n.rhsNonContracting by decide)]
  rfl

/-- The tile product into a zero accumulator, at an entry: the sum over the contraction coordinate of the row's
entry times the column's entry. -/
theorem matmul_zero_apply0 (a : FVec Ideal S2048x4096 .bf16) (x : FVec Ideal S4096x32 .bf16) (p : Fin 2048) (q : Fin 32) :
    matmul dot_S2048x4096_S4096x32_S2048x32_1_0_0_1_n_n none a x (constant (F := Ideal) S2048x32 .f32 0x00000000#32) (ix2 p q)
      = ∑ k : Fin 4096, a (ix2 p k) * x (ix2 k q) := by
  simp only [matmul]
  rw [Ideal.matmul_constant_zero_apply, ← Equiv.sum_comp (contrEquiv1 dot_S2048x4096_S4096x32_S2048x32_1_0_0_1_n_n 4096 rfl rfl).symm]
  refine Finset.sum_congr rfl fun k _ => ?_
  have hk := contrEquiv1_symm_val dot_S2048x4096_S4096x32_S2048x32_1_0_0_1_n_n 4096 rfl rfl k
  have el : dot_S2048x4096_S4096x32_S2048x32_1_0_0_1_n_n.lhsIdx (ix2 p q) ((contrEquiv1 dot_S2048x4096_S4096x32_S2048x32_1_0_0_1_n_n 4096 rfl rfl).symm k) = ix2 p k := funext fun ax => Fin.ext (by
    match ax with
    | ⟨0, _⟩ => exact lhs_pay2_0 _ _
    | ⟨1, _⟩ => exact (lhs_pay2_1 _ _).trans hk)
  have er : dot_S2048x4096_S4096x32_S2048x32_1_0_0_1_n_n.rhsIdx (ix2 p q) ((contrEquiv1 dot_S2048x4096_S4096x32_S2048x32_1_0_0_1_n_n 4096 rfl rfl).symm k) = ix2 k q := funext fun ax => Fin.ext (by
    match ax with
    | ⟨0, _⟩ => exact (rhs_pay2_0 _ _).trans hk
    | ⟨1, _⟩ => exact rhs_pay2_1 _ _)
  rw [el, er]

/-! ## The three stored values -/

/-- The cleared accumulator is zero at every entry. -/
theorem pay1_apply0 (p : Fin 2048) (q : Fin 32) : (k0_pay1 (F := Ideal)) (ix2 p q) = 0 := by
  unfold k0_pay1
  show shapeCast S2048x32 (broadcast S2048x32 (Scalar.ofBits (F := Ideal) .f32 0x00000000#32)) shapeCasts_S2048x32_S2048x32 (ix2 p q) = 0
  rw [shapeCast_self]
  exact Ideal.ofBits_zero_f32

/-- One accumulation step at an entry: what was there plus the tile's row-by-column product. -/
theorem pay2_apply0 (v3 : Vec Ideal S2048x32 .f32) (a : Vec Ideal S2048x4096 .bf16) (x : Vec Ideal S4096x32 .bf16)
    (p : Fin 2048) (q : Fin 32) :
    k0_pay2 v3 a x (ix2 p q) = v3 (ix2 p q) + ∑ k : Fin 4096, a (ix2 p k) * x (ix2 k q) := by
  unfold k0_pay2
  show shapeCast S2048x32 (addf v3 (matmul dot_S2048x4096_S4096x32_S2048x32_1_0_0_1_n_n none
      (shapeCast S2048x4096 a shapeCasts_S2048x4096_S2048x4096) (shapeCast S4096x32 x shapeCasts_S4096x32_S4096x32)
      (constant (F := Ideal) S2048x32 .f32 0x00000000#32))) shapeCasts_S2048x32_S2048x32 (ix2 p q) = _
  rw [shapeCast_self, shapeCast_self, shapeCast_self]
  exact congrArg (v3 (ix2 p q) + ·) (matmul_zero_apply0 a x p q)

/-- The stored block at an entry: the accumulator scaled by its row's factor, clamped below at zero. -/
theorem pay3_apply0 (d : Vec Ideal S2048x1 .f32) (s : Vec Ideal S2048x32 .f32) (p : Fin 2048) (q : Fin 32) :
    k0_pay3 d s (ix2 p q) = max (d (ix2 p 0) * s (ix2 p q)) 0 := by
  unfold k0_pay3
  show max (broadcastTo S2048x32 (shapeCast S2048x1 d shapeCasts_S2048x1_S2048x1) broadcasts_S2048x1_S2048x32 (ix2 p q) * s (ix2 p q))
      (Ideal.ofBits .f32 0x00000000#32) = _
  rw [shapeCast_self, broadcastTo_a1_ab_apply, Ideal.ofBits_zero_f32]

end Cert.KernelIdeal.Hand

end
-- ==== Proof.Spec.lean ====
import Idealize.ShloMosaic.PureOps.Ideal
import Mathlib.Algebra.BigOperators.Fin

/-! The arithmetic that joins the two programs, over the extended reals, free of any program text.

A graph-convolution layer multiplies a normalised adjacency matrix into an activation.  One side
scales the activation's rows by `d`, multiplies by the raw adjacency in three column tiles of 4096
accumulated left to right from zero, and scales the result's rows by `d` again; the other side
scales the adjacency on both sides first and contracts once over all 12288 columns.  With every
`d i` a non-negative real the two agree entry by entry. -/

noncomputable section

namespace Cert.Spec

open Finset

/-- Column `k` of the `b`-th tile of 4096 columns. -/
def tile (b : Fin 3) (k : Fin 4096) : Fin 12288 := ⟨4096 * b.val + k.val, by omega⟩

/-- The sum of `f` over one tile. -/
def tileSum (f : Fin 12288 → EReal) (b : Fin 3) : EReal := ∑ k : Fin 4096, f (tile b k)

/-- Three tiles accumulated left to right from zero. -/
def accum (f : Fin 12288 → EReal) : EReal := ((0 + tileSum f 0) + tileSum f 1) + tileSum f 2

/-- The accumulation is the sum over all columns. -/
theorem accum_eq_sum (f : Fin 12288 → EReal) : accum f = ∑ j : Fin 12288, f j := by
  -- Pairs (tile, column in the tile) enumerate the 12288 columns exactly once.
  let e : Fin 3 × Fin 4096 ≃ Fin 12288 :=
    (finProdFinEquiv (m := 3) (n := 4096)).trans (finCongr (by norm_num))
  have he : ∀ p : Fin 3 × Fin 4096, e p = tile p.1 p.2 := by
    intro p
    apply Fin.ext
    simp only [e, tile, Equiv.trans_apply, finProdFinEquiv_apply_val, finCongr_apply, Fin.val_cast]
    omega
  have h : ∑ p : Fin 3 × Fin 4096, f (tile p.1 p.2) = ∑ j : Fin 12288, f j :=
    Fintype.sum_equiv e _ _ (fun p => by rw [he])
  rw [← h, Fintype.sum_prod_type, Fin.sum_univ_three]
  simp only [accum, tileSum, zero_add]

/-- A non-negative real scalar distributes over a finite sum of extended reals. -/
theorem mul_sum_of_real {ι : Type*} (s : Finset ι) (r : ℝ) (hr : 0 ≤ r) (a : ι → EReal) :
    (r : EReal) * ∑ j ∈ s, a j = ∑ j ∈ s, (r : EReal) * a j := by
  classical
  -- A non-negative finite scalar distributes over each binary sum; induct on the index set.
  induction s using Finset.induction_on with
  | empty => simp
  | insert j s hj ih =>
    rw [Finset.sum_insert hj, Finset.sum_insert hj,
      EReal.left_distrib_of_nonneg_of_ne_top (EReal.coe_nonneg.mpr hr) (EReal.coe_ne_top r), ih]

/-- The layer as the tiled side computes it. -/
def kLayer (A : Fin 12288 → Fin 12288 → EReal) (d : Fin 12288 → EReal) (t : Fin 12288 → Fin 32 → EReal)
    (i : Fin 12288) (c : Fin 32) : EReal :=
  max (d i * accum (fun j => A i j * (d j * t j c))) 0

/-- The layer as the whole-matrix side computes it. -/
def rLayer (A : Fin 12288 → Fin 12288 → EReal) (d : Fin 12288 → EReal) (t : Fin 12288 → Fin 32 → EReal)
    (i : Fin 12288) (c : Fin 32) : EReal :=
  max (∑ j : Fin 12288, ((d i * A i j) * d j) * t j c) 0

/-- The two layers agree when every scale is a non-negative real. -/
theorem layer_eq (A : Fin 12288 → Fin 12288 → EReal) (d : Fin 12288 → EReal) (t : Fin 12288 → Fin 32 → EReal)
    (hd : ∀ i, ∃ r : ℝ, 0 ≤ r ∧ d i = (r : EReal)) : kLayer A d t = rLayer A d t := by
  funext i c
  obtain ⟨r, hr, hdi⟩ := hd i
  unfold kLayer rLayer
  -- The row scale is a non-negative real, so it moves inside the sum over all columns;
  -- the summands then differ only by re-bracketing a product.
  rw [accum_eq_sum, hdi, mul_sum_of_real _ r hr]
  congr 1
  apply Finset.sum_congr rfl
  intro j _
  rw [mul_assoc, mul_assoc]

/-- A power of a non-negative extended real is a non-negative real when the exponent is a negative real:
    the power of `⊤` is `0`, and a real power of a non-negative real is non-negative. -/
theorem pow_nonneg_real (x : EReal) (hx : 0 ≤ x) (y : ℝ) (hy : y < 0) :
    ∃ r : ℝ, 0 ≤ r ∧ Idealize.ShloMosaic.Ideal.pow x (y : EReal) = (r : EReal) := by
  induction x using EReal.rec with
  | bot => exact absurd hx (by simp)
  | coe x =>
    -- A real power of a non-negative real is non-negative.
    have hx' : 0 ≤ x := by exact_mod_cast hx
    exact ⟨Real.rpow x y, Real.rpow_nonneg hx' y, rfl⟩
  | top =>
    -- The exponent is negative, so the power of the top element is zero.
    refine ⟨0, le_refl 0, ?_⟩
    have h1 : ¬ (0 : EReal) < (y : EReal) := by
      rw [not_lt]; exact_mod_cast hy.le
    have h2 : (y : EReal) ≠ 0 := by exact_mod_cast hy.ne
    rw [Idealize.ShloMosaic.Ideal.pow_top, if_neg h1, if_neg h2, EReal.coe_zero]

end Cert.Spec

end
-- ==== Proof.KI.Value0.lean ====
import proofs.«401525_j2345052144079_3_alg».proof.Proof.KI.Region0
import proofs.«401525_j2345052144079_3_alg».proof.Proof.KI.Pay0
import proofs.«401525_j2345052144079_3_alg».proof.Proof.Spec
import Idealize.ShloMosaic.Lib.ValueIdx
import Idealize.ShloMosaic.Lib.Pipeline.Value

/-! What the first layer's region leaves in its output array, entry by entry over the extended reals: row `r`
lies in row block `r / 2048`, whose three grid points accumulate the three column tiles of the adjacency row
against the activation's column, and whose last point stores the accumulator scaled by the row's factor and
clamped below at zero. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The region's three input arrays and its output array after the run, at their literal types. -/
abbrev Aarr (c : Dev nD) : S12288x12288.Idx → EReal := V c main_v26
abbrev Xarr (c : Dev nD) : S12288x32.Idx → EReal := V c main_v38
abbrev Darr (c : Dev nD) : S12288x1.Idx → EReal := V c main_v31
abbrev Oarr (c : Dev nD) : S12288x32.Idx → EReal := (dat0 (F := Ideal) V c).arrAt 3 cfg0.N

/-! ## Where the blocks sit -/

/-- Grid point `t` is row block `t / 3`, column tile `t % 3`: the adjacency window moves with both, the
    activation window with the tile, the scale and output windows with the row block. -/
theorem blockIdx0 : ∀ t : Fin cfg0.N,
    win0_0.index t (0 : Fin 2) = t.val / 3 ∧ win0_0.index t (1 : Fin 2) = t.val % 3
  ∧ win0_1.index t (0 : Fin 2) = t.val % 3 ∧ win0_1.index t (1 : Fin 2) = 0
  ∧ win0_2.index t (0 : Fin 2) = t.val / 3 ∧ win0_2.index t (1 : Fin 2) = 0
  ∧ win0_3.index t (0 : Fin 2) = t.val / 3 ∧ win0_3.index t (1 : Fin 2) = 0 :=
  (by decide +kernel : ∀ t : Fin grid0.N, _)

/-- The adjacency tile at point `t` reads the matrix at row `2048 (t / 3) + p`, column `4096 (t % 3) + k`. -/
theorem ablk0_apply (c : Dev nD) (t : Fin cfg0.N) (p : Fin 2048) (k : Fin 4096) (r j : Fin 12288)
    (hr : r.val = 2048 * (t.val / 3) + p.val) (hj : j.val = 4096 * (t.val % 3) + k.val) :
    ablk0 V c t (ix2 p k) = Aarr V c (ix2 r j) := by
  obtain ⟨e0, e1, -⟩ := blockIdx0 t
  show V c main_v26 (((cfg0.win 0).blk t).view.emb (ix2 p k)) = V c main_v26 (ix2 r j)
  congr 1
  funext a; apply Fin.ext
  match a with
  | ⟨0, _⟩ => show win0_0.index t (0 : Fin 2) * 2048 + 1 * p.val = r.val; omega
  | ⟨1, _⟩ => show win0_0.index t (1 : Fin 2) * 4096 + 1 * k.val = j.val; omega

/-- The activation tile at point `t` reads the activation at row `4096 (t % 3) + k`, the same column. -/
theorem xblk0_apply (c : Dev nD) (t : Fin cfg0.N) (k : Fin 4096) (q : Fin 32) (j : Fin 12288)
    (hj : j.val = 4096 * (t.val % 3) + k.val) :
    xblk0 V c t (ix2 k q) = Xarr V c (ix2 j q) := by
  obtain ⟨-, -, e2, e3, -⟩ := blockIdx0 t
  show V c main_v38 (((cfg0.win 1).blk t).view.emb (ix2 k q)) = V c main_v38 (ix2 j q)
  congr 1
  funext a; apply Fin.ext
  match a with
  | ⟨0, _⟩ => show win0_1.index t (0 : Fin 2) * 4096 + 1 * k.val = j.val; omega
  | ⟨1, _⟩ => show win0_1.index t (1 : Fin 2) * 32 + 1 * q.val = q.val; omega

/-- The scale block at point `t` reads the scale column at row `2048 (t / 3) + p`. -/
theorem dblk0_apply (c : Dev nD) (t : Fin cfg0.N) (p : Fin 2048) (r : Fin 12288)
    (hr : r.val = 2048 * (t.val / 3) + p.val) :
    dblk0 V c t (ix2 p 0) = Darr V c (ix2 r 0) := by
  obtain ⟨-, -, -, -, e4, e5, -⟩ := blockIdx0 t
  show V c main_v31 (((cfg0.win 2).blk t).view.emb (ix2 p 0)) = V c main_v31 (ix2 r 0)
  congr 1
  funext a; apply Fin.ext
  match a with
  | ⟨0, _⟩ => show win0_2.index t (0 : Fin 2) * 2048 + 1 * p.val = r.val; omega
  | ⟨1, _⟩ => show win0_2.index t (1 : Fin 2) * 1 + 1 * 0 = 0; omega

/-! ## One row block's three points, entry by entry -/

/-- Three accumulation steps from the cleared accumulator, then the scaled and clamped store, at an entry. -/
theorem stored_apply0 (d : Vec Ideal S2048x1 .f32) (a0 a1 a2 : Vec Ideal S2048x4096 .bf16)
    (x0 x1 x2 : Vec Ideal S4096x32 .bf16) (p : Fin 2048) (q : Fin 32) :
    k0_pay3 d (k0_pay2 (k0_pay2 (k0_pay2 k0_pay1 a0 x0) a1 x1) a2 x2) (ix2 p q)
      = max (d (ix2 p 0) * (((0 + ∑ k : Fin 4096, a0 (ix2 p k) * x0 (ix2 k q))
          + ∑ k : Fin 4096, a1 (ix2 p k) * x1 (ix2 k q)) + ∑ k : Fin 4096, a2 (ix2 p k) * x2 (ix2 k q))) 0 := by
  rw [pay3_apply0, pay2_apply0, pay2_apply0, pay2_apply0, pay1_apply0]

/-- The accumulator in the natural-number form of its two recursion equations. -/
theorem acc0_first_nat (c : Dev nD) (n : ℕ) (h : n < cfg0.N) (h0 : n % 3 = 0) :
    acc0 V c n h = k0_pay2 k0_pay1 (ablk0 V c ⟨n, h⟩) (xblk0 V c ⟨n, h⟩) :=
  acc0_first V c ⟨n, h⟩ h0

theorem acc0_later_nat (c : Dev nD) (n : ℕ) (h : n + 1 < cfg0.N) (h0 : ¬(n + 1) % 3 = 0) :
    acc0 V c (n + 1) h = k0_pay2 (acc0 V c n (Nat.lt_of_succ_lt h)) (ablk0 V c ⟨n + 1, h⟩) (xblk0 V c ⟨n + 1, h⟩) :=
  acc0_later V c ⟨n + 1, h⟩ h0

/-- After the last column tile of a row block the accumulator holds the three tiles' steps from the cleared value. -/
theorem acc0_rowblock (c : Dev nD) (n : ℕ) (h : n + 2 < cfg0.N) (h0 : n % 3 = 0) :
    acc0 V c (n + 2) h
      = k0_pay2 (k0_pay2 (k0_pay2 k0_pay1 (ablk0 V c ⟨n, by omega⟩) (xblk0 V c ⟨n, by omega⟩))
            (ablk0 V c ⟨n + 1, by omega⟩) (xblk0 V c ⟨n + 1, by omega⟩))
          (ablk0 V c ⟨n + 2, h⟩) (xblk0 V c ⟨n + 2, h⟩) := by
  rw [acc0_later_nat V c (n + 1) h (by omega), acc0_later_nat V c n (by omega) (by omega),
    acc0_first_nat V c n (by omega) h0]

/-- One tile's row-by-column product, read off the arrays: the tile's share of the row's contraction. -/
theorem tile_sum0 (c : Dev nD) (t : Fin cfg0.N) (b : Fin 3) (hb : t.val % 3 = b.val) (p : Fin 2048) (q : Fin 32)
    (r : Fin 12288) (hr : r.val = 2048 * (t.val / 3) + p.val) :
    ∑ k : Fin 4096, ablk0 V c t (ix2 p k) * xblk0 V c t (ix2 k q)
      = Cert.Spec.tileSum (fun j => Aarr V c (ix2 r j) * Xarr V c (ix2 j q)) b := by
  unfold Cert.Spec.tileSum
  refine Finset.sum_congr rfl fun k _ => ?_
  rw [ablk0_apply V c t p k r (Cert.Spec.tile b k) hr (by show 4096 * b.val + k.val = _; rw [hb]),
    xblk0_apply V c t k q (Cert.Spec.tile b k) (by show 4096 * b.val + k.val = _; rw [hb])]

/-- What the last point of a row block stores, at an entry: the row's scale times the tiled contraction of the
    adjacency row against the activation column, clamped below at zero. -/
theorem out0_apply (c : Dev nD) (t : Fin cfg0.N) (h2 : t.val % 3 = 2) (p : Fin 2048) (q : Fin 32) (r : Fin 12288)
    (hr : r.val = 2048 * (t.val / 3) + p.val) :
    out0 V c t (ix2 p q)
      = max (Darr V c (ix2 r 0) * Cert.Spec.accum (fun j => Aarr V c (ix2 r j) * Xarr V c (ix2 j q))) 0 := by
  obtain ⟨n, hn⟩ := t
  have hN : n < 18 := lt_of_lt_of_eq hn N_0
  have h2' : n % 3 = 2 := h2
  have hr' : r.val = 2048 * (n / 3) + p.val := hr
  obtain ⟨m, rfl⟩ : ∃ m, n = m + 2 := ⟨n - 2, by omega⟩
  unfold out0
  show k0_pay3 (dblk0 V c ⟨m + 2, hn⟩) (acc0 V c (m + 2) hn) (ix2 p q) = _
  rw [acc0_rowblock V c m hn (by omega), stored_apply0, dblk0_apply V c ⟨m + 2, hn⟩ p r hr',
    tile_sum0 V c ⟨m, by omega⟩ 0 (by show m % 3 = 0; omega) p q r (by show r.val = 2048 * (m / 3) + p.val; omega),
    tile_sum0 V c ⟨m + 1, by omega⟩ 1 (by show (m + 1) % 3 = 1; omega) p q r (by show r.val = 2048 * ((m + 1) / 3) + p.val; omega),
    tile_sum0 V c ⟨m + 2, hn⟩ 2 (by show (m + 2) % 3 = 2; omega) p q r hr']
  rfl

/-! ## From the row blocks to the array -/

/-- The output window is written back exactly at the last column tile of each row block. -/
theorem flushes0 : ∀ t : Fin cfg0.N, (cfg0.win 3).flush t = true ↔ t.val % 3 = 2 :=
  (by decide +kernel : ∀ t : Fin grid0.N, win0_3.flush t = true ↔ t.val % 3 = 2)

/-- The output array's entries as one function of the three input arrays. -/
def layer0 (c : Dev nD) : S12288x32.Idx → EReal := fun i =>
  max (Darr V c (ix2 (i 0) 0) * Cert.Spec.accum (fun j => Aarr V c (ix2 (i 0) j) * Xarr V c (ix2 j (i 1)))) 0

/-- What a row block's last point writes back is that row block of `layer0`. -/
theorem flushed_eq0 (c : Dev nD) (t : Fin cfg0.N) (h2 : t.val % 3 = 2) :
    (dat0 (F := Ideal) V c).flushed 3 t = ((cfg0.win 3).blk t).view.read (Elt Ideal) (layer0 V c) := by
  show (cfg0.win 3).cut (grid0.coords t) ((dat0 (F := Ideal) V c).after 3 t) = _
  rw [after0_3]
  funext j
  have hp : (j 0).val < 2048 := (j 0).isLt
  have hq : (j 1).val < 32 := (j 1).isLt
  obtain ⟨-, -, -, -, -, -, e6, e7⟩ := blockIdx0 t
  -- the entry's place in the block, by coordinates
  have hx : (cfg0.win 3).xinj (grid0.coords t) j = ix2 (⟨(j 0).val, hp⟩ : Fin 2048) (⟨(j 1).val, hq⟩ : Fin 32) := by
    funext a; match a with | ⟨0, _⟩ => rfl | ⟨1, _⟩ => rfl
  -- and in the array: row `2048 (t / 3) +` its row in the block, the same column
  have hr : ((((cfg0.win 3).blk t).view.emb j) 0).val = 2048 * (t.val / 3) + (j 0).val := by
    show win0_3.index t (0 : Fin 2) * 2048 + 1 * (j 0).val = _; omega
  have hc : (((cfg0.win 3).blk t).view.emb j) 1 = (⟨(j 1).val, hq⟩ : Fin 32) :=
    Fin.ext (by show win0_3.index t (1 : Fin 2) * 32 + 1 * (j 1).val = (j 1).val; omega)
  show out0 V c t ((cfg0.win 3).xinj (grid0.coords t) j) = layer0 V c (((cfg0.win 3).blk t).view.emb j)
  rw [hx, out0_apply V c t h2 ⟨(j 0).val, hp⟩ ⟨(j 1).val, hq⟩ ((((cfg0.win 3).blk t).view.emb j) 0) hr]
  unfold layer0
  rw [hc]

/-- Every row lies in the row block of some point that writes back: row `r` in that of point `3 (r / 2048) + 2`. -/
theorem cover0 (i : S12288x32.Idx) :
    ∃ t : Fin cfg0.N, (cfg0.win 3).flush t = true ∧ i ∈ ((cfg0.win 3).blk t).view.set := by
  have hi0 : (i 0).val < 12288 := (i 0).isLt
  have hi1 : (i 1).val < 32 := (i 1).isLt
  have hN : cfg0.N = 18 := N_0
  have hlt : 3 * ((i 0).val / 2048) + 2 < cfg0.N := by omega
  refine ⟨⟨3 * ((i 0).val / 2048) + 2, hlt⟩, (flushes0 _).mpr (by show (3 * ((i 0).val / 2048) + 2) % 3 = 2; omega), ?_⟩
  obtain ⟨-, -, -, -, -, -, e6, e7⟩ := blockIdx0 ⟨3 * ((i 0).val / 2048) + 2, hlt⟩
  have e6' : win0_3.index ⟨3 * ((i 0).val / 2048) + 2, hlt⟩ (0 : Fin 2) = (3 * ((i 0).val / 2048) + 2) / 3 := e6
  show i ∈ ((View.whole main_v39).slice (win0_3.rect ⟨3 * ((i 0).val / 2048) + 2, hlt⟩)).set
  rw [View.set_slice_whole, Rect.mem_set_unit]
  intro a
  match a with
  | ⟨0, _⟩ =>
    show win0_3.index ⟨3 * ((i 0).val / 2048) + 2, hlt⟩ (0 : Fin 2) * 2048 ≤ (i 0).val
      ∧ (i 0).val < win0_3.index ⟨3 * ((i 0).val / 2048) + 2, hlt⟩ (0 : Fin 2) * 2048 + 2048
    omega
  | ⟨1, _⟩ =>
    show win0_3.index ⟨3 * ((i 0).val / 2048) + 2, hlt⟩ (1 : Fin 2) * 32 ≤ (i 1).val
      ∧ (i 1).val < win0_3.index ⟨3 * ((i 0).val / 2048) + 2, hlt⟩ (1 : Fin 2) * 32 + 32
    omega

/-- The output array after the run is `layer0` of the input arrays. -/
theorem arr_final0 (c : Dev nD) : Oarr V c = layer0 V c :=
  (dat0 (F := Ideal) V c).arrAt_eq_of_cover 3 (layer0 V c)
    (fun t hf => flushed_eq0 V c t ((flushes0 t).mp hf)) cover0

/-- Entry `(r, q)` of the region's output array after the run. -/
theorem final0 (c : Dev nD) (r : Fin 12288) (q : Fin 32) :
    Oarr V c (ix2 r q)
      = max (Darr V c (ix2 r 0) * Cert.Spec.accum (fun j => Aarr V c (ix2 r j) * Xarr V c (ix2 j q))) 0 := by
  rw [arr_final0]
  rfl

end Cert.KernelIdeal.Hand

end
-- ==== Proof.KI.Pay1.lean ====
import proofs.«401525_j2345052144079_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

/-! The three values the first layer's kernel body stores, read entry by entry over the extended reals:
the cleared accumulator is zero everywhere; an accumulation step adds, to what the accumulator held, the
product of the adjacency tile's row with the activation tile's column; the stored block is the accumulator
scaled by its row's factor and clamped below at zero. -/

set_option maxRecDepth 16384

noncomputable section

namespace Cert.KernelIdeal.HandB

open Cert.KernelIdeal Cert.KernelIdeal.Gen
open Idealize.ShloMosaic Idealize.ShloMosaic.ValueIdx

/-! ## A column broadcast over the lanes -/

/-- An `[a, 1]` array broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The tile product's operand indices

The contraction runs over the left operand's second axis and the right operand's first; the left operand keeps
the output's row, the right operand keeps the output's column. -/

theorem lhs_pay2_0 (i : S2048x32.Idx) (q : dot_S2048x4096_S4096x32_S2048x32_1_0_0_1_n_n.contr.Idx) :
    (dot_S2048x4096_S4096x32_S2048x32_1_0_0_1_n_n.lhsIdx i q 0).val = (i 0).val := by
  unfold DotDims.lhsIdx
  rw [dif_neg (show ¬(0 : Fin S2048x4096.rank) ∈ dot_S2048x4096_S4096x32_S2048x32_1_0_0_1_n_n.lhsBatch by decide), dif_pos (show (0 : Fin S2048x4096.rank) ∈ dot_S2048x4096_S4096x32_S2048x32_1_0_0_1_n_n.lhsNonContracting by decide)]
  rfl
theorem lhs_pay2_1 (i : S2048x32.Idx) (q : dot_S2048x4096_S4096x32_S2048x32_1_0_0_1_n_n.contr.Idx) :
    (dot_S2048x4096_S4096x32_S2048x32_1_0_0_1_n_n.lhsIdx i q 1).val = (q ⟨0, by decide⟩).val :=
  dot_S2048x4096_S4096x32_S2048x32_1_0_0_1_n_n.lhsIdx_val_of_single rfl i q
theorem rhs_pay2_0 (i : S2048x32.Idx) (q : dot_S2048x4096_S4096x32_S2048x32_1_0_0_1_n_n.contr.Idx) :
    (dot_S2048x4096_S4096x32_S2048x32_1_0_0_1_n_n.rhsIdx i q 0).val = (q ⟨0, by decide⟩).val :=
  dot_S2048x4096_S4096x32_S2048x32_1_0_0_1_n_n.rhsIdx_val_of_single rfl i q
theorem rhs_pay2_1 (i : S2048x32.Idx) (q : dot_S2048x4096_S4096x32_S2048x32_1_0_0_1_n_n.contr.Idx) :
    (dot_S2048x4096_S4096x32_S2048x32_1_0_0_1_n_n.rhsIdx i q 1).val = (i 1).val := by
  unfold DotDims.rhsIdx
  rw [dif_neg (show ¬(1 : Fin S4096x32.rank) ∈ dot_S2048x4096_S4096x32_S2048x32_1_0_0_1_n_n.rhsBatch by decide), dif_pos (show (1 : Fin S4096x32.rank) ∈ dot_S2048x4096_S4096x32_S2048x32_1_0_0_1_n_n.rhsNonContracting by decide)]
  rfl

/-- The tile product into a zero accumulator, at an entry: the sum over the contraction coordinate of the row's
entry times the column's entry. -/
theorem matmul_zero_apply0 (a : FVec Ideal S2048x4096 .bf16) (x : FVec Ideal S4096x32 .bf16) (p : Fin 2048) (q : Fin 32) :
    matmul dot_S2048x4096_S4096x32_S2048x32_1_0_0_1_n_n none a x (constant (F := Ideal) S2048x32 .f32 0x00000000#32) (ix2 p q)
      = ∑ k : Fin 4096, a (ix2 p k) * x (ix2 k q) := by
  simp only [matmul]
  rw [Ideal.matmul_constant_zero_apply, ← Equiv.sum_comp (contrEquiv1 dot_S2048x4096_S4096x32_S2048x32_1_0_0_1_n_n 4096 rfl rfl).symm]
  refine Finset.sum_congr rfl fun k _ => ?_
  have hk := contrEquiv1_symm_val dot_S2048x4096_S4096x32_S2048x32_1_0_0_1_n_n 4096 rfl rfl k
  have el : dot_S2048x4096_S4096x32_S2048x32_1_0_0_1_n_n.lhsIdx (ix2 p q) ((contrEquiv1 dot_S2048x4096_S4096x32_S2048x32_1_0_0_1_n_n 4096 rfl rfl).symm k) = ix2 p k := funext fun ax => Fin.ext (by
    match ax with
    | ⟨0, _⟩ => exact lhs_pay2_0 _ _
    | ⟨1, _⟩ => exact (lhs_pay2_1 _ _).trans hk)
  have er : dot_S2048x4096_S4096x32_S2048x32_1_0_0_1_n_n.rhsIdx (ix2 p q) ((contrEquiv1 dot_S2048x4096_S4096x32_S2048x32_1_0_0_1_n_n 4096 rfl rfl).symm k) = ix2 k q := funext fun ax => Fin.ext (by
    match ax with
    | ⟨0, _⟩ => exact (rhs_pay2_0 _ _).trans hk
    | ⟨1, _⟩ => exact rhs_pay2_1 _ _)
  rw [el, er]

/-! ## The three stored values -/

/-- The cleared accumulator is zero at every entry. -/
theorem pay1_apply0 (p : Fin 2048) (q : Fin 32) : (k1_pay1 (F := Ideal)) (ix2 p q) = 0 := by
  unfold k1_pay1
  show shapeCast S2048x32 (broadcast S2048x32 (Scalar.ofBits (F := Ideal) .f32 0x00000000#32)) shapeCasts_S2048x32_S2048x32 (ix2 p q) = 0
  rw [shapeCast_self]
  exact Ideal.ofBits_zero_f32

/-- One accumulation step at an entry: what was there plus the tile's row-by-column product. -/
theorem pay2_apply0 (v3 : Vec Ideal S2048x32 .f32) (a : Vec Ideal S2048x4096 .bf16) (x : Vec Ideal S4096x32 .bf16)
    (p : Fin 2048) (q : Fin 32) :
    k1_pay2 v3 a x (ix2 p q) = v3 (ix2 p q) + ∑ k : Fin 4096, a (ix2 p k) * x (ix2 k q) := by
  unfold k1_pay2
  show shapeCast S2048x32 (addf v3 (matmul dot_S2048x4096_S4096x32_S2048x32_1_0_0_1_n_n none
      (shapeCast S2048x4096 a shapeCasts_S2048x4096_S2048x4096) (shapeCast S4096x32 x shapeCasts_S4096x32_S4096x32)
      (constant (F := Ideal) S2048x32 .f32 0x00000000#32))) shapeCasts_S2048x32_S2048x32 (ix2 p q) = _
  rw [shapeCast_self, shapeCast_self, shapeCast_self]
  exact congrArg (v3 (ix2 p q) + ·) (matmul_zero_apply0 a x p q)

/-- The stored block at an entry: the accumulator scaled by its row's factor, clamped below at zero. -/
theorem pay3_apply0 (d : Vec Ideal S2048x1 .f32) (s : Vec Ideal S2048x32 .f32) (p : Fin 2048) (q : Fin 32) :
    k1_pay3 d s (ix2 p q) = max (d (ix2 p 0) * s (ix2 p q)) 0 := by
  unfold k1_pay3
  show max (broadcastTo S2048x32 (shapeCast S2048x1 d shapeCasts_S2048x1_S2048x1) broadcasts_S2048x1_S2048x32 (ix2 p q) * s (ix2 p q))
      (Ideal.ofBits .f32 0x00000000#32) = _
  rw [shapeCast_self, broadcastTo_a1_ab_apply, Ideal.ofBits_zero_f32]

end Cert.KernelIdeal.HandB

end
-- ==== Proof.KI.Value1.lean ====
import proofs.«401525_j2345052144079_3_alg».proof.Proof.KI.Region1
import proofs.«401525_j2345052144079_3_alg».proof.Proof.KI.Pay1
import proofs.«401525_j2345052144079_3_alg».proof.Proof.Spec
import Idealize.ShloMosaic.Lib.ValueIdx
import Idealize.ShloMosaic.Lib.Pipeline.Value

/-! What the first layer's region leaves in its output array, entry by entry over the extended reals: row `r`
lies in row block `r / 2048`, whose three grid points accumulate the three column tiles of the adjacency row
against the activation's column, and whose last point stores the accumulator scaled by the row's factor and
clamped below at zero. -/

set_option maxRecDepth 16384

noncomputable section

namespace Cert.KernelIdeal.HandB

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The region's three input arrays and its output array after the run, at their literal types. -/
abbrev Aarr (c : Dev nD) : S12288x12288.Idx → EReal := V c main_v26
abbrev Xarr (c : Dev nD) : S12288x32.Idx → EReal := V c main_v46
abbrev Darr (c : Dev nD) : S12288x1.Idx → EReal := V c main_v31
abbrev Oarr (c : Dev nD) : S12288x32.Idx → EReal := (dat0 (F := Ideal) V c).arrAt 3 cfg1.N

/-! ## Where the blocks sit -/

/-- Grid point `t` is row block `t / 3`, column tile `t % 3`: the adjacency window moves with both, the
    activation window with the tile, the scale and output windows with the row block. -/
theorem blockIdx0 : ∀ t : Fin cfg1.N,
    win1_0.index t (0 : Fin 2) = t.val / 3 ∧ win1_0.index t (1 : Fin 2) = t.val % 3
  ∧ win1_1.index t (0 : Fin 2) = t.val % 3 ∧ win1_1.index t (1 : Fin 2) = 0
  ∧ win1_2.index t (0 : Fin 2) = t.val / 3 ∧ win1_2.index t (1 : Fin 2) = 0
  ∧ win1_3.index t (0 : Fin 2) = t.val / 3 ∧ win1_3.index t (1 : Fin 2) = 0 :=
  (by decide +kernel : ∀ t : Fin grid1.N, _)

/-- The adjacency tile at point `t` reads the matrix at row `2048 (t / 3) + p`, column `4096 (t % 3) + k`. -/
theorem ablk0_apply (c : Dev nD) (t : Fin cfg1.N) (p : Fin 2048) (k : Fin 4096) (r j : Fin 12288)
    (hr : r.val = 2048 * (t.val / 3) + p.val) (hj : j.val = 4096 * (t.val % 3) + k.val) :
    ablk0 V c t (ix2 p k) = Aarr V c (ix2 r j) := by
  obtain ⟨e0, e1, -⟩ := blockIdx0 t
  show V c main_v26 (((cfg1.win 0).blk t).view.emb (ix2 p k)) = V c main_v26 (ix2 r j)
  congr 1
  funext a; apply Fin.ext
  match a with
  | ⟨0, _⟩ => show win1_0.index t (0 : Fin 2) * 2048 + 1 * p.val = r.val; omega
  | ⟨1, _⟩ => show win1_0.index t (1 : Fin 2) * 4096 + 1 * k.val = j.val; omega

/-- The activation tile at point `t` reads the activation at row `4096 (t % 3) + k`, the same column. -/
theorem xblk0_apply (c : Dev nD) (t : Fin cfg1.N) (k : Fin 4096) (q : Fin 32) (j : Fin 12288)
    (hj : j.val = 4096 * (t.val % 3) + k.val) :
    xblk0 V c t (ix2 k q) = Xarr V c (ix2 j q) := by
  obtain ⟨-, -, e2, e3, -⟩ := blockIdx0 t
  show V c main_v46 (((cfg1.win 1).blk t).view.emb (ix2 k q)) = V c main_v46 (ix2 j q)
  congr 1
  funext a; apply Fin.ext
  match a with
  | ⟨0, _⟩ => show win1_1.index t (0 : Fin 2) * 4096 + 1 * k.val = j.val; omega
  | ⟨1, _⟩ => show win1_1.index t (1 : Fin 2) * 32 + 1 * q.val = q.val; omega

/-- The scale block at point `t` reads the scale column at row `2048 (t / 3) + p`. -/
theorem dblk0_apply (c : Dev nD) (t : Fin cfg1.N) (p : Fin 2048) (r : Fin 12288)
    (hr : r.val = 2048 * (t.val / 3) + p.val) :
    dblk0 V c t (ix2 p 0) = Darr V c (ix2 r 0) := by
  obtain ⟨-, -, -, -, e4, e5, -⟩ := blockIdx0 t
  show V c main_v31 (((cfg1.win 2).blk t).view.emb (ix2 p 0)) = V c main_v31 (ix2 r 0)
  congr 1
  funext a; apply Fin.ext
  match a with
  | ⟨0, _⟩ => show win1_2.index t (0 : Fin 2) * 2048 + 1 * p.val = r.val; omega
  | ⟨1, _⟩ => show win1_2.index t (1 : Fin 2) * 1 + 1 * 0 = 0; omega

/-! ## One row block's three points, entry by entry -/

/-- Three accumulation steps from the cleared accumulator, then the scaled and clamped store, at an entry. -/
theorem stored_apply0 (d : Vec Ideal S2048x1 .f32) (a0 a1 a2 : Vec Ideal S2048x4096 .bf16)
    (x0 x1 x2 : Vec Ideal S4096x32 .bf16) (p : Fin 2048) (q : Fin 32) :
    k1_pay3 d (k1_pay2 (k1_pay2 (k1_pay2 k1_pay1 a0 x0) a1 x1) a2 x2) (ix2 p q)
      = max (d (ix2 p 0) * (((0 + ∑ k : Fin 4096, a0 (ix2 p k) * x0 (ix2 k q))
          + ∑ k : Fin 4096, a1 (ix2 p k) * x1 (ix2 k q)) + ∑ k : Fin 4096, a2 (ix2 p k) * x2 (ix2 k q))) 0 := by
  rw [pay3_apply0, pay2_apply0, pay2_apply0, pay2_apply0, pay1_apply0]

/-- The accumulator in the natural-number form of its two recursion equations. -/
theorem acc1_first_nat (c : Dev nD) (n : ℕ) (h : n < cfg1.N) (h0 : n % 3 = 0) :
    acc0 V c n h = k1_pay2 k1_pay1 (ablk0 V c ⟨n, h⟩) (xblk0 V c ⟨n, h⟩) :=
  acc1_first V c ⟨n, h⟩ h0

theorem acc1_later_nat (c : Dev nD) (n : ℕ) (h : n + 1 < cfg1.N) (h0 : ¬(n + 1) % 3 = 0) :
    acc0 V c (n + 1) h = k1_pay2 (acc0 V c n (Nat.lt_of_succ_lt h)) (ablk0 V c ⟨n + 1, h⟩) (xblk0 V c ⟨n + 1, h⟩) :=
  acc1_later V c ⟨n + 1, h⟩ h0

/-- After the last column tile of a row block the accumulator holds the three tiles' steps from the cleared value. -/
theorem acc1_rowblock (c : Dev nD) (n : ℕ) (h : n + 2 < cfg1.N) (h0 : n % 3 = 0) :
    acc0 V c (n + 2) h
      = k1_pay2 (k1_pay2 (k1_pay2 k1_pay1 (ablk0 V c ⟨n, by omega⟩) (xblk0 V c ⟨n, by omega⟩))
            (ablk0 V c ⟨n + 1, by omega⟩) (xblk0 V c ⟨n + 1, by omega⟩))
          (ablk0 V c ⟨n + 2, h⟩) (xblk0 V c ⟨n + 2, h⟩) := by
  rw [acc1_later_nat V c (n + 1) h (by omega), acc1_later_nat V c n (by omega) (by omega),
    acc1_first_nat V c n (by omega) h0]

/-- One tile's row-by-column product, read off the arrays: the tile's share of the row's contraction. -/
theorem tile_sum0 (c : Dev nD) (t : Fin cfg1.N) (b : Fin 3) (hb : t.val % 3 = b.val) (p : Fin 2048) (q : Fin 32)
    (r : Fin 12288) (hr : r.val = 2048 * (t.val / 3) + p.val) :
    ∑ k : Fin 4096, ablk0 V c t (ix2 p k) * xblk0 V c t (ix2 k q)
      = Cert.Spec.tileSum (fun j => Aarr V c (ix2 r j) * Xarr V c (ix2 j q)) b := by
  unfold Cert.Spec.tileSum
  refine Finset.sum_congr rfl fun k _ => ?_
  rw [ablk0_apply V c t p k r (Cert.Spec.tile b k) hr (by show 4096 * b.val + k.val = _; rw [hb]),
    xblk0_apply V c t k q (Cert.Spec.tile b k) (by show 4096 * b.val + k.val = _; rw [hb])]

/-- What the last point of a row block stores, at an entry: the row's scale times the tiled contraction of the
    adjacency row against the activation column, clamped below at zero. -/
theorem out0_apply (c : Dev nD) (t : Fin cfg1.N) (h2 : t.val % 3 = 2) (p : Fin 2048) (q : Fin 32) (r : Fin 12288)
    (hr : r.val = 2048 * (t.val / 3) + p.val) :
    out0 V c t (ix2 p q)
      = max (Darr V c (ix2 r 0) * Cert.Spec.accum (fun j => Aarr V c (ix2 r j) * Xarr V c (ix2 j q))) 0 := by
  obtain ⟨n, hn⟩ := t
  have hN : n < 18 := lt_of_lt_of_eq hn N_1
  have h2' : n % 3 = 2 := h2
  have hr' : r.val = 2048 * (n / 3) + p.val := hr
  obtain ⟨m, rfl⟩ : ∃ m, n = m + 2 := ⟨n - 2, by omega⟩
  unfold out0
  show k1_pay3 (dblk0 V c ⟨m + 2, hn⟩) (acc0 V c (m + 2) hn) (ix2 p q) = _
  rw [acc1_rowblock V c m hn (by omega), stored_apply0, dblk0_apply V c ⟨m + 2, hn⟩ p r hr',
    tile_sum0 V c ⟨m, by omega⟩ 0 (by show m % 3 = 0; omega) p q r (by show r.val = 2048 * (m / 3) + p.val; omega),
    tile_sum0 V c ⟨m + 1, by omega⟩ 1 (by show (m + 1) % 3 = 1; omega) p q r (by show r.val = 2048 * ((m + 1) / 3) + p.val; omega),
    tile_sum0 V c ⟨m + 2, hn⟩ 2 (by show (m + 2) % 3 = 2; omega) p q r hr']
  rfl

/-! ## From the row blocks to the array -/

/-- The output window is written back exactly at the last column tile of each row block. -/
theorem flushes0 : ∀ t : Fin cfg1.N, (cfg1.win 3).flush t = true ↔ t.val % 3 = 2 :=
  (by decide +kernel : ∀ t : Fin grid1.N, win1_3.flush t = true ↔ t.val % 3 = 2)

/-- The output array's entries as one function of the three input arrays. -/
def layer0 (c : Dev nD) : S12288x32.Idx → EReal := fun i =>
  max (Darr V c (ix2 (i 0) 0) * Cert.Spec.accum (fun j => Aarr V c (ix2 (i 0) j) * Xarr V c (ix2 j (i 1)))) 0

/-- What a row block's last point writes back is that row block of `layer0`. -/
theorem flushed_eq0 (c : Dev nD) (t : Fin cfg1.N) (h2 : t.val % 3 = 2) :
    (dat0 (F := Ideal) V c).flushed 3 t = ((cfg1.win 3).blk t).view.read (Elt Ideal) (layer0 V c) := by
  show (cfg1.win 3).cut (grid1.coords t) ((dat0 (F := Ideal) V c).after 3 t) = _
  rw [after0_3]
  funext j
  have hp : (j 0).val < 2048 := (j 0).isLt
  have hq : (j 1).val < 32 := (j 1).isLt
  obtain ⟨-, -, -, -, -, -, e6, e7⟩ := blockIdx0 t
  -- the entry's place in the block, by coordinates
  have hx : (cfg1.win 3).xinj (grid1.coords t) j = ix2 (⟨(j 0).val, hp⟩ : Fin 2048) (⟨(j 1).val, hq⟩ : Fin 32) := by
    funext a; match a with | ⟨0, _⟩ => rfl | ⟨1, _⟩ => rfl
  -- and in the array: row `2048 (t / 3) +` its row in the block, the same column
  have hr : ((((cfg1.win 3).blk t).view.emb j) 0).val = 2048 * (t.val / 3) + (j 0).val := by
    show win1_3.index t (0 : Fin 2) * 2048 + 1 * (j 0).val = _; omega
  have hc : (((cfg1.win 3).blk t).view.emb j) 1 = (⟨(j 1).val, hq⟩ : Fin 32) :=
    Fin.ext (by show win1_3.index t (1 : Fin 2) * 32 + 1 * (j 1).val = (j 1).val; omega)
  show out0 V c t ((cfg1.win 3).xinj (grid1.coords t) j) = layer0 V c (((cfg1.win 3).blk t).view.emb j)
  rw [hx, out0_apply V c t h2 ⟨(j 0).val, hp⟩ ⟨(j 1).val, hq⟩ ((((cfg1.win 3).blk t).view.emb j) 0) hr]
  unfold layer0
  rw [hc]

/-- Every row lies in the row block of some point that writes back: row `r` in that of point `3 (r / 2048) + 2`. -/
theorem cover0 (i : S12288x32.Idx) :
    ∃ t : Fin cfg1.N, (cfg1.win 3).flush t = true ∧ i ∈ ((cfg1.win 3).blk t).view.set := by
  have hi0 : (i 0).val < 12288 := (i 0).isLt
  have hi1 : (i 1).val < 32 := (i 1).isLt
  have hN : cfg1.N = 18 := N_1
  have hlt : 3 * ((i 0).val / 2048) + 2 < cfg1.N := by omega
  refine ⟨⟨3 * ((i 0).val / 2048) + 2, hlt⟩, (flushes0 _).mpr (by show (3 * ((i 0).val / 2048) + 2) % 3 = 2; omega), ?_⟩
  obtain ⟨-, -, -, -, -, -, e6, e7⟩ := blockIdx0 ⟨3 * ((i 0).val / 2048) + 2, hlt⟩
  have e6' : win1_3.index ⟨3 * ((i 0).val / 2048) + 2, hlt⟩ (0 : Fin 2) = (3 * ((i 0).val / 2048) + 2) / 3 := e6
  show i ∈ ((View.whole main_v47).slice (win1_3.rect ⟨3 * ((i 0).val / 2048) + 2, hlt⟩)).set
  rw [View.set_slice_whole, Rect.mem_set_unit]
  intro a
  match a with
  | ⟨0, _⟩ =>
    show win1_3.index ⟨3 * ((i 0).val / 2048) + 2, hlt⟩ (0 : Fin 2) * 2048 ≤ (i 0).val
      ∧ (i 0).val < win1_3.index ⟨3 * ((i 0).val / 2048) + 2, hlt⟩ (0 : Fin 2) * 2048 + 2048
    omega
  | ⟨1, _⟩ =>
    show win1_3.index ⟨3 * ((i 0).val / 2048) + 2, hlt⟩ (1 : Fin 2) * 32 ≤ (i 1).val
      ∧ (i 1).val < win1_3.index ⟨3 * ((i 0).val / 2048) + 2, hlt⟩ (1 : Fin 2) * 32 + 32
    omega

/-- The output array after the run is `layer0` of the input arrays. -/
theorem arr_final0 (c : Dev nD) : Oarr V c = layer0 V c :=
  (dat0 (F := Ideal) V c).arrAt_eq_of_cover 3 (layer0 V c)
    (fun t hf => flushed_eq0 V c t ((flushes0 t).mp hf)) cover0

/-- Entry `(r, q)` of the region's output array after the run. -/
theorem final0 (c : Dev nD) (r : Fin 12288) (q : Fin 32) :
    Oarr V c (ix2 r q)
      = max (Darr V c (ix2 r 0) * Cert.Spec.accum (fun j => Aarr V c (ix2 r j) * Xarr V c (ix2 j q))) 0 := by
  rw [arr_final0]
  rfl

end Cert.KernelIdeal.HandB

end
-- ==== Proof.Common.lean ====
import proofs.«401525_j2345052144079_3_alg».proof.Proof.Gen.ReferenceIdeal.Read
import proofs.«401525_j2345052144079_3_alg».proof.Proof.Spec
import Idealize.ShloMosaic.Lib.ValueIdx

/-! The quantities both programs compute from the arguments before their layers diverge, named once, as
functions of the raw argument arrays over the extended reals: the dense 0/1 adjacency matrix scattered from the
edge list, the per-row scale (row degree to the power −1/2), and the first layer's pre-activation (the gathered
embeddings times the first weight matrix plus its bias).  They are spelt through the reference program's stages,
which the other program's host operations repeat. -/

noncomputable section

namespace Cert.Common

open Cert.ReferenceIdeal Idealize.ShloMosaic Idealize.ShloMosaic.ValueIdx

/-- The adjacency matrix, entry `(i, j)`. -/
def Aof (x1 : (⟨S24575x2, .i32⟩ : BufTy).Contents (Elt Ideal)) : Fin 12288 → Fin 12288 → EReal :=
  fun i j => Cert.ReferenceIdeal.Read.val_main_v26 (F := Ideal) x1 (ix2 i j)

/-- The scale of row `i`. -/
def dof (x1 : (⟨S24575x2, .i32⟩ : BufTy).Contents (Elt Ideal)) : Fin 12288 → EReal :=
  fun i => Cert.ReferenceIdeal.Read.val_main_v29 (F := Ideal) x1 (ix1 i)

/-- The first layer's pre-activation, entry `(j, q)`. -/
def t1of (x0 : (⟨S12288, .i32⟩ : BufTy).Contents (Elt Ideal)) (x2 : (⟨S1000x256, .f32⟩ : BufTy).Contents (Elt Ideal))
    (x3 : (⟨S256x32, .f32⟩ : BufTy).Contents (Elt Ideal)) (x4 : (⟨S32, .f32⟩ : BufTy).Contents (Elt Ideal)) : Fin 12288 → Fin 32 → EReal :=
  fun j q => Cert.ReferenceIdeal.Read.val_main_v39 (F := Ideal) x0 x2 x3 x4 (ix2 j q)

/-- The second layer's pre-activation from the first layer's output `h`: `h` times the second weight matrix plus
    its bias. -/
def t2of (h : Fin 12288 → Fin 32 → EReal) (x5 : (⟨S32x32, .f32⟩ : BufTy).Contents (Elt Ideal))
    (x6 : (⟨S32, .f32⟩ : BufTy).Contents (Elt Ideal)) : Fin 12288 → Fin 32 → EReal :=
  fun j q => (∑ k : Fin 32, h j k * x5 (ix2 k q)) + x6 (ix1 q)

end Cert.Common

end
-- ==== Proof.KI.Args.lean ====
import proofs.«401525_j2345052144079_3_alg».proof.Proof.KI.Run
import proofs.«401525_j2345052144079_3_alg».proof.Proof.KI.Value0
import proofs.«401525_j2345052144079_3_alg».proof.Proof.KI.Value1
import proofs.«401525_j2345052144079_3_alg».proof.Proof.Common
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

/-! The launch contents of the seven arguments, at the types the shared quantities take. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Common

variable (m : (ℓ : Loc nD τ sig) → Buf (Elt Ideal) ℓ)

/-- The launch contents of the seven arguments on core `c`, at the types the shared quantities take. -/
abbrev a0 (c : Dev nD) : (⟨Cert.ReferenceIdeal.S12288, .i32⟩ : BufTy).Contents (Elt Ideal) := m ((c.tc : Thread nD τ).loc main_arg0)
abbrev a1 (c : Dev nD) : (⟨Cert.ReferenceIdeal.S24575x2, .i32⟩ : BufTy).Contents (Elt Ideal) := m ((c.tc : Thread nD τ).loc main_arg1)
abbrev a2 (c : Dev nD) : (⟨Cert.ReferenceIdeal.S1000x256, .f32⟩ : BufTy).Contents (Elt Ideal) := m ((c.tc : Thread nD τ).loc main_arg2)
abbrev a3 (c : Dev nD) : (⟨Cert.ReferenceIdeal.S256x32, .f32⟩ : BufTy).Contents (Elt Ideal) := m ((c.tc : Thread nD τ).loc main_arg3)
abbrev a4 (c : Dev nD) : (⟨Cert.ReferenceIdeal.S32, .f32⟩ : BufTy).Contents (Elt Ideal) := m ((c.tc : Thread nD τ).loc main_arg4)
abbrev a5 (c : Dev nD) : (⟨Cert.ReferenceIdeal.S32x32, .f32⟩ : BufTy).Contents (Elt Ideal) := m ((c.tc : Thread nD τ).loc main_arg5)
abbrev a6 (c : Dev nD) : (⟨Cert.ReferenceIdeal.S32, .f32⟩ : BufTy).Contents (Elt Ideal) := m ((c.tc : Thread nD τ).loc main_arg6)

end Cert.KernelIdeal.Hand

end
-- ==== Proof.KI.Host1.lean ====
import proofs.«401525_j2345052144079_3_alg».proof.Proof.KI.Args
import Idealize.ShloMosaic.Lib.IdealHost

/-! What the first region finds in its input arrays, over the extended reals: the host operations before it build
the adjacency matrix (a scatter of ones into zeros at the wrapped edge endpoints), the row scales (row degree to the
power −1/2, as a column) and the scaled first pre-activation (row scale times the gathered embeddings' product with
the first weight matrix plus its bias) — the quantities the other program computes too. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Common

variable (m : (ℓ : Loc nD τ sig) → Buf (Elt Ideal) ℓ)

/-! ## The host stretch's results as composed terms

Each of the three arrays the region reads is the value of a chain of host operations applied to launch contents.
The chains are named here as functions: the index array that feeds the scatter is the other program's, operation for
operation; the adjacency scatters ones into zeros written in the narrow float format; the row scales and the scaled
pre-activation are the other program's chains applied to that adjacency. -/

/-- The adjacency array: ones of the narrow format scattered into zeros of the narrow format at the wrapped edge
    endpoints. -/
def hostAdj (x1 : (⟨Cert.ReferenceIdeal.S24575x2, .i32⟩ : BufTy).Contents (Elt Ideal)) : S12288x12288.Idx → EReal :=
  Host.scatter scatter_S12288x12288_S24575x2_S24575_n_01_01_1 (fun _ b => b)
    (broadcastInDim S12288x12288 ![] bcast_S_S12288x12288 (constant (F := Ideal) S_ .bf16 0x0000#16))
    (Cert.ReferenceIdeal.Read.val_main_v24 (F := Ideal) x1)
    (broadcastInDim S24575 ![] bcast_S_S24575 (constant (F := Ideal) S_ .bf16 0x3F80#16))

/-- The row scales as a vector, from an adjacency array in the narrow format: its widening's row sums to the
    power −1/2. -/
def hostScale (A : S12288x12288.Idx → EReal) : S12288.Idx → EReal :=
  Host.powf (F := Ideal) (φ := .f32)
    (Host.reduceAdd (F := Ideal) (φ := .f32) (extf (F := Ideal) (φ := .bf16) .f32 A bitsLt_bf16_f32)
      (constant (F := Ideal) S_ .f32 0x00000000#32) reducesTo_S12288x12288_S12288_d1 h_S_)
    (broadcastInDim S12288 ![] bcast_S_S12288 (constant (F := Ideal) S_ .f32 0xBF000000#32))

/-- The region's adjacency input is the scatter. -/
theorem V1_Aarr (c : Dev nD) : Aarr (V1 m) c = hostAdj (a1 m c) := by
  unfold hostAdj
  dsimp only [Aarr, V1, W1, W0, hostOps0]
  after_results_simp
  rfl

/-- The region's row-scale input is the row scales of its adjacency input, as a column. -/
theorem V1_Darr (c : Dev nD) :
    Darr (V1 m) c = broadcastInDim S12288x1 ![0] bcast_S12288_S12288x1_0 (hostScale (Aarr (V1 m) c)) := by
  unfold hostScale
  dsimp only [Darr, Aarr, V1, W1, W0, hostOps0]
  after_results_simp

/-- The region's activation input is its row-scale input, spread over the columns, times the other program's first
    pre-activation chain applied to the launch contents; the narrowing to the region's format keeps the value. -/
theorem V1_Xarr (c : Dev nD) : Xarr (V1 m) c
    = truncf (F := Ideal) (φ := .f32) .bf16 (mulf (F := Ideal) (φ := .f32)
        (broadcastInDim S12288x32 ![0, 1] bcast_S12288x1_S12288x32_0_1 (Darr (V1 m) c))
        (Cert.ReferenceIdeal.Read.val_main_v39 (F := Ideal) (a0 m c) (a2 m c) (a3 m c) (a4 m c))) bitsLt_bf16_f32 := by
  dsimp only [Xarr, Darr, V1, W1, W0, hostOps0]
  after_results_simp
  rfl

/-! ## The chains are the other program's -/

/-- Zeros and ones of the narrow format are the zeros and ones of the wide one, and the scatter is the same function
    of its three operands: the adjacency is the other program's. -/
theorem hostAdj_eq (x1 : (⟨Cert.ReferenceIdeal.S24575x2, .i32⟩ : BufTy).Contents (Elt Ideal)) :
    hostAdj x1 = Cert.ReferenceIdeal.Read.val_main_v26 (F := Ideal) x1 := by
  have hz : (broadcastInDim S12288x12288 ![] bcast_S_S12288x12288 (constant (F := Ideal) S_ .bf16 0x0000#16)
        : S12288x12288.Idx → EReal) = Cert.ReferenceIdeal.Read.val_main_v7 (F := Ideal) := by
    funext i
    show Ideal.ofBits .bf16 0x0000#16 = Ideal.ofBits .f32 0x00000000#32
    rw [Ideal.ofBits_zero_bf16, Ideal.ofBits_zero_f32]
  have ho : (broadcastInDim S24575 ![] bcast_S_S24575 (constant (F := Ideal) S_ .bf16 0x3F80#16)
        : S24575.Idx → EReal) = Cert.ReferenceIdeal.Read.val_main_v25 (F := Ideal) := by
    funext i
    show Ideal.ofBits .bf16 0x3F80#16 = Ideal.ofBits .f32 0x3F800000#32
    rw [Ideal.ofBits_one_bf16, Ideal.ofBits_one_f32]
  unfold hostAdj Cert.ReferenceIdeal.Read.val_main_v26
  rw [hz, ho]
  rfl

/-- Widening keeps the value, so the row scales of the other program's adjacency are the other program's row
    scales. -/
theorem hostScale_eq (x1 : (⟨Cert.ReferenceIdeal.S24575x2, .i32⟩ : BufTy).Contents (Elt Ideal)) :
    hostScale (Cert.ReferenceIdeal.Read.val_main_v26 (F := Ideal) x1) = Cert.ReferenceIdeal.Read.val_main_v29 (F := Ideal) x1 := by
  unfold Cert.ReferenceIdeal.Read.val_main_v29 Cert.ReferenceIdeal.Read.val_main_v27
  generalize Cert.ReferenceIdeal.Read.val_main_v26 (F := Ideal) x1 = A
  rfl

/-! ## The first region's inputs -/

theorem V1_A (c : Dev nD) (i j : Fin 12288) : Aarr (V1 m) c (ix2 i j) = Aof (a1 m c) i j := by
  unfold Aof
  rw [V1_Aarr, hostAdj_eq]

theorem V1_D (c : Dev nD) (i : Fin 12288) : Darr (V1 m) c (ix2 i 0) = dof (a1 m c) i := by
  unfold dof
  rw [V1_Darr, V1_Aarr, hostAdj_eq, hostScale_eq]
  generalize Cert.ReferenceIdeal.Read.val_main_v29 (F := Ideal) (a1 m c) = y
  exact broadcastInDim_apply _ bcast_S12288_S12288x1_0 y (ix2 i 0) (ix1 i) (fun a => match a with
    | ⟨0, _⟩ => by show i.val = if (12288 : Nat) = 1 then 0 else i.val; rw [if_neg (by decide)])

theorem V1_X (c : Dev nD) (j : Fin 12288) (q : Fin 32) :
    Xarr (V1 m) c (ix2 j q) = dof (a1 m c) j * t1of (a0 m c) (a2 m c) (a3 m c) (a4 m c) j q := by
  rw [V1_Xarr]
  show broadcastInDim S12288x32 ![0, 1] bcast_S12288x1_S12288x32_0_1 (Darr (V1 m) c) (ix2 j q)
      * Cert.ReferenceIdeal.Read.val_main_v39 (F := Ideal) (a0 m c) (a2 m c) (a3 m c) (a4 m c) (ix2 j q) = _
  rw [← V1_D m c j]
  generalize Darr (V1 m) c = y
  refine congrArg (· * _) ?_
  exact broadcastInDim_apply _ bcast_S12288x1_S12288x32_0_1 y (ix2 j q) (ix2 j 0) (fun a => match a with
    | ⟨0, _⟩ => by show j.val = if (12288 : Nat) = 1 then 0 else j.val; rw [if_neg (by decide)]
    | ⟨1, _⟩ => by show 0 = if (1 : Nat) = 1 then 0 else q.val; rw [if_pos rfl])

end Cert.KernelIdeal.Hand

end
-- ==== Proof.KI.Host3.lean ====
import proofs.«401525_j2345052144079_3_alg».proof.Proof.KI.Args
import proofs.«401525_j2345052144079_3_alg».proof.Proof.KI.Host1

/-! What the second region finds in its input arrays, over the extended reals: the adjacency matrix and the row
scales are those the first region found (nothing between the regions writes them), and the activation is the row
scale times the first layer's output's product with the second weight matrix plus its bias. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Common

variable (m : (ℓ : Loc nD τ sig) → Buf (Elt Ideal) ℓ)

/-! ## The arrays nothing between the regions writes

The second host stretch writes neither the adjacency matrix nor the row scales, and both are input windows of the
first region, which leaves an input window's array as it found it: the second region finds them as the first did. -/

theorem V3_adj (c : Dev nD) : V3 m c main_v26 = V1 m c main_v26 :=
  calc W3 m c (Proc.devRef .tc main_v26)
    _ = W2 m c (Proc.devRef .tc main_v26) := StableHlo.after_of_writes_sub hostOps1 _ hostOps1_writes (by decide)
    _ = (dat0 (V1 m) c).arrAt 0 cfg0.N := W2_arr m c 0
    _ = (dat0 (V1 m) c).A 0 := (dat0 (V1 m) c).arrAt_in 0 rfl _
    _ = V1 m c main_v26 := A_eq0 (V1 m) c 0

theorem V3_scale (c : Dev nD) : V3 m c main_v31 = V1 m c main_v31 :=
  calc W3 m c (Proc.devRef .tc main_v31)
    _ = W2 m c (Proc.devRef .tc main_v31) := StableHlo.after_of_writes_sub hostOps1 _ hostOps1_writes (by decide)
    _ = (dat0 (V1 m) c).arrAt 2 cfg0.N := W2_arr m c 2
    _ = (dat0 (V1 m) c).A 2 := (dat0 (V1 m) c).arrAt_in 2 rfl _
    _ = V1 m c main_v31 := A_eq0 (V1 m) c 2

/-! ## The second region's inputs -/

theorem V3_A (c : Dev nD) (i j : Fin 12288) : HandB.Aarr (V3 m) c (ix2 i j) = Aof (a1 m c) i j := by
  have e : HandB.Aarr (V3 m) c = Aarr (V1 m) c := V3_adj m c
  rw [e]; exact V1_A m c i j

theorem V3_D (c : Dev nD) (i : Fin 12288) : HandB.Darr (V3 m) c (ix2 i 0) = dof (a1 m c) i := by
  have e : HandB.Darr (V3 m) c = Darr (V1 m) c := V3_scale m c
  rw [e]; exact V1_D m c i

/-! ## The activation: what the second host stretch computes

Its last operation's result is one composed term of four operands the stretch itself does not write: the first
region's output array, the second weight matrix, its bias, and the row scales. -/

theorem W2_out (c : Dev nD) : W2 m c (Proc.devRef .tc main_v39) = Oarr (V1 m) c := W2_arr m c 3

theorem W2_scale (c : Dev nD) : W2 m c (Proc.devRef .tc main_v31) = V1 m c main_v31 :=
  calc W2 m c (Proc.devRef .tc main_v31)
    _ = (dat0 (V1 m) c).arrAt 2 cfg0.N := W2_arr m c 2
    _ = (dat0 (V1 m) c).A 2 := (dat0 (V1 m) c).arrAt_in 2 rfl _
    _ = V1 m c main_v31 := A_eq0 (V1 m) c 2

/-- An argument that is no array of the first region and that the first host stretch does not write is as launched. -/
theorem W2_arg5 (c : Dev nD) : W2 m c (Proc.devRef .tc main_arg5) = a5 m c :=
  calc W2 m c (Proc.devRef .tc main_arg5)
    _ = W1 m c (Proc.devRef .tc main_arg5) := W2_of_ne m c main_arg5 (by decide)
    _ = W0 m c (Proc.devRef .tc main_arg5) := StableHlo.after_of_writes_sub hostOps0 _ hostOps0_writes (by decide)
    _ = a5 m c := rfl

theorem W2_arg6 (c : Dev nD) : W2 m c (Proc.devRef .tc main_arg6) = a6 m c :=
  calc W2 m c (Proc.devRef .tc main_arg6)
    _ = W1 m c (Proc.devRef .tc main_arg6) := W2_of_ne m c main_arg6 (by decide)
    _ = W0 m c (Proc.devRef .tc main_arg6) := StableHlo.after_of_writes_sub hostOps0 _ hostOps0_writes (by decide)
    _ = a6 m c := rfl

/-- The activation array as the composed term of the stretch's operations on those four operands. -/
theorem V3_act (c : Dev nD) :
    HandB.Xarr (V3 m) c
      = truncf (F := Ideal) (φ := .f32) .bf16
          (mulf (broadcastInDim S12288x32 ![0, 1] bcast_S12288x1_S12288x32_0_1 (V1 m c main_v31 : FVec Ideal S12288x1 .f32))
            (addf (Host.dotGeneral (φ₁ := .f32) (φ₂ := .f32) dot_S12288x32_S32x32_S12288x32_1_0_0_1_n_n none (Oarr (V1 m) c) (a5 m c))
              (broadcastInDim S12288x32 ![0, 1] bcast_S1x32_S12288x32_0_1
                (broadcastInDim S1x32 ![1] bcast_S32_S1x32_1 (a6 m c : FVec Ideal S32 .f32)))))
          bitsLt_bf16_f32 := by
  rw [← W2_scale m c, ← W2_out m c, ← W2_arg5 m c, ← W2_arg6 m c]
  show StableHlo.after hostOps1 (W2 m c) (Proc.devRef .tc main_v46) = _
  after_results

/-! ## The contraction's axes

Output index `(r, s)` and contraction index `k` address the left operand at `(r, k)` and the right one at `(k, s)`. -/

theorem dotL0 (i : S12288x32.Idx) (k : dot_S12288x32_S32x32_S12288x32_1_0_0_1_n_n.contr.Idx) : (dot_S12288x32_S32x32_S12288x32_1_0_0_1_n_n.lhsIdx i k 0).val = (i 0).val := by
  unfold DotDims.lhsIdx
  rw [dif_neg (show ¬(0 : Fin S12288x32.rank) ∈ dot_S12288x32_S32x32_S12288x32_1_0_0_1_n_n.lhsBatch by decide),
    dif_pos (show (0 : Fin S12288x32.rank) ∈ dot_S12288x32_S32x32_S12288x32_1_0_0_1_n_n.lhsNonContracting by decide)]
  rfl
theorem dotL1 (i : S12288x32.Idx) (k : dot_S12288x32_S32x32_S12288x32_1_0_0_1_n_n.contr.Idx) : (dot_S12288x32_S32x32_S12288x32_1_0_0_1_n_n.lhsIdx i k 1).val = (k ⟨0, by decide⟩).val :=
  dot_S12288x32_S32x32_S12288x32_1_0_0_1_n_n.lhsIdx_val_of_single rfl i k
theorem dotR0 (i : S12288x32.Idx) (k : dot_S12288x32_S32x32_S12288x32_1_0_0_1_n_n.contr.Idx) : (dot_S12288x32_S32x32_S12288x32_1_0_0_1_n_n.rhsIdx i k 0).val = (k ⟨0, by decide⟩).val :=
  dot_S12288x32_S32x32_S12288x32_1_0_0_1_n_n.rhsIdx_val_of_single rfl i k
theorem dotR1 (i : S12288x32.Idx) (k : dot_S12288x32_S32x32_S12288x32_1_0_0_1_n_n.contr.Idx) : (dot_S12288x32_S32x32_S12288x32_1_0_0_1_n_n.rhsIdx i k 1).val = (i 1).val := by
  unfold DotDims.rhsIdx
  rw [dif_neg (show ¬(1 : Fin S32x32.rank) ∈ dot_S12288x32_S32x32_S12288x32_1_0_0_1_n_n.rhsBatch by decide),
    dif_pos (show (1 : Fin S32x32.rank) ∈ dot_S12288x32_S32x32_S12288x32_1_0_0_1_n_n.rhsNonContracting by decide)]
  rfl

/-- The product with the second weight matrix at `(j, q)`: the sum over the 32 hidden features. -/
theorem dot_point (h : FVec Ideal S12288x32 .f32) (w : FVec Ideal S32x32 .f32) (j : Fin 12288) (q : Fin 32) :
    (Host.dotGeneral dot_S12288x32_S32x32_S12288x32_1_0_0_1_n_n none h w : FVec Ideal S12288x32 .f32) (ix2 j q) = ∑ k : Fin 32, h (ix2 j k) * w (ix2 k q) := by
  simp only [Host.dotGeneral]
  rw [Ideal.dotGeneral_apply, ← Equiv.sum_comp (contrEquiv1 dot_S12288x32_S32x32_S12288x32_1_0_0_1_n_n 32 rfl rfl).symm]
  refine Finset.sum_congr rfl fun k _ => ?_
  have hk := contrEquiv1_symm_val dot_S12288x32_S32x32_S12288x32_1_0_0_1_n_n 32 rfl rfl k
  have el : dot_S12288x32_S32x32_S12288x32_1_0_0_1_n_n.lhsIdx (ix2 j q) ((contrEquiv1 dot_S12288x32_S32x32_S12288x32_1_0_0_1_n_n 32 rfl rfl).symm k) = ix2 j k := funext fun a => Fin.ext (by
    match a with
    | ⟨0, _⟩ => exact dotL0 _ _
    | ⟨1, _⟩ => exact (dotL1 _ _).trans hk)
  have er : dot_S12288x32_S32x32_S12288x32_1_0_0_1_n_n.rhsIdx (ix2 j q) ((contrEquiv1 dot_S12288x32_S32x32_S12288x32_1_0_0_1_n_n 32 rfl rfl).symm k) = ix2 k q := funext fun a => Fin.ext (by
    match a with
    | ⟨0, _⟩ => exact (dotR0 _ _).trans hk
    | ⟨1, _⟩ => exact dotR1 _ _)
  rw [el, er]

/-- The bias, broadcast first to a row and then down the rows, at `(j, q)`: its entry `q`. -/
theorem bias_point (b : FVec Ideal S32 .f32) (j : Fin 12288) (q : Fin 32) :
    (broadcastInDim S12288x32 ![0, 1] bcast_S1x32_S12288x32_0_1 (broadcastInDim S1x32 ![1] bcast_S32_S1x32_1 b)
      : FVec Ideal S12288x32 .f32) (ix2 j q) = b (ix1 q) := by
  rw [broadcastInDim_apply _ bcast_S1x32_S12288x32_0_1 _ (ix2 j q) (ix2 (0 : Fin 1) q) (fun a => match a with
    | ⟨0, _⟩ => by show 0 = if (1 : Nat) = 1 then 0 else j.val; rw [if_pos rfl]
    | ⟨1, _⟩ => by show q.val = if (32 : Nat) = 1 then 0 else q.val; rw [if_neg (by decide)])]
  exact broadcastInDim_apply _ bcast_S32_S1x32_1 b (ix2 (0 : Fin 1) q) (ix1 q) (fun a => match a with
    | ⟨0, _⟩ => by show q.val = if (32 : Nat) = 1 then 0 else q.val; rw [if_neg (by decide)])

/-- The row scales, a column broadcast along the rows, at `(j, q)`: row `j`'s scale. -/
theorem scale_point (d : FVec Ideal S12288x1 .f32) (j : Fin 12288) (q : Fin 32) :
    (broadcastInDim S12288x32 ![0, 1] bcast_S12288x1_S12288x32_0_1 d : FVec Ideal S12288x32 .f32) (ix2 j q) = d (ix2 j 0) :=
  broadcastInDim_apply _ bcast_S12288x1_S12288x32_0_1 d (ix2 j q) (ix2 j (0 : Fin 1)) (fun a => match a with
    | ⟨0, _⟩ => by show j.val = if (12288 : Nat) = 1 then 0 else j.val; rw [if_neg (by decide)]
    | ⟨1, _⟩ => by show 0 = if (1 : Nat) = 1 then 0 else q.val; rw [if_pos rfl])

/-! ## The second region's activation input -/

theorem V3_X (c : Dev nD) (j : Fin 12288) (q : Fin 32) :
    HandB.Xarr (V3 m) c (ix2 j q)
      = dof (a1 m c) j * t2of (fun j' k => Oarr (V1 m) c (ix2 j' k)) (a5 m c) (a6 m c) j q := by
  rw [V3_act m c, truncf_apply, mulf_apply, addf_apply, scale_point, dot_point, bias_point]
  have hd : (V1 m c main_v31 : FVec Ideal S12288x1 .f32) (ix2 j 0) = dof (a1 m c) j := V1_D m c j
  rw [hd]
  rfl

end Cert.KernelIdeal.Hand

end
-- ==== Proof.RefSide.lean ====
import proofs.«401525_j2345052144079_3_alg».proof.Proof.Gen.ReferenceIdeal.Run
import proofs.«401525_j2345052144079_3_alg».proof.Proof.Gen.ReferenceIdeal.Read
import proofs.«401525_j2345052144079_3_alg».proof.Proof.Common

/-! The reference program's result, entry by entry over the extended reals: two graph-convolution layers, each a
single contraction of the doubly scaled adjacency matrix with the layer's pre-activation, clamped below at zero. -/

set_option maxRecDepth 16384

noncomputable section

namespace Cert.RefValue

open Cert.ReferenceIdeal Idealize.ShloMosaic Idealize.ShloMosaic.ValueIdx Cert.Common Cert.Spec

section Stages

open Cert.ReferenceIdeal.Read

/-! ### Index equations

Each layout operation and each contraction reads its operand at an index computed from the result's index.  At a
result index given by its coordinates these computed indices are again given by coordinates. -/

/-- A column vector broadcast along rows is read at the row coordinate. -/
theorem idx_row (i j : Fin 12288) : idx_main_v30 (idx_main_v31 (ix2 i j)) = ix1 i :=
  funext fun a => Fin.ext (by match a with | ⟨0, _⟩ => rfl)

/-- A row vector broadcast along columns is read at the column coordinate. -/
theorem idx_col (i j : Fin 12288) : idx_main_v33 (idx_main_v34 (ix2 i j)) = ix1 j :=
  funext fun a => Fin.ext (by match a with | ⟨0, _⟩ => rfl)

/-- The first layer's contraction reads its left operand along row `r` … -/
theorem lidx40 (r : Fin 12288) (q : Fin 32) (k : Fin 12288) : lidx_main_v40 (ix2 r q) k = ix2 r k :=
  funext fun a => Fin.ext (by match a with | ⟨0, _⟩ => rfl | ⟨1, _⟩ => rfl)

/-- … and its right operand down column `q`. -/
theorem ridx40 (r : Fin 12288) (q : Fin 32) (k : Fin 12288) : ridx_main_v40 (ix2 r q) k = ix2 k q :=
  funext fun a => Fin.ext (by match a with | ⟨0, _⟩ => rfl | ⟨1, _⟩ => rfl)

/-- The second weight product reads the activation along row `j` … -/
theorem lidx42 (j : Fin 12288) (q : Fin 32) (k : Fin 32) : lidx_main_v42 (ix2 j q) k = ix2 j k :=
  funext fun a => Fin.ext (by match a with | ⟨0, _⟩ => rfl | ⟨1, _⟩ => rfl)

/-- … and the weight matrix down column `q`. -/
theorem ridx42 (j : Fin 12288) (q : Fin 32) (k : Fin 32) : ridx_main_v42 (ix2 j q) k = ix2 k q :=
  funext fun a => Fin.ext (by match a with | ⟨0, _⟩ => rfl | ⟨1, _⟩ => rfl)

/-- The second bias, broadcast to every row, is read at the column coordinate. -/
theorem idx_bias (j : Fin 12288) (q : Fin 32) : idx_main_v43 (idx_main_v44 (ix2 j q)) = ix1 q :=
  funext fun a => Fin.ext (by match a with | ⟨0, _⟩ => rfl)

/-- The second layer's contraction reads its left operand along row `r` … -/
theorem lidx46 (r : Fin 12288) (q : Fin 32) (k : Fin 12288) : lidx_main_v46 (ix2 r q) k = ix2 r k :=
  funext fun a => Fin.ext (by match a with | ⟨0, _⟩ => rfl | ⟨1, _⟩ => rfl)

/-- … and its right operand down column `q`. -/
theorem ridx46 (r : Fin 12288) (q : Fin 32) (k : Fin 12288) : ridx_main_v46 (ix2 r q) k = ix2 k q :=
  funext fun a => Fin.ext (by match a with | ⟨0, _⟩ => rfl | ⟨1, _⟩ => rfl)

/-! ### The stages, each at an index given by coordinates -/

variable (x0 : (⟨S12288, .i32⟩ : BufTy).Contents (Elt Ideal)) (x1 : (⟨S24575x2, .i32⟩ : BufTy).Contents (Elt Ideal))
  (x2 : (⟨S1000x256, .f32⟩ : BufTy).Contents (Elt Ideal)) (x3 : (⟨S256x32, .f32⟩ : BufTy).Contents (Elt Ideal))
  (x4 : (⟨S32, .f32⟩ : BufTy).Contents (Elt Ideal)) (x5 : (⟨S32x32, .f32⟩ : BufTy).Contents (Elt Ideal))
  (x6 : (⟨S32, .f32⟩ : BufTy).Contents (Elt Ideal))

/-- The doubly scaled adjacency: entry `(i, j)` is the adjacency's, times the scale of row `i` on the left and
    the scale of row `j` on the right. -/
theorem scaled_apply (i j : Fin 12288) :
    val_main_v35 (F := Ideal) x1 (ix2 i j) = (dof x1 i * Aof x1 i j) * dof x1 j := by
  rw [val_main_v35_apply, val_main_v32_apply, val_main_v31_apply, val_main_v30_apply, val_main_v34_apply,
    val_main_v33_apply, idx_row, idx_col]
  rfl

/-- The first layer before its clamp: the scaled adjacency's row `r` contracted with column `q` of the first
    pre-activation. -/
theorem pre1_apply (r : Fin 12288) (q : Fin 32) :
    val_main_v40 (F := Ideal) x0 x1 x2 x3 x4 (ix2 r q)
      = ∑ j : Fin 12288, ((dof x1 r * Aof x1 r j) * dof x1 j) * t1of x0 x2 x3 x4 j q := by
  rw [val_main_v40_apply]
  refine Finset.sum_congr rfl fun k _ => ?_
  rw [lidx40, ridx40, scaled_apply]
  rfl

/-- The first layer: the contraction clamped below at zero. -/
theorem layer1_apply (r : Fin 12288) (q : Fin 32) :
    val_main_v41 (F := Ideal) x0 x1 x2 x3 x4 (ix2 r q) = rLayer (Aof x1) (dof x1) (t1of x0 x2 x3 x4) r q := by
  rw [val_main_v41_apply, val_main_call0_v0_apply, val_main_call0_cst_apply, pre1_apply]
  simp only [Ideal.maximumf_def, Ideal.ofBits_def, Ideal.ofBits_zero_f32]
  rfl

/-- The second pre-activation: the first layer's row `j` times column `q` of the second weight matrix, plus the
    second bias at `q`. -/
theorem pre_act2_apply (j : Fin 12288) (q : Fin 32) :
    val_main_v45 (F := Ideal) x0 x1 x2 x3 x4 x5 x6 (ix2 j q)
      = t2of (rLayer (Aof x1) (dof x1) (t1of x0 x2 x3 x4)) x5 x6 j q := by
  rw [val_main_v45_apply, val_main_v42_apply, val_main_v44_apply, val_main_v43_apply, idx_bias]
  simp only [Ideal.addf_def]
  unfold t2of
  refine congrArg (· + x6 (ix1 q)) (Finset.sum_congr rfl fun k _ => ?_)
  rw [lidx42, ridx42, layer1_apply]

/-- The second layer before its clamp. -/
theorem pre2_apply (r : Fin 12288) (q : Fin 32) :
    val_main_v46 (F := Ideal) x0 x1 x2 x3 x4 x5 x6 (ix2 r q)
      = ∑ j : Fin 12288, ((dof x1 r * Aof x1 r j) * dof x1 j)
          * t2of (rLayer (Aof x1) (dof x1) (t1of x0 x2 x3 x4)) x5 x6 j q := by
  rw [val_main_v46_apply]
  refine Finset.sum_congr rfl fun k _ => ?_
  rw [lidx46, ridx46, scaled_apply, pre_act2_apply]

end Stages

/-- Entry `(r, q)` of the reference's result, from the raw argument arrays. -/
theorem ref_result (x0 : (⟨S12288, .i32⟩ : BufTy).Contents (Elt Ideal)) (x1 : (⟨S24575x2, .i32⟩ : BufTy).Contents (Elt Ideal))
    (x2 : (⟨S1000x256, .f32⟩ : BufTy).Contents (Elt Ideal)) (x3 : (⟨S256x32, .f32⟩ : BufTy).Contents (Elt Ideal))
    (x4 : (⟨S32, .f32⟩ : BufTy).Contents (Elt Ideal)) (x5 : (⟨S32x32, .f32⟩ : BufTy).Contents (Elt Ideal))
    (x6 : (⟨S32, .f32⟩ : BufTy).Contents (Elt Ideal)) (r : Fin 12288) (q : Fin 32) :
    Cert.ReferenceIdeal.Read.val_main_v47 (F := Ideal) x0 x1 x2 x3 x4 x5 x6 (ix2 r q)
      = rLayer (Aof x1) (dof x1) (t2of (rLayer (Aof x1) (dof x1) (t1of x0 x2 x3 x4)) x5 x6) r q := by
  -- The result is the second contraction clamped below at zero, the clamp's zero being the broadcast literal.
  rw [Cert.ReferenceIdeal.Read.val_main_v47_apply, Cert.ReferenceIdeal.Read.val_main_call1_v0_apply,
    Cert.ReferenceIdeal.Read.val_main_call1_cst_apply, pre2_apply]
  simp only [Ideal.maximumf_def, Ideal.ofBits_def, Ideal.ofBits_zero_f32]
  rfl

end Cert.RefValue

end
-- ==== Proof.DNonneg.lean ====
import proofs.«401525_j2345052144079_3_alg».proof.Proof.Common
import Idealize.ShloMosaic.PureOps.Ideal.Laws
import Idealize.ShloMosaic.Lib.IdealHost

/-! Every row's scale is a non-negative real.  The adjacency matrix is a scatter of ones into zeros, so each of
its entries is zero or one whatever the edge list holds; a row's degree, a sum of such entries from zero, is
therefore non-negative; and a non-negative extended real to the power −1/2 is a non-negative real. -/

set_option maxRecDepth 16384

noncomputable section

namespace Cert.Common

open Cert.ReferenceIdeal Idealize.ShloMosaic Idealize.ShloMosaic.ValueIdx

/-- An invariant of a scatter.  The scatter is a left fold over the update positions; each step either leaves the
    array as it is or replaces one entry `a` by `f a u` for an update value `u`.  So a predicate that holds of
    every entry of the operand, and that `f a u` keeps for every update value `u` whenever it holds of `a`,
    holds of every entry of the result, whatever the indices are. -/
theorem scatter_pred {s si u : Shape} {α : Type} {w : Nat} (d : ScatterDims s si u) (f : α → α → α)
    (x : s.Idx → α) (idx : IVec si w) (upd : u.Idx → α) (P : α → Prop)
    (hx : ∀ i, P (x i)) (hf : ∀ a j, P a → P (f a (upd j))) :
    ∀ i, P (Host.scatter d f x idx upd i) := by
  unfold Host.scatter
  generalize List.finRange u.numel = l
  -- Induction on the list of update positions, for every accumulated array that satisfies the predicate.
  induction l generalizing x with
  | nil => exact hx
  | cons n l ih =>
    rw [List.foldl_cons]
    apply ih
    intro i
    -- One step: the update lands at some position `j` of the operand, or outside it and is dropped.
    generalize d.resultIdx? (u.rowMajor.symm n) idx = o
    cases o with
    | none => exact hx i
    | some j =>
      show P (if i = j then f (x j) (upd (u.rowMajor.symm n)) else x i)
      split_ifs
      · exact hf _ _ (hx _)
      · exact hx _

/-- Every entry of the adjacency matrix is non-negative: the operand is all zeros, every update value is one, and
    the scatter's body returns the update. -/
theorem adj_nonneg (x1 : (⟨S24575x2, .i32⟩ : BufTy).Contents (Elt Ideal)) (i : S12288x12288.Idx) :
    (0 : EReal) ≤ Read.val_main_v26 (F := Ideal) x1 i := by
  unfold Read.val_main_v26
  refine scatter_pred _ _ _ _ _ (fun a => (0 : EReal) ≤ a) ?_ ?_ i
  · intro i
    show (0 : EReal) ≤ Read.val_main_v7 (F := Ideal) i
    rw [Read.val_main_v7_apply, Read.val_main_cst_apply, Ideal.ofBits_def, Ideal.ofBits_zero_f32]
  · intro a j _
    show (0 : EReal) ≤ Read.val_main_v25 (F := Ideal) j
    rw [Read.val_main_v25_apply, Read.val_main_cst_5_apply, Ideal.ofBits_def, Ideal.ofBits_one_f32]
    exact zero_le_one

/-- The exponent's pattern denotes the real −1/2: sign bit set, exponent field 126, significand field 0, so
    −2²³ · 2^(126 − 127 − 23). -/
theorem half_neg : ∃ y : ℝ, y < 0 ∧ Ideal.ofBits .f32 0xBF000000#32 = (y : EReal) := by
  refine ⟨-(1/2), by norm_num, ?_⟩
  simp [Ideal.ofBits, Ideal.ieee, -EReal.coe_mul, -EReal.coe_neg]; norm_num

/-- The scale of every row is a non-negative real. -/
theorem dof_nonneg_real (x1 : (⟨S24575x2, .i32⟩ : BufTy).Contents (Elt Ideal)) :
    ∀ i, ∃ r : ℝ, 0 ≤ r ∧ dof x1 i = (r : EReal) := by
  intro i
  obtain ⟨y, hy, hyeq⟩ := half_neg
  -- The degree: zero plus a sum of non-negative entries.
  have hdeg : (0 : EReal) ≤ Read.val_main_v27 (F := Ideal) x1 (ix1 i) := by
    rw [Read.val_main_v27_apply, Read.val_main_cst_6_apply, Ideal.ofBits_def, Ideal.ofBits_zero_f32]
    exact add_nonneg le_rfl (Finset.sum_nonneg fun k _ => adj_nonneg x1 _)
  -- The exponent: the constant −1/2 at every row.
  have hexp : Read.val_main_v28 (F := Ideal) (ix1 i) = (y : EReal) := by
    rw [Read.val_main_v28_apply, Read.val_main_cst_7_apply, Ideal.ofBits_def, hyeq]
  -- The scale is the degree to that power.
  show ∃ r : ℝ, 0 ≤ r ∧ Read.val_main_v29 (F := Ideal) x1 (ix1 i) = (r : EReal)
  rw [Read.val_main_v29_apply, Ideal.hostPowf_def, hexp]
  exact Cert.Spec.pow_nonneg_real _ hdeg y hy

end Cert.Common

end
-- ==== Proof.Bridge.lean ====
import proofs.«401525_j2345052144079_3_alg».proof.Proof.KI.Host1
import proofs.«401525_j2345052144079_3_alg».proof.Proof.KI.Host3
import proofs.«401525_j2345052144079_3_alg».proof.Proof.RefSide
import proofs.«401525_j2345052144079_3_alg».proof.Proof.DNonneg

/-! The two programs' results are one function of the arguments.

The tiled program's result is its second region's output array: entry by entry, the tiled layer applied to the
second pre-activation, which is built from the first region's output array, itself the tiled layer applied to the
first pre-activation.  Every row scale being a non-negative real, the tiled layer is the whole-matrix layer, twice;
and that is what the reference computes. -/

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx
open Cert.Common Cert.Spec

variable (m : (ℓ : Loc nD τ sig) → Buf (Elt Ideal) ℓ)

/-- The first region's output array is the tiled layer of the first pre-activation. -/
theorem layer1 (c : Dev nD) (j : Fin 12288) (k : Fin 32) :
    Oarr (V1 m) c (ix2 j k) = kLayer (Aof (a1 m c)) (dof (a1 m c)) (t1of (a0 m c) (a2 m c) (a3 m c) (a4 m c)) j k := by
  rw [final0]
  unfold kLayer
  rw [V1_D m c j]
  have h : (fun j' => Aarr (V1 m) c (ix2 j j') * Xarr (V1 m) c (ix2 j' k))
      = fun j' => Aof (a1 m c) j j' * (dof (a1 m c) j' * t1of (a0 m c) (a2 m c) (a3 m c) (a4 m c) j' k) := by
    funext j'; rw [V1_A m c j j', V1_X m c j' k]
  rw [h]

/-- The second region's output array is the tiled layer of the second pre-activation. -/
theorem layer2 (c : Dev nD) (r : Fin 12288) (q : Fin 32) :
    HandB.Oarr (V3 m) c (ix2 r q)
      = kLayer (Aof (a1 m c)) (dof (a1 m c))
          (t2of (kLayer (Aof (a1 m c)) (dof (a1 m c)) (t1of (a0 m c) (a2 m c) (a3 m c) (a4 m c))) (a5 m c) (a6 m c)) r q := by
  rw [HandB.final0]
  unfold kLayer
  rw [V3_D m c r]
  have h1 : (fun j' k => Oarr (V1 m) c (ix2 j' k))
      = kLayer (Aof (a1 m c)) (dof (a1 m c)) (t1of (a0 m c) (a2 m c) (a3 m c) (a4 m c)) := by
    funext j' k; exact layer1 m c j' k
  have h : (fun j' => HandB.Aarr (V3 m) c (ix2 r j') * HandB.Xarr (V3 m) c (ix2 j' q))
      = fun j' => Aof (a1 m c) r j' * (dof (a1 m c) j'
          * t2of (kLayer (Aof (a1 m c)) (dof (a1 m c)) (t1of (a0 m c) (a2 m c) (a3 m c) (a4 m c))) (a5 m c) (a6 m c) j' q) := by
    funext j'; rw [V3_A m c r j', V3_X m c j' q, h1]
  rw [h]
  rfl

/-- The tiled program's result, entry by entry, is the reference's. -/
theorem result_eq (c : Dev nD) (r : Fin 12288) (q : Fin 32) :
    HandB.Oarr (V3 m) c (ix2 r q)
      = Cert.ReferenceIdeal.Read.val_main_v47 (F := Ideal) (a0 m c) (a1 m c) (a2 m c) (a3 m c) (a4 m c) (a5 m c) (a6 m c) (ix2 r q) := by
  rw [layer2, Cert.RefValue.ref_result, layer_eq _ _ _ (dof_nonneg_real (a1 m c)), layer_eq _ _ _ (dof_nonneg_real (a1 m c))]

/-- From memories agreeing on the seven arguments, the reference's result array is the tiled program's. -/
theorem value_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6)) :
    Cert.ReferenceIdeal.Value.res_main_v47 (F := Ideal) m' c = HandB.Oarr (V3 m) c := by
  rw [Cert.ReferenceIdeal.Read.val_main_v47_eq, h0, h1, h2, h3, h4, h5, h6]
  funext i
  rw [eq_ix2 i]
  exact (result_eq m c (i 0) (i 1)).symm

end Cert.Bridge

end
-- ==== Proof.lean ====
import proofs.«401525_j2345052144079_3_alg».proof.Defs
import proofs.«401525_j2345052144079_3_alg».proof.Proof.Gen.Kernel
import proofs.«401525_j2345052144079_3_alg».proof.Proof.Gen.KernelIdeal
import proofs.«401525_j2345052144079_3_alg».proof.Proof.Gen.ReferenceIdeal
import proofs.«401525_j2345052144079_3_alg».proof.Proof.Gen.Pre_finite_inputs
import proofs.«401525_j2345052144079_3_alg».proof.Proof.Gen.ReferenceIdeal.Run
import proofs.«401525_j2345052144079_3_alg».proof.Proof.K.Run
import proofs.«401525_j2345052144079_3_alg».proof.Proof.KI.Run
import proofs.«401525_j2345052144079_3_alg».proof.Proof.Bridge
import Idealize.ShloMosaic.Adequacy
import Idealize.ShloMosaic.Init

/-! Two graph-convolution layers over a dense adjacency matrix scattered from an edge list.

One program scales the activation's rows by the inverse square roots of the row degrees, multiplies by the raw
0/1 adjacency matrix in a tiled kernel that accumulates three column tiles per row block, and scales and clamps
the rows in the kernel's last step; the other scales the adjacency matrix on both sides and contracts once.  The
two agree over the extended reals because every row scale is a non-negative real, which distributes over the
sums involved; no finiteness of the inputs is needed.  Both programs run to the end from any memory, leaving
their arguments unchanged: the tiled program's run is followed item by item, each kernel region point by point
with its accumulator's running value as the invariant. -/

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    fun m ρ _ => (θ_run Cert.ReferenceIdeal.defs _ _).mono (fun _ h c => (h c).2) (Cert.ReferenceIdeal.Value.run (F := Ideal) m ρ),
    trivial,
    fun m ρ m' ρ' _ hagree =>
      ⟨fun c => Cert.KernelIdeal.HandB.Oarr (Cert.KernelIdeal.Hand.V3 m) c,
        Cert.KernelIdeal.Hand.run_main m ρ,
        (θ_run Cert.ReferenceIdeal.defs _ _).mono
          (fun _ h c => ⟨(h c).1.trans (Cert.Bridge.value_eq m m' c (hagree c).1 (hagree c).2.1 (hagree c).2.2.1 (hagree c).2.2.2.1
              (hagree c).2.2.2.2.1 (hagree c).2.2.2.2.2.1 (hagree c).2.2.2.2.2.2), (h c).2⟩)
          (Cert.ReferenceIdeal.Value.run (F := Ideal) m' ρ')⟩⟩

end Cert.Proof

end
